-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x50 : Shape := ⟨2, ![50000, 50]⟩
abbrev S100x50 : Shape := ⟨2, ![100, 50]⟩
abbrev S50 : Shape := ⟨1, ![50]⟩
abbrev S50x100 : Shape := ⟨2, ![50, 100]⟩
abbrev S100 : Shape := ⟨1, ![100]⟩
abbrev S50x1 : Shape := ⟨2, ![50, 1]⟩
abbrev S1 : Shape := ⟨1, ![1]⟩
abbrev S50000x100 : Shape := ⟨2, ![50000, 100]⟩
abbrev S50000x1 : Shape := ⟨2, ![50000, 1]⟩
abbrev S65536 : Shape := ⟨1, ![65536]⟩
abbrev S65536x10 : Shape := ⟨2, ![65536, 10]⟩
abbrev S_ : Shape := ⟨0, ![]⟩

class Facts : Prop where
  bcast_S_S50000x50 : S_.BroadcastsInDim S50000x50 (![] : Fin 0 → Fin S50000x50.rank)
  reducesTo_S50000x50_S_d0_1 : S50000x50.ReducesTo [0, 1] S_
  h_S_ : 0 < S_.numel
  bcast_S_S100x50 : S_.BroadcastsInDim S100x50 (![] : Fin 0 → Fin S100x50.rank)
  reducesTo_S100x50_S_d0_1 : S100x50.ReducesTo [0, 1] S_
  bcast_S_S50 : S_.BroadcastsInDim S50 (![] : Fin 0 → Fin S50.rank)
  reducesTo_S50_S_d0 : S50.ReducesTo [0] S_
  bcast_S_S50x100 : S_.BroadcastsInDim S50x100 (![] : Fin 0 → Fin S50x100.rank)
  reducesTo_S50x100_S_d0_1 : S50x100.ReducesTo [0, 1] S_
  bcast_S_S100 : S_.BroadcastsInDim S100 (![] : Fin 0 → Fin S100.rank)
  reducesTo_S100_S_d0 : S100.ReducesTo [0] S_
  bcast_S_S50x1 : S_.BroadcastsInDim S50x1 (![] : Fin 0 → Fin S50x1.rank)
  reducesTo_S50x1_S_d0_1 : S50x1.ReducesTo [0, 1] S_
  bcast_S_S1 : S_.BroadcastsInDim S1 (![] : Fin 0 → Fin S1.rank)
  reducesTo_S1_S_d0 : S1.ReducesTo [0] S_
  bcast_S_S50000x100 : S_.BroadcastsInDim S50000x100 (![] : Fin 0 → Fin S50000x100.rank)
  reducesTo_S50000x100_S_d0_1 : S50000x100.ReducesTo [0, 1] S_
  bcast_S_S50000x1 : S_.BroadcastsInDim S50000x1 (![] : Fin 0 → Fin S50000x1.rank)
  reducesTo_S50000x1_S_d0_1 : S50000x1.ReducesTo [0, 1] S_

variable [Facts]

def fn_part2 {F : FTy → Type} [FloatOps F] (main_arg7 : FVec F S50000x100 .f32) (main_arg8 : FVec F S50000x1 .f32) (main_v33 : IVec S_ 1) : IVec S_ 1 :=
  let main_v34 : FVec F S50000x100 .f32 := Host.absf main_arg7
  let main_cst_12 : FVec F S_ .f32 := constant S_ .f32 0x7F800000#32
  let main_v35 : FVec F S50000x100 .f32 := broadcastInDim S50000x100 ![] bcast_S_S50000x100 main_cst_12
  let main_v36 : IVec S50000x100 1 := cmpf .olt main_v34 main_v35
  let main_c_13 : IVec S_ 1 := constantI S_ 1 1#1
  let main_v37 : IVec S_ 1 := (fun x v => Host.reduce IntOp.andi x v reducesTo_S50000x100_S_d0_1 h_S_) main_v36 main_c_13
  let main_v38 : IVec S_ 1 := andi main_v33 main_v37
  let main_v39 : FVec F S50000x1 .f32 := Host.absf main_arg8
  let main_cst_14 : FVec F S_ .f32 := constant S_ .f32 0x7F800000#32
  let main_v40 : FVec F S50000x1 .f32 := broadcastInDim S50000x1 ![] bcast_S_S50000x1 main_cst_14
  let main_v41 : IVec S50000x1 1 := cmpf .olt main_v39 main_v40
  let main_c_15 : IVec S_ 1 := constantI S_ 1 1#1
  let main_v42 : IVec S_ 1 := (fun x v => Host.reduce IntOp.andi x v reducesTo_S50000x1_S_d0_1 h_S_) main_v41 main_c_15
  let main_v43 : IVec S_ 1 := andi main_v38 main_v42
  main_v43

def fn_part1 {F : FTy → Type} [FloatOps F] (main_arg4 : FVec F S100 .f32) (main_arg5 : FVec F S50x1 .f32) (main_arg6 : FVec F S1 .f32) (main_arg7 : FVec F S50000x100 .f32) (main_arg8 : FVec F S50000x1 .f32) (main_v13 : IVec S_ 1) (main_v16 : IVec S50x100 1) : IVec S_ 1 :=
  let main_c_5 : IVec S_ 1 := constantI S_ 1 1#1
  let main_v17 : IVec S_ 1 := (fun x v => Host.reduce IntOp.andi x v reducesTo_S50x100_S_d0_1 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S50x1 .f32 := Host.absf main_arg5
  let main_cst_8 : FVec F S_ .f32 := constant S_ .f32 0x7F800000#32
  let main_v25 : FVec F S50x1 .f32 := broadcastInDim S50x1 ![] bcast_S_S50x1 main_cst_8
  let main_v26 : IVec S50x1 1 := cmpf .olt main_v24 main_v25
  let main_c_9 : IVec S_ 1 := constantI S_ 1 1#1
  let main_v27 : IVec S_ 1 := (fun x v => Host.reduce IntOp.andi x v reducesTo_S50x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_v33

def fn {F : FTy → Type} [FloatOps F] (main_arg0 : FVec F S50000x50 .f32) (main_arg1 : FVec F S100x50 .f32) (main_arg2 : FVec F S50 .f32) (main_arg3 : FVec F S50x100 .f32) (main_arg4 : FVec F S100 .f32) (main_arg5 : FVec F S50x1 .f32) (main_arg6 : FVec F S1 .f32) (main_arg7 : FVec F S50000x100 .f32) (main_arg8 : FVec F S50000x1 .f32) (main_arg9 : IVec S65536 32) (main_arg10 : IVec S65536x10 32) (main_arg11 : IVec S65536x10 32) : IVec S_ 1 :=
  let main_v0 : FVec F S50000x50 .f32 := Host.absf main_arg0
  let main_cst : FVec F S_ .f32 := constant S_ .f32 0x7F800000#32
  let main_v1 : FVec F S50000x50 .f32 := broadcastInDim S50000x50 ![] bcast_S_S50000x50 main_cst
  let main_v2 : IVec S50000x50 1 := cmpf .olt main_v0 main_v1
  let main_c : IVec S_ 1 := constantI S_ 1 1#1
  let main_v3 : IVec S_ 1 := (fun x v => Host.reduce IntOp.andi x v reducesTo_S50000x50_S_d0_1 h_S_) main_v2 main_c
  let main_v4 : FVec F S100x50 .f32 := Host.absf main_arg1
  let main_cst_0 : FVec F S_ .f32 := constant S_ .f32 0x7F800000#32
  let main_v5 : FVec F S100x50 .f32 := broadcastInDim S100x50 ![] bcast_S_S100x50 main_cst_0
  let main_v6 : IVec S100x50 1 := cmpf .olt main_v4 main_v5
  let main_c_1 : IVec S_ 1 := constantI S_ 1 1#1
  let main_v7 : IVec S_ 1 := (fun x v => Host.reduce IntOp.andi x v reducesTo_S100x50_S_d0_1 h_S_) main_v6 main_c_1
  let main_v8 : IVec S_ 1 := andi main_v3 main_v7
  let main_v9 : FVec F S50 .f32 := Host.absf main_arg2
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  let main_v14 : FVec F S50x100 .f32 := Host.absf main_arg3
  let main_cst_4 : FVec F S_ .f32 := constant S_ .f32 0x7F800000#32
  let main_v15 : FVec F S50x100 .f32 := broadcastInDim S50x100 ![] bcast_S_S50x100 main_cst_4
  let main_v16 : IVec S50x100 1 := cmpf .olt main_v14 main_v15
  fn_part1 (F := F) main_arg4 main_arg5 main_arg6 main_arg7 main_arg8 main_v13 main_v16
-- ==== Kernel.lean ====
abbrev S50000x50 : Shape := ⟨2, ![50000, 50]⟩
abbrev S100x50 : Shape := ⟨2, ![100, 50]⟩
abbrev S50 : Shape := ⟨1, ![50]⟩
abbrev S50x100 : Shape := ⟨2, ![50, 100]⟩
abbrev S100 : Shape := ⟨1, ![100]⟩
abbrev S50x1 : Shape := ⟨2, ![50, 1]⟩
abbrev S1 : Shape := ⟨1, ![1]⟩
abbrev S50000x100 : Shape := ⟨2, ![50000, 100]⟩
abbrev S50000x1 : Shape := ⟨2, ![50000, 1]⟩
abbrev S65536 : Shape := ⟨1, ![65536]⟩
abbrev S65536x10 : Shape := ⟨2, ![65536, 10]⟩
abbrev S50000x101 : Shape := ⟨2, ![50000, 101]⟩
abbrev S_ : Shape := ⟨0, ![]⟩
abbrev S65536x10x1 : Shape := ⟨3, ![65536, 10, 1]⟩
abbrev S65536x10x50 : Shape := ⟨3, ![65536, 10, 50]⟩
abbrev S65536x1 : Shape := ⟨2, ![65536, 1]⟩
abbrev S65536x50 : Shape := ⟨2, ![65536, 50]⟩
abbrev S65536x10x101 : Shape := ⟨3, ![65536, 10, 101]⟩
abbrev S65536x101 : Shape := ⟨2, ![65536, 101]⟩
abbrev S1x50 : Shape := ⟨2, ![1, 50]⟩
abbrev S1x100 : Shape := ⟨2, ![1, 100]⟩
abbrev S1x1 : Shape := ⟨2, ![1, 1]⟩
abbrev S8x128 : Shape := ⟨2, ![8, 128]⟩
abbrev S128x10x50 : Shape := ⟨3, ![128, 10, 50]⟩
abbrev S128x50 : Shape := ⟨2, ![128, 50]⟩
abbrev S128x10x101 : Shape := ⟨3, ![128, 10, 101]⟩
abbrev S128x101 : Shape := ⟨2, ![128, 101]⟩
abbrev S1280x50 : Shape := ⟨2, ![1280, 50]⟩
abbrev S128x1x50 : Shape := ⟨3, ![128, 1, 50]⟩
abbrev S1280x100 : Shape := ⟨2, ![1280, 100]⟩
abbrev S128x100 : Shape := ⟨2, ![128, 100]⟩
abbrev S128x1 : Shape := ⟨2, ![128, 1]⟩
abbrev S128x10x100 : Shape := ⟨3, ![128, 10, 100]⟩
abbrev S128x10x1 : Shape := ⟨3, ![128, 10, 1]⟩
abbrev S128x10 : Shape := ⟨2, ![128, 10]⟩
abbrev S128x1x100 : Shape := ⟨3, ![128, 1, 100]⟩
abbrev S128 : Shape := ⟨1, ![128]⟩
abbrev S1x127 : Shape := ⟨2, ![1, 127]⟩
abbrev S1x128 : Shape := ⟨2, ![1, 128]⟩
abbrev S7x128 : Shape := ⟨2, ![7, 128]⟩

abbrev nBuf : Space → Nat
  | .hbm => 66
  | .vmem => 17
  | .smem => 0
  | _ => 0

abbrev bufTy : (tb : Table) → Fin (tcTables nBuf tb) → BufTy
  | .hbm, ⟨0, _⟩ => ⟨S50000x50, .f32⟩
  | .hbm, ⟨1, _⟩ => ⟨S100x50, .f32⟩
  | .hbm, ⟨2, _⟩ => ⟨S50, .f32⟩
  | .hbm, ⟨3, _⟩ => ⟨S50x100, .f32⟩
  | .hbm, ⟨4, _⟩ => ⟨S100, .f32⟩
  | .hbm, ⟨5, _⟩ => ⟨S50x1, .f32⟩
  | .hbm, ⟨6, _⟩ => ⟨S1, .f32⟩
  | .hbm, ⟨7, _⟩ => ⟨S50000x100, .f32⟩
  | .hbm, ⟨8, _⟩ => ⟨S50000x1, .f32⟩
  | .hbm, ⟨9, _⟩ => ⟨S65536, .i32⟩
  | .hbm, ⟨10, _⟩ => ⟨S65536x10, .i32⟩
  | .hbm, ⟨11, _⟩ => ⟨S65536x10, .i32⟩
  | .hbm, ⟨12, _⟩ => ⟨S50000x101, .f32⟩
  | .hbm, ⟨13, _⟩ => ⟨S_, .i32⟩
  | .hbm, ⟨14, _⟩ => ⟨S65536x10, .i32⟩
  | .hbm, ⟨15, _⟩ => ⟨S65536x10, .i1⟩
  | .hbm, ⟨16, _⟩ => ⟨S_, .i32⟩
  | .hbm, ⟨17, _⟩ => ⟨S65536x10, .i32⟩
  | .hbm, ⟨18, _⟩ => ⟨S65536x10, .i32⟩
  | .hbm, ⟨19, _⟩ => ⟨S65536x10, .i32⟩
  | .hbm, ⟨20, _⟩ => ⟨S65536x10x1, .i32⟩
  | .hbm, ⟨21, _⟩ => ⟨S65536x10x50, .f32⟩
  | .hbm, ⟨22, _⟩ => ⟨S_, .i32⟩
  | .hbm, ⟨23, _⟩ => ⟨S65536, .i32⟩
  | .hbm, ⟨24, _⟩ => ⟨S65536, .i1⟩
  | .hbm, ⟨25, _⟩ => ⟨S_, .i32⟩
  | .hbm, ⟨26, _⟩ => ⟨S65536, .i32⟩
  | .hbm, ⟨27, _⟩ => ⟨S65536, .i32⟩
  | .hbm, ⟨28, _⟩ => ⟨S65536, .i32⟩
  | .hbm, ⟨29, _⟩ => ⟨S65536x1, .i32⟩
  | .hbm, ⟨30, _⟩ => ⟨S65536x50, .f32⟩
  | .hbm, ⟨31, _⟩ => ⟨S_, .i32⟩
  | .hbm, ⟨32, _⟩ => ⟨S65536x10, .i32⟩
  | .hbm, ⟨33, _⟩ => ⟨S65536x10, .i1⟩
  | .hbm, ⟨34, _⟩ => ⟨S_, .i32⟩
  | .hbm, ⟨35, _⟩ => ⟨S65536x10, .i32⟩
  | .hbm, ⟨36, _⟩ => ⟨S65536x10, .i32⟩
  | .hbm, ⟨37, _⟩ => ⟨S65536x10, .i32⟩
  | .hbm, ⟨38, _⟩ => ⟨S65536x10x1, .i32⟩
  | .hbm, ⟨39, _⟩ => ⟨S65536x10x101, .f32⟩
  | .hbm, ⟨40, _⟩ => ⟨S_, .i32⟩
  | .hbm, ⟨41, _⟩ => ⟨S65536x10, .i32⟩
  | .hbm, ⟨42, _⟩ => ⟨S65536x10, .i1⟩
  | .hbm, ⟨43, _⟩ => ⟨S_, .i32⟩
  | .hbm, ⟨44, _⟩ => ⟨S65536x10, .i32⟩
  | .hbm, ⟨45, _⟩ => ⟨S65536x10, .i32⟩
  | .hbm, ⟨46, _⟩ => ⟨S65536x10, .i32⟩
  | .hbm, ⟨47, _⟩ => ⟨S65536x10x1, .i32⟩
  | .hbm, ⟨48, _⟩ => ⟨S65536x10x101, .f32⟩
  | .hbm, ⟨49, _⟩ => ⟨S_, .i32⟩
  | .hbm, ⟨50, _⟩ => ⟨S65536, .i32⟩
  | .hbm, ⟨51, _⟩ => ⟨S65536, .i1⟩
  | .hbm, ⟨52, _⟩ => ⟨S_, .i32⟩
  | .hbm, ⟨53, _⟩ => ⟨S65536, .i32⟩
  | .hbm, ⟨54, _⟩ => ⟨S65536, .i32⟩
  | .hbm, ⟨55, _⟩ => ⟨S65536, .i32⟩
  | .hbm, ⟨56, _⟩ => ⟨S65536x1, .i32⟩
  | .hbm, ⟨57, _⟩ => ⟨S65536x101, .f32⟩
  | .hbm, ⟨58, _⟩ => ⟨S1x50, .f32⟩
  | .hbm, ⟨59, _⟩ => ⟨S1x100, .f32⟩
  | .hbm, ⟨60, _⟩ => ⟨S1x1, .f32⟩
  | .hbm, ⟨61, _⟩ => ⟨S8x128, .f32⟩
  | .hbm, ⟨62, _⟩ => ⟨S1x1, .f32⟩
  | .hbm, ⟨63, _⟩ => ⟨S_, .f32⟩
  | .hbm, ⟨64, _⟩ => ⟨S_, .f32⟩
  | .hbm, ⟨65, _⟩ => ⟨S_, .f32⟩
  | .local _ .vmem, ⟨0, _⟩ => ⟨S128x10x50, .f32⟩
  | .local _ .vmem, ⟨1, _⟩ => ⟨S128x10x50, .f32⟩
  | .local _ .vmem, ⟨2, _⟩ => ⟨S128x50, .f32⟩
  | .local _ .vmem, ⟨3, _⟩ => ⟨S128x50, .f32⟩
  | .local _ .vmem, ⟨4, _⟩ => ⟨S128x10x101, .f32⟩
  | .local _ .vmem, ⟨5, _⟩ => ⟨S128x10x101, .f32⟩
  | .local _ .vmem, ⟨6, _⟩ => ⟨S128x10x101, .f32⟩
  | .local _ .vmem, ⟨7, _⟩ => ⟨S128x10x101, .f32⟩
  | .local _ .vmem, ⟨8, _⟩ => ⟨S128x101, .f32⟩
  | .local _ .vmem, ⟨9, _⟩ => ⟨S128x101, .f32⟩
  | .local _ .vmem, ⟨10, _⟩ => ⟨S100x50, .f32⟩
  | .local _ .vmem, ⟨11, _⟩ => ⟨S1x50, .f32⟩
  | .local _ .vmem, ⟨12, _⟩ => ⟨S50x100, .f32⟩
  | .local _ .vmem, ⟨13, _⟩ => ⟨S1x100, .f32⟩
  | .local _ .vmem, ⟨14, _⟩ => ⟨S50x1, .f32⟩
  | .local _ .vmem, ⟨15, _⟩ => ⟨S1x1, .f32⟩
  | .local _ .vmem, ⟨16, _⟩ => ⟨S8x128, .f32⟩
  | _, _ => ⟨S50000x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst : Ref sig .tc := ⟨.hbm, 64, rfl⟩
abbrev main_v42 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![512], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x10x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x10x101 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x10x101 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x101 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S100x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S50x100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x100 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S50x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

class Facts₀ : Prop where
  concatenates_S50000x100_S50000x1_S50000x101_d1 : Shape.Concatenates [S50000x100, S50000x1] S50000x101 1
  bcast_S_S65536x10 : S_.BroadcastsInDim S65536x10 (![] : Fin 0 → Fin S65536x10.rank)
  bcast_S65536x10_S65536x10x1_0_1 : S65536x10.BroadcastsInDim S65536x10x1 (![0, 1] : Fin 2 → Fin S65536x10x1.rank)
  bcast_S_S65536 : S_.BroadcastsInDim S65536 (![] : Fin 0 → Fin S65536.rank)
  bcast_S65536_S65536x1_0 : S65536.BroadcastsInDim S65536x1 (![0] : Fin 1 → Fin S65536x1.rank)
  shapeCasts_S50_S1x50 : S50.ShapeCasts S1x50
  shapeCasts_S100_S1x100 : S100.ShapeCasts S1x100
  shapeCasts_S1_S1x1 : S1.ShapeCasts S1x1
  inb_S8x128_S8x128_0_0 : ∀ a, (![0, 0] : Fin 2 → Nat) a + S8x128.size a ≤ S8x128.size a
  h_S8x128 : 0 < S8x128.numel
  inb_S128x10x50_S128x10x50_0_0_0 : ∀ a, (![0, 0, 0] : Fin 3 → Nat) a + S128x10x50.size a ≤ S128x10x50.size a
  h_S128x10x50 : 0 < S128x10x50.numel
  shapeCasts_S128x10x50_S128x10x50 : S128x10x50.ShapeCasts S128x10x50
  inb_S128x50_S128x50_0_0 : ∀ a, (![0, 0] : Fin 2 → Nat) a + S128x50.size a ≤ S128x50.size a
  h_S128x50 : 0 < S128x50.numel
  shapeCasts_S128x50_S128x50 : S128x50.ShapeCasts S128x50
  shapeCasts_S128x10x50_S1280x50 : S128x10x50.ShapeCasts S1280x50
  shapeCasts_S128x50_S128x1x50 : S128x50.ShapeCasts S128x1x50
  shapeCasts_S128x1x50_S128x1x50 : S128x1x50.ShapeCasts S128x1x50
  broadcasts_S128x1x50_S128x10x50 : S128x1x50.Broadcasts S128x10x50
  concatenates_S1280x50_S1280x50_S1280x100_d1 : Shape.Concatenates [S1280x50, S1280x50] S1280x100 1
  inb_S100x50_S100x50_0_0 : ∀ a, (![0, 0] : Fin 2 → Nat) a + S100x50.size a ≤ S100x50.size a
  h_S100x50 : 0 < S100x50.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S1280x50 : S1x50.Broadcasts S1280x50
  shapeCasts_S1280x50_S128x10x50 : S1280x50.ShapeCasts S128x10x50
  reduces_S128x10x50_S128x50 : S128x10x50.Reduces [1] S128x50
  inb_S50x100_S50x100_0_0 : ∀ a, (![0, 0] : Fin 2 → Nat) a + S50x100.size a ≤ S50x100.size a
  h_S50x100 : 0 < S50x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  inb_S50x1_S50x1_0_0 : ∀ a, (![0, 0] : Fin 2 → Nat) a + S50x1.size a ≤ S50x1.size a
  h_S50x1 : 0 < S50x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x100_S128x100 : S1x100.Broadcasts S128x100
  broadcasts_S1x1_S128x1 : S1x1.Broadcasts S128x1
  inb_S128x10x101_S128x10x101_0_0_0 : ∀ a, (![0, 0, 0] : Fin 3 → Nat) a + S128x10x101.size a ≤ S128x10x101.size a
  h_S128x10x101 : 0 < S128x10x101.numel
  shapeCasts_S128x10x101_S128x10x101 : S128x10x101.ShapeCasts S128x10x101
  inb_S128x101_S128x101_0_0 : ∀ a, (![0, 0] : Fin 2 → Nat) a + S128x101.size a ≤ S128x101.size a
  h_S128x101 : 0 < S128x101.numel
  shapeCasts_S128x101_S128x101 : S128x101.ShapeCasts S128x101
  slices_S128x10x101_o0_0_0_S128x10x100 : S128x10x101.Slices ![0, 0, 0] S128x10x100
  slices_S128x10x101_o0_0_100_S128x10x1 : S128x10x101.Slices ![0, 0, 100] S128x10x1
  shapeCasts_S128x10x1_S128x10 : S128x10x1.ShapeCasts S128x10
  slices_S128x101_o0_0_S128x100 : S128x101.Slices ![0, 0] S128x100
  slices_S128x101_o0_100_S128x1 : S128x101.Slices ![0, 100] S128x1
  shapeCasts_S128x100_S128x1x100 : S128x100.ShapeCasts S128x1x100
  shapeCasts_S128x1x100_S128x1x100 : S128x1x100.ShapeCasts S128x1x100
  broadcasts_S128x1x100_S128x10x100 : S128x1x100.Broadcasts S128x10x100
  shapeCasts_S128x1_S128x1 : S128x1.ShapeCasts S128x1
  broadcasts_S128x1_S128x10 : S128x1.Broadcasts S128x10
  reduces_S128x10x100_S128x10 : S128x10x100.Reduces [2] S128x10
  reduces_S128x100_S128 : S128x100.Reduces [1] S128
  shapeCasts_S128_S128x1 : S128.ShapeCasts S128x1
  reduces_S128x10_S128 : S128x10.Reduces [1] S128
  reduces_S128x1_S1 : S128x1.Reduces [0] S1
  concatenates_S1x1_S1x127_S1x128_d1 : Shape.Concatenates [S1x1, S1x127] S1x128 1
  concatenates_S1x128_S7x128_S8x128_d0 : Shape.Concatenates [S1x128, S7x128] S8x128 0
  shapeCasts_S8x128_S8x128 : S8x128.ShapeCasts S8x128
  slices_S8x128_S1x1_0_0 : S8x128.Slices ![0, 0] S1x1
  shapeCasts_S1x1_S_ : S1x1.ShapeCasts S_
  gather_S50000x50_S65536x10x1_S65536x10x50_2_0_n_n_0_2_150_wf : GatherDims.WF S50000x50 S65536x10x1 S65536x10x50 [2] [0] [] [0] [] 2 ![1, 50]
  gather_S50000x50_S65536x1_S65536x50_1_0_n_n_0_1_150_wf : GatherDims.WF S50000x50 S65536x1 S65536x50 [1] [0] [] [0] [] 1 ![1, 50]
  gather_S50000x101_S65536x10x1_S65536x10x101_2_0_n_n_0_2_1101_wf : GatherDims.WF S50000x101 S65536x10x1 S65536x10x101 [2] [0] [] [0] [] 2 ![1, 101]
  gather_S50000x101_S65536x1_S65536x101_1_0_n_n_0_1_1101_wf : GatherDims.WF S50000x101 S65536x1 S65536x101 [1] [0] [] [0] [] 1 ![1, 101]
  dot_S1280x100_S100x50_S1280x50_1_0_0_1_n_n_wf : DotDims.WF S1280x100 S100x50 S1280x50 [1] [0] [0] [1] [] []
  dot_S128x50_S50x100_S128x100_1_0_0_1_n_n_wf : DotDims.WF S128x50 S50x100 S128x100 [1] [0] [0] [1] [] []
  dot_S128x50_S50x1_S128x1_1_0_0_1_n_n_wf : DotDims.WF S128x50 S50x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x10x50.size a ≤ S65536x10x50.size a
  hwx0_0 : ∀ i : grid0.Coords, EltTy.bits .f32 = 32 ∨ (Rect.block (s := S65536x10x50) S128x10x50.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x50.size a ≤ S65536x50.size a
  hwx0_1 : ∀ i : grid0.Coords, EltTy.bits .f32 = 32 ∨ (Rect.block (s := S65536x50) S128x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x10x101.size a ≤ S65536x10x101.size a
  hwx0_2 : ∀ i : grid0.Coords, EltTy.bits .f32 = 32 ∨ (Rect.block (s := S65536x10x101) S128x10x101.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x10x101.size a ≤ S65536x10x101.size a
  hwx0_3 : ∀ i : grid0.Coords, EltTy.bits .f32 = 32 ∨ (Rect.block (s := S65536x10x101) S128x10x101.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x101.size a ≤ S65536x101.size a
  hwx0_4 : ∀ i : grid0.Coords, EltTy.bits .f32 = 32 ∨ (Rect.block (s := S65536x101) S128x101.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x50.size a ≤ S100x50.size a
  hwx0_5 : ∀ i : grid0.Coords, EltTy.bits .f32 = 32 ∨ (Rect.block (s := S100x50) S100x50.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x50.size a ≤ S1x50.size a
  hwx0_6 : ∀ i : grid0.Coords, EltTy.bits .f32 = 32 ∨ (Rect.block (s := S1x50) S1x50.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S50x100.size a ≤ S50x100.size a
  hwx0_7 : ∀ i : grid0.Coords, EltTy.bits .f32 = 32 ∨ (Rect.block (s := S50x100) S50x100.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x100.size a ≤ S1x100.size a
  hwx0_8 : ∀ i : grid0.Coords, EltTy.bits .f32 = 32 ∨ (Rect.block (s := S1x100) S1x100.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S50x1.size a ≤ S50x1.size a
  hwx0_9 : ∀ i : grid0.Coords, EltTy.bits .f32 = 32 ∨ (Rect.block (s := S50x1) S50x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8x128.size a ≤ S8x128.size a
  hwx0_11 : ∀ i : grid0.Coords, EltTy.bits .f32 = 32 ∨ (Rect.block (s := S8x128) S8x128.size (cc0_transform_11 i) (hinb0_11 i)).WholeWords (EltTy.packing .f32)

variable [Facts₀]

def gather_S50000x50_S65536x10x1_S65536x10x50_2_0_n_n_0_2_150 : GatherDims S50000x50 S65536x10x1 S65536x10x50 where
  offsetDims := [2]
  collapsedSliceDims := [0]
  operandBatchingDims := []
  startIndicesBatchingDims := []
  startIndexMap := [0]
  indexVectorDim := 2
  sliceSizes := ![1, 50]
  wf := gather_S50000x50_S65536x10x1_S65536x10x50_2_0_n_n_0_2_150_wf
def gather_S50000x50_S65536x1_S65536x50_1_0_n_n_0_1_150 : GatherDims S50000x50 S65536x1 S65536x50 where
  offsetDims := [1]
  collapsedSliceDims := [0]
  operandBatchingDims := []
  startIndicesBatchingDims := []
  startIndexMap := [0]
  indexVectorDim := 1
  sliceSizes := ![1, 50]
  wf := gather_S50000x50_S65536x1_S65536x50_1_0_n_n_0_1_150_wf
def gather_S50000x101_S65536x10x1_S65536x10x101_2_0_n_n_0_2_1101 : GatherDims S50000x101 S65536x10x1 S65536x10x101 where
  offsetDims := [2]
  collapsedSliceDims := [0]
  operandBatchingDims := []
  startIndicesBatchingDims := []
  startIndexMap := [0]
  indexVectorDim := 2
  sliceSizes := ![1, 101]
  wf := gather_S50000x101_S65536x10x1_S65536x10x101_2_0_n_n_0_2_1101_wf
def gather_S50000x101_S65536x1_S65536x101_1_0_n_n_0_1_1101 : GatherDims S50000x101 S65536x1 S65536x101 where
  offsetDims := [1]
  collapsedSliceDims := [0]
  operandBatchingDims := []
  startIndicesBatchingDims := []
  startIndexMap := [0]
  indexVectorDim := 1
  sliceSizes := ![1, 101]
  wf := gather_S50000x101_S65536x1_S65536x101_1_0_n_n_0_1_1101_wf
def dot_S1280x100_S100x50_S1280x50_1_0_0_1_n_n : DotDims S1280x100 S100x50 S1280x50 where
  lhsContracting := [1]
  rhsContracting := [0]
  lhsNonContracting := [0]
  rhsNonContracting := [1]
  lhsBatch := []
  rhsBatch := []
  wf := dot_S1280x100_S100x50_S1280x50_1_0_0_1_n_n_wf
def dot_S128x50_S50x100_S128x100_1_0_0_1_n_n : DotDims S128x50 S50x100 S128x100 where
  lhsContracting := [1]
  rhsContracting := [0]
  lhsNonContracting := [0]
  rhsNonContracting := [1]
  lhsBatch := []
  rhsBatch := []
  wf := dot_S128x50_S50x100_S128x100_1_0_0_1_n_n_wf
def dot_S128x50_S50x1_S128x1_1_0_0_1_n_n : DotDims S128x50 S50x1 S128x1 where
  lhsContracting := [1]
  rhsContracting := [0]
  lhsNonContracting := [0]
  rhsNonContracting := [1]
  lhsBatch := []
  rhsBatch := []
  wf := dot_S128x50_S50x1_S128x1_1_0_0_1_n_n_wf

abbrev win0_0 : Pipeline.Window sig grid0 :=
  Pipeline.Window.ofSpec (Memref.whole main_v7) S128x10x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x10x101.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x10x101.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35) S128x101.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S100x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1x50.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S50x100.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v37) S1x100.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S50x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v38) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v39) S8x128.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x50 : Shape := ⟨2, ![50000, 50]⟩
abbrev S100x50 : Shape := ⟨2, ![100, 50]⟩
abbrev S50 : Shape := ⟨1, ![50]⟩
abbrev S50x100 : Shape := ⟨2, ![50, 100]⟩
abbrev S100 : Shape := ⟨1, ![100]⟩
abbrev S50x1 : Shape := ⟨2, ![50, 1]⟩
abbrev S1 : Shape := ⟨1, ![1]⟩
abbrev S50000x100 : Shape := ⟨2, ![50000, 100]⟩
abbrev S50000x1 : Shape := ⟨2, ![50000, 1]⟩
abbrev S65536 : Shape := ⟨1, ![65536]⟩
abbrev S65536x10 : Shape := ⟨2, ![65536, 10]⟩
abbrev S_ : Shape := ⟨0, ![]⟩
abbrev S65536x10x1 : Shape := ⟨3, ![65536, 10, 1]⟩
abbrev S65536x10x50 : Shape := ⟨3, ![65536, 10, 50]⟩
abbrev S65536x1 : Shape := ⟨2, ![65536, 1]⟩
abbrev S65536x50 : Shape := ⟨2, ![65536, 50]⟩
abbrev S65536x1x50 : Shape := ⟨3, ![65536, 1, 50]⟩
abbrev S65536x10x100 : Shape := ⟨3, ![65536, 10, 100]⟩
abbrev S1x1x50 : Shape := ⟨3, ![1, 1, 50]⟩
abbrev S65536x100 : Shape := ⟨2, ![65536, 100]⟩
abbrev S1x100 : Shape := ⟨2, ![1, 100]⟩
abbrev S1x1 : Shape := ⟨2, ![1, 1]⟩
abbrev S655360x100 : Shape := ⟨2, ![655360, 100]⟩
abbrev S655360x1 : Shape := ⟨2, ![655360, 1]⟩
abbrev S655360 : Shape := ⟨1, ![655360]⟩

abbrev nBuf : Space → Nat
  | .hbm => 181
  | .vmem => 0
  | .smem => 0
  | _ => 0

abbrev hbmTy0_0 (i : Nat) : BufTy := match i % 128 with
  | 0 => ⟨S50000x50, .f32⟩
  | 1 => ⟨S100x50, .f32⟩
  | 2 => ⟨S50, .f32⟩
  | 3 => ⟨S50x100, .f32⟩
  | 4 => ⟨S100, .f32⟩
  | 5 => ⟨S50x1, .f32⟩
  | 6 => ⟨S1, .f32⟩
  | 7 => ⟨S50000x100, .f32⟩
  | 8 => ⟨S50000x1, .f32⟩
  | 9 => ⟨S65536, .i32⟩
  | 10 => ⟨S65536x10, .i32⟩
  | 11 => ⟨S65536x10, .i32⟩
  | 12 => ⟨S_, .i32⟩
  | 13 => ⟨S65536x10, .i32⟩
  | 14 => ⟨S65536x10, .i1⟩
  | 15 => ⟨S_, .i32⟩
  | 16 => ⟨S65536x10, .i32⟩
  | 17 => ⟨S65536x10, .i32⟩
  | 18 => ⟨S65536x10, .i32⟩
  | 19 => ⟨S65536x10x1, .i32⟩
  | 20 => ⟨S65536x10x50, .f32⟩
  | 21 => ⟨S_, .i32⟩
  | 22 => ⟨S65536, .i32⟩
  | 23 => ⟨S65536, .i1⟩
  | 24 => ⟨S_, .i32⟩
  | 25 => ⟨S65536, .i32⟩
  | 26 => ⟨S65536, .i32⟩
  | 27 => ⟨S65536, .i32⟩
  | 28 => ⟨S65536x1, .i32⟩
  | 29 => ⟨S65536x50, .f32⟩
  | 30 => ⟨S65536x1x50, .f32⟩
  | 31 => ⟨S65536x10x50, .f32⟩
  | 32 => ⟨S65536x10x100, .f32⟩
  | 33 => ⟨S65536x10x50, .f32⟩
  | 34 => ⟨S1x1x50, .f32⟩
  | 35 => ⟨S65536x10x50, .f32⟩
  | 36 => ⟨S65536x10x50, .f32⟩
  | 37 => ⟨S_, .f32⟩
  | 38 => ⟨S65536x10x50, .f32⟩
  | 39 => ⟨S65536x10x50, .f32⟩
  | 40 => ⟨S_, .f32⟩
  | 41 => ⟨S65536x50, .f32⟩
  | 42 => ⟨S65536x100, .f32⟩
  | 43 => ⟨S1x100, .f32⟩
  | 44 => ⟨S65536x100, .f32⟩
  | 45 => ⟨S65536x100, .f32⟩
  | 46 => ⟨S65536x1, .f32⟩
  | 47 => ⟨S1x1, .f32⟩
  | 48 => ⟨S65536x1, .f32⟩
  | 49 => ⟨S65536x1, .f32⟩
  | 50 => ⟨S65536x10x100, .f32⟩
  | 51 => ⟨S655360x100, .f32⟩
  | 52 => ⟨S65536x10x1, .f32⟩
  | 53 => ⟨S655360x1, .f32⟩
  | 54 => ⟨S655360, .i32⟩
  | 55 => ⟨S655360x1, .f32⟩
  | 56 => ⟨S_, .i32⟩
  | 57 => ⟨S655360, .i32⟩
  | 58 => ⟨S655360, .i1⟩
  | 59 => ⟨S_, .i32⟩
  | 60 => ⟨S655360, .i32⟩
  | 61 => ⟨S655360, .i32⟩
  | 62 => ⟨S655360, .i32⟩
  | 63 => ⟨S655360x1, .i32⟩
  | 64 => ⟨S655360x100, .f32⟩
  | 65 => ⟨S_, .i32⟩
  | 66 => ⟨S655360, .i32⟩
  | 67 => ⟨S655360, .i1⟩
  | 68 => ⟨S_, .i32⟩
  | 69 => ⟨S655360, .i32⟩
  | 70 => ⟨S655360, .i32⟩
  | 71 => ⟨S655360, .i32⟩
  | 72 => ⟨S655360x1, .i32⟩
  | 73 => ⟨S655360x1, .f32⟩
  | 74 => ⟨S655360x1, .f32⟩
  | 75 => ⟨S655360x1, .f32⟩
  | 76 => ⟨S655360x100, .f32⟩
  | 77 => ⟨S655360x100, .f32⟩
  | 78 => ⟨S_, .f32⟩
  | 79 => ⟨S655360, .f32⟩
  | 80 => ⟨S655360x1, .f32⟩
  | 81 => ⟨S655360x1, .f32⟩
  | 82 => ⟨S655360x1, .f32⟩
  | 83 => ⟨S655360x1, .f32⟩
  | 84 => ⟨S655360x1, .f32⟩
  | 85 => ⟨S655360, .f32⟩
  | 86 => ⟨S_, .f32⟩
  | 87 => ⟨S655360, .f32⟩
  | 88 => ⟨S655360, .f32⟩
  | 89 => ⟨S_, .f32⟩
  | 90 => ⟨S655360, .f32⟩
  | 91 => ⟨S655360, .f32⟩
  | 92 => ⟨S655360, .i32⟩
  | 93 => ⟨S655360x1, .f32⟩
  | 94 => ⟨S_, .i32⟩
  | 95 => ⟨S655360, .i32⟩
  | 96 => ⟨S655360, .i1⟩
  | 97 => ⟨S_, .i32⟩
  | 98 => ⟨S655360, .i32⟩
  | 99 => ⟨S655360, .i32⟩
  | 100 => ⟨S655360, .i32⟩
  | 101 => ⟨S655360x1, .i32⟩
  | 102 => ⟨S655360x100, .f32⟩
  | 103 => ⟨S_, .i32⟩
  | 104 => ⟨S655360, .i32⟩
  | 105 => ⟨S655360, .i1⟩
  | 106 => ⟨S_, .i32⟩
  | 107 => ⟨S655360, .i32⟩
  | 108 => ⟨S655360, .i32⟩
  | 109 => ⟨S655360, .i32⟩
  | 110 => ⟨S655360x1, .i32⟩
  | 111 => ⟨S655360x1, .f32⟩
  | 112 => ⟨S655360x1, .f32⟩
  | 113 => ⟨S655360x1, .f32⟩
  | 114 => ⟨S655360x100, .f32⟩
  | 115 => ⟨S655360x100, .f32⟩
  | 116 => ⟨S_, .f32⟩
  | 117 => ⟨S655360, .f32⟩
  | 118 => ⟨S655360x1, .f32⟩
  | 119 => ⟨S655360x1, .f32⟩
  | 120 => ⟨S655360x1, .f32⟩
  | 121 => ⟨S655360x1, .f32⟩
  | 122 => ⟨S655360x1, .f32⟩
  | 123 => ⟨S655360, .f32⟩
  | 124 => ⟨S_, .f32⟩
  | 125 => ⟨S655360, .f32⟩
  | 126 => ⟨S655360, .f32⟩
  | 127 => ⟨S_, .f32⟩
  | _ => ⟨S50000x50, .f32⟩

abbrev hbmTy0_1 (i : Nat) : BufTy := match i % 128 with
  | 0 => ⟨S655360, .f32⟩
  | 1 => ⟨S655360, .f32⟩
  | 2 => ⟨S65536x1, .f32⟩
  | 3 => ⟨S_, .i32⟩
  | 4 => ⟨S65536, .i32⟩
  | 5 => ⟨S65536, .i1⟩
  | 6 => ⟨S_, .i32⟩
  | 7 => ⟨S65536, .i32⟩
  | 8 => ⟨S65536, .i32⟩
  | 9 => ⟨S65536, .i32⟩
  | 10 => ⟨S65536x1, .i32⟩
  | 11 => ⟨S65536x100, .f32⟩
  | 12 => ⟨S_, .i32⟩
  | 13 => ⟨S65536, .i32⟩
  | 14 => ⟨S65536, .i1⟩
  | 15 => ⟨S_, .i32⟩
  | 16 => ⟨S65536, .i32⟩
  | 17 => ⟨S65536, .i32⟩
  | 18 => ⟨S65536, .i32⟩
  | 19 => ⟨S65536x1, .i32⟩
  | 20 => ⟨S65536x1, .f32⟩
  | 21 => ⟨S65536x1, .f32⟩
  | 22 => ⟨S65536x1, .f32⟩
  | 23 => ⟨S65536x100, .f32⟩
  | 24 => ⟨S65536x100, .f32⟩
  | 25 => ⟨S_, .f32⟩
  | 26 => ⟨S65536, .f32⟩
  | 27 => ⟨S65536x1, .f32⟩
  | 28 => ⟨S65536x1, .f32⟩
  | 29 => ⟨S65536x1, .f32⟩
  | 30 => ⟨S65536x1, .f32⟩
  | 31 => ⟨S65536x1, .f32⟩
  | 32 => ⟨S65536, .f32⟩
  | 33 => ⟨S_, .f32⟩
  | 34 => ⟨S65536, .f32⟩
  | 35 => ⟨S65536, .f32⟩
  | 36 => ⟨S_, .f32⟩
  | 37 => ⟨S65536, .f32⟩
  | 38 => ⟨S65536, .f32⟩
  | 39 => ⟨S655360, .f32⟩
  | 40 => ⟨S_, .f32⟩
  | 41 => ⟨S655360, .f32⟩
  | 42 => ⟨S655360, .f32⟩
  | 43 => ⟨S_, .f32⟩
  | 44 => ⟨S655360, .f32⟩
  | 45 => ⟨S655360, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | _ => ⟨S50000x50, .f32⟩

abbrev hbmTy (i : Nat) : BufTy := match i / 128 with
  | 0 => hbmTy0_0 i
  | 1 => hbmTy0_1 i
  | _ => ⟨S50000x50, .f32⟩

abbrev bufTy : (tb : Table) → Fin (tcTables nBuf tb) → BufTy
  | .hbm, ⟨i, _⟩ => hbmTy i
  | _, _ => ⟨S50000x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call0_cst : Ref sig .tc := ⟨.hbm, 37, rfl⟩
abbrev main_call0_v0 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_3 : Ref sig .tc := ⟨.hbm, 56, rfl⟩
abbrev main_v37 : Ref sig .tc := ⟨.hbm, 57, rfl⟩
abbrev main_v38 : Ref sig .tc := ⟨.hbm, 58, rfl⟩
abbrev main_c_4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_5 : Ref sig .tc := ⟨.hbm, 65, rfl⟩
abbrev main_v44 : Ref sig .tc := ⟨.hbm, 66, rfl⟩
abbrev main_v45 : Ref sig .tc := ⟨.hbm, 67, rfl⟩
abbrev main_c_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_8 : Ref sig .tc := ⟨.hbm, 86, rfl⟩
abbrev main_v62 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_10 : Ref sig .tc := ⟨.hbm, 94, rfl⟩
abbrev main_v68 : Ref sig .tc := ⟨.hbm, 95, rfl⟩
abbrev main_v69 : Ref sig .tc := ⟨.hbm, 96, rfl⟩
abbrev main_c_11 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_12 : Ref sig .tc := ⟨.hbm, 103, rfl⟩
abbrev main_v75 : Ref sig .tc := ⟨.hbm, 104, rfl⟩
abbrev main_v76 : Ref sig .tc := ⟨.hbm, 105, rfl⟩
abbrev main_c_13 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_14 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_15 : Ref sig .tc := ⟨.hbm, 124, rfl⟩
abbrev main_v93 : Ref sig .tc := ⟨.hbm, 125, rfl⟩
abbrev main_v94 : Ref sig .tc := ⟨.hbm, 126, rfl⟩
abbrev main_cst_16 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_17 : Ref sig .tc := ⟨.hbm, 131, rfl⟩
abbrev main_v98 : Ref sig .tc := ⟨.hbm, 132, rfl⟩
abbrev main_v99 : Ref sig .tc := ⟨.hbm, 133, rfl⟩
abbrev main_c_18 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_c_19 : Ref sig .tc := ⟨.hbm, 140, rfl⟩
abbrev main_v105 : Ref sig .tc := ⟨.hbm, 141, rfl⟩
abbrev main_v106 : Ref sig .tc := ⟨.hbm, 142, rfl⟩
abbrev main_c_20 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_21 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_22 : Ref sig .tc := ⟨.hbm, 161, rfl⟩
abbrev main_v123 : Ref sig .tc := ⟨.hbm, 162, rfl⟩
abbrev main_v124 : Ref sig .tc := ⟨.hbm, 163, rfl⟩
abbrev main_cst_23 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_cst_24 : Ref sig .tc := ⟨.hbm, 168, rfl⟩
abbrev main_v128 : Ref sig .tc := ⟨.hbm, 169, rfl⟩
abbrev main_v129 : Ref sig .tc := ⟨.hbm, 170, rfl⟩
abbrev main_cst_25 : Ref sig .tc := ⟨.hbm, 171, rfl⟩
abbrev main_v130 : Ref sig .tc := ⟨.hbm, 172, rfl⟩
abbrev main_v131 : Ref sig .tc := ⟨.hbm, 173, rfl⟩
abbrev main_cst_26 : Ref sig .tc := ⟨.hbm, 174, rfl⟩
abbrev main_v132 : Ref sig .tc := ⟨.hbm, 175, rfl⟩
abbrev main_cst_27 : Ref sig .tc := ⟨.hbm, 176, rfl⟩
abbrev main_v133 : Ref sig .tc := ⟨.hbm, 177, rfl⟩
abbrev main_v134 : Ref sig .tc := ⟨.hbm, 178, rfl⟩
abbrev main_cst_28 : Ref sig .tc := ⟨.hbm, 179, rfl⟩
abbrev main_v135 : Ref sig .tc := ⟨.hbm, 180, rfl⟩

abbrev nD : Nat := 1
abbrev τ : Topo := Topo.v7x

variable {F : FTy → Type} [FloatOps F]

class Facts₀ : Prop where
  bcast_S_S65536x10 : S_.BroadcastsInDim S65536x10 (![] : Fin 0 → Fin S65536x10.rank)
  bcast_S65536x10_S65536x10x1_0_1 : S65536x10.BroadcastsInDim S65536x10x1 (![0, 1] : Fin 2 → Fin S65536x10x1.rank)
  bcast_S_S65536 : S_.BroadcastsInDim S65536 (![] : Fin 0 → Fin S65536.rank)
  bcast_S65536_S65536x1_0 : S65536.BroadcastsInDim S65536x1 (![0] : Fin 1 → Fin S65536x1.rank)
  bcast_S65536x50_S65536x1x50_0_2 : S65536x50.BroadcastsInDim S65536x1x50 (![0, 2] : Fin 2 → Fin S65536x1x50.rank)
  bcast_S65536x1x50_S65536x10x50_0_1_2 : S65536x1x50.BroadcastsInDim S65536x10x50 (![0, 1, 2] : Fin 3 → Fin S65536x10x50.rank)
  concatenates_S65536x10x50_S65536x10x50_S65536x10x100_d2 : Shape.Concatenates [S65536x10x50, S65536x10x50] S65536x10x100 2
  bcast_S50_S1x1x50_2 : S50.BroadcastsInDim S1x1x50 (![2] : Fin 1 → Fin S1x1x50.rank)
  bcast_S1x1x50_S65536x10x50_0_1_2 : S1x1x50.BroadcastsInDim S65536x10x50 (![0, 1, 2] : Fin 3 → Fin S65536x10x50.rank)
  bcast_S_S65536x10x50 : S_.BroadcastsInDim S65536x10x50 (![] : Fin 0 → Fin S65536x10x50.rank)
  reducesTo_S65536x10x50_S65536x50_d1 : S65536x10x50.ReducesTo [1] S65536x50
  h_S_ : 0 < S_.numel
  bcast_S100_S1x100_1 : S100.BroadcastsInDim S1x100 (![1] : Fin 1 → Fin S1x100.rank)
  bcast_S1x100_S65536x100_0_1 : S1x100.BroadcastsInDim S65536x100 (![0, 1] : Fin 2 → Fin S65536x100.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S65536x100_S65536x10x100_0_2 : S65536x100.BroadcastsInDim S65536x10x100 (![0, 2] : Fin 2 → Fin S65536x10x100.rank)
  shapeCasts_S65536x10x100_S655360x100 : S65536x10x100.ShapeCasts S655360x100
  bcast_S65536x1_S65536x10x1_0_2 : S65536x1.BroadcastsInDim S65536x10x1 (![0, 2] : Fin 2 → Fin S65536x10x1.rank)
  shapeCasts_S65536x10x1_S655360x1 : S65536x10x1.ShapeCasts S655360x1
  shapeCasts_S65536x10_S655360 : S65536x10.ShapeCasts S655360
  bcast_S_S655360 : S_.BroadcastsInDim S655360 (![] : Fin 0 → Fin S655360.rank)
  bcast_S655360_S655360x1_0 : S655360.BroadcastsInDim S655360x1 (![0] : Fin 1 → Fin S655360x1.rank)
  reducesTo_S655360x100_S655360_d1 : S655360x100.ReducesTo [1] S655360
  shapeCasts_S655360x1_S655360 : S655360x1.ShapeCasts S655360
  reducesTo_S65536x100_S65536_d1 : S65536x100.ReducesTo [1] S65536
  shapeCasts_S65536x1_S65536 : S65536x1.ShapeCasts S65536
  reducesTo_S655360_S_d0 : S655360.ReducesTo [0] S_
  reducesTo_S65536_S_d0 : S65536.ReducesTo [0] S_
  gather_S50000x50_S65536x10x1_S65536x10x50_2_0_n_n_0_2_150_wf : GatherDims.WF S50000x50 S65536x10x1 S65536x10x50 [2] [0] [] [0] [] 2 ![1, 50]
  gather_S50000x50_S65536x1_S65536x50_1_0_n_n_0_1_150_wf : GatherDims.WF S50000x50 S65536x1 S65536x50 [1] [0] [] [0] [] 1 ![1, 50]
  dot_S65536x10x100_S100x50_S65536x10x50_2_0_01_1_n_n_wf : DotDims.WF S65536x10x100 S100x50 S65536x10x50 [2] [0] [0, 1] [1] [] []
  dot_S65536x50_S50x100_S65536x100_1_0_0_1_n_n_wf : DotDims.WF S65536x50 S50x100 S65536x100 [1] [0] [0] [1] [] []
  dot_S65536x50_S50x1_S65536x1_1_0_0_1_n_n_wf : DotDims.WF S65536x50 S50x1 S65536x1 [1] [0] [0] [1] [] []
  gather_S50000x100_S655360x1_S655360x100_1_0_n_n_0_1_1100_wf : GatherDims.WF S50000x100 S655360x1 S655360x100 [1] [0] [] [0] [] 1 ![1, 100]
  gather_S50000x1_S655360x1_S655360x1_1_0_n_n_0_1_11_wf : GatherDims.WF S50000x1 S655360x1 S655360x1 [1] [0] [] [0] [] 1 ![1, 1]
  gather_S50000x100_S65536x1_S65536x100_1_0_n_n_0_1_1100_wf : GatherDims.WF S50000x100 S65536x1 S65536x100 [1] [0] [] [0] [] 1 ![1, 100]
  gather_S50000x1_S65536x1_S65536x1_1_0_n_n_0_1_11_wf : GatherDims.WF S50000x1 S65536x1 S65536x1 [1] [0] [] [0] [] 1 ![1, 1]

variable [Facts₀]

def gather_S50000x50_S65536x10x1_S65536x10x50_2_0_n_n_0_2_150 : GatherDims S50000x50 S65536x10x1 S65536x10x50 where
  offsetDims := [2]
  collapsedSliceDims := [0]
  operandBatchingDims := []
  startIndicesBatchingDims := []
  startIndexMap := [0]
  indexVectorDim := 2
  sliceSizes := ![1, 50]
  wf := gather_S50000x50_S65536x10x1_S65536x10x50_2_0_n_n_0_2_150_wf
def gather_S50000x50_S65536x1_S65536x50_1_0_n_n_0_1_150 : GatherDims S50000x50 S65536x1 S65536x50 where
  offsetDims := [1]
  collapsedSliceDims := [0]
  operandBatchingDims := []
  startIndicesBatchingDims := []
  startIndexMap := [0]
  indexVectorDim := 1
  sliceSizes := ![1, 50]
  wf := gather_S50000x50_S65536x1_S65536x50_1_0_n_n_0_1_150_wf
def dot_S65536x10x100_S100x50_S65536x10x50_2_0_01_1_n_n : DotDims S65536x10x100 S100x50 S65536x10x50 where
  lhsContracting := [2]
  rhsContracting := [0]
  lhsNonContracting := [0, 1]
  rhsNonContracting := [1]
  lhsBatch := []
  rhsBatch := []
  wf := dot_S65536x10x100_S100x50_S65536x10x50_2_0_01_1_n_n_wf
def dot_S65536x50_S50x100_S65536x100_1_0_0_1_n_n : DotDims S65536x50 S50x100 S65536x100 where
  lhsContracting := [1]
  rhsContracting := [0]
  lhsNonContracting := [0]
  rhsNonContracting := [1]
  lhsBatch := []
  rhsBatch := []
  wf := dot_S65536x50_S50x100_S65536x100_1_0_0_1_n_n_wf
def dot_S65536x50_S50x1_S65536x1_1_0_0_1_n_n : DotDims S65536x50 S50x1 S65536x1 where
  lhsContracting := [1]
  rhsContracting := [0]
  lhsNonContracting := [0]
  rhsNonContracting := [1]
  lhsBatch := []
  rhsBatch := []
  wf := dot_S65536x50_S50x1_S65536x1_1_0_0_1_n_n_wf
def gather_S50000x100_S655360x1_S655360x100_1_0_n_n_0_1_1100 : GatherDims S50000x100 S655360x1 S655360x100 where
  offsetDims := [1]
  collapsedSliceDims := [0]
  operandBatchingDims := []
  startIndicesBatchingDims := []
  startIndexMap := [0]
  indexVectorDim := 1
  sliceSizes := ![1, 100]
  wf := gather_S50000x100_S655360x1_S655360x100_1_0_n_n_0_1_1100_wf
def gather_S50000x1_S655360x1_S655360x1_1_0_n_n_0_1_11 : GatherDims S50000x1 S655360x1 S655360x1 where
  offsetDims := [1]
  collapsedSliceDims := [0]
  operandBatchingDims := []
  startIndicesBatchingDims := []
  startIndexMap := [0]
  indexVectorDim := 1
  sliceSizes := ![1, 1]
  wf := gather_S50000x1_S655360x1_S655360x1_1_0_n_n_0_1_11_wf
def gather_S50000x100_S65536x1_S65536x100_1_0_n_n_0_1_1100 : GatherDims S50000x100 S65536x1 S65536x100 where
  offsetDims := [1]
  collapsedSliceDims := [0]
  operandBatchingDims := []
  startIndicesBatchingDims := []
  startIndexMap := [0]
  indexVectorDim := 1
  sliceSizes := ![1, 100]
  wf := gather_S50000x100_S65536x1_S65536x100_1_0_n_n_0_1_1100_wf
def gather_S50000x1_S65536x1_S65536x1_1_0_n_n_0_1_11 : GatherDims S50000x1 S65536x1 S65536x1 where
  offsetDims := [1]
  collapsedSliceDims := [0]
  operandBatchingDims := []
  startIndicesBatchingDims := []
  startIndexMap := [0]
  indexVectorDim := 1
  sliceSizes := ![1, 1]
  wf := gather_S50000x1_S65536x1_S65536x1_1_0_n_n_0_1_11_wf

class Facts : Prop extends Facts₀ where

variable [Facts]
-- ==== Proof.Spec.lean ====
/-
  The loss one example contributes, over the extended reals, and the one law that joins the two programs.

  An example has ten context words and a centre word. Each context word's embedding row (50 numbers) is
  joined to the centre's (50 more), sent through a linear layer into 50 hidden units, rectified, and the
  ten results are summed: the hidden vector `hid`. Two more linear layers give the posterior mean
  (`muOf`, 100 numbers) and the posterior log-deviation (`lsOf`, one number). Against a word's prior row
  (a mean of 100 numbers and one log-variance) the divergence is
  `klOf = 1/2 · (e^ls / e^lv + |mu - mean|² / e^lv + (lv - ls) - 100)`.
  The example's loss is the hinge `max (kl(context) - kl(negative) + 1) 0` over its ten context / negative
  pairs plus the divergence against the centre word's own prior row.

  The two programs sum these contributions in different groupings: one by blocks of 128 examples, block
  after block; the other all 655360 hinges at once and then all 65536 centre terms. Addition of extended
  reals is commutative and associative (with `⊤ + ⊥ = ⊥`), so the two groupings agree at every input, the
  infinite ones included: `total_eq`.
-/
import Idealize.ShloMosaic.PureOps.Ideal
import Mathlib.Algebra.BigOperators.Fin
import Mathlib.Logic.Equiv.Fin.Basic

noncomputable section

open scoped BigOperators

namespace Cert.Bsg

open Idealize.ShloMosaic

/-- The three float literals both programs carry, as the extended reals their words denote: 0.5, 100 and 1. -/
abbrev cHalf : EReal := Ideal.ofBits .f32 0x3F000000#32
abbrev cHundred : EReal := Ideal.ofBits .f32 0x42C80000#32
abbrev cOne : EReal := Ideal.ofBits .f32 0x3F800000#32

/-- A context word's embedding row followed by the centre word's: 100 numbers. -/
def cat (ectx : Fin 10 → Fin 50 → EReal) (ecen : Fin 50 → EReal) (c : Fin 10) (f : Fin 100) : EReal :=
  if h : f.val < 50 then ectx c ⟨f.val, h⟩ else ecen ⟨f.val - 50, by omega⟩

/-- The weights of the three linear layers. -/
structure Weights where
  W1 : Fin 100 → Fin 50 → EReal
  b1 : Fin 50 → EReal
  Wmu : Fin 50 → Fin 100 → EReal
  bmu : Fin 100 → EReal
  Wls : Fin 50 → EReal
  bls : EReal

/-- The hidden vector: the rectified first layer, summed over the ten context words. -/
def hid (W : Weights) (ectx : Fin 10 → Fin 50 → EReal) (ecen : Fin 50 → EReal) (j : Fin 50) : EReal :=
  ∑ c : Fin 10, max ((∑ f : Fin 100, cat ectx ecen c f * W.W1 f j) + W.b1 j) 0

/-- The posterior mean. -/
def muOf (W : Weights) (h : Fin 50 → EReal) (l : Fin 100) : EReal := (∑ j : Fin 50, h j * W.Wmu j l) + W.bmu l

/-- The posterior log-deviation. -/
def lsOf (W : Weights) (h : Fin 50 → EReal) : EReal := (∑ j : Fin 50, h j * W.Wls j) + W.bls

/-- The divergence of the posterior `(mu, ls)` from a prior row `(mean, lv)`. -/
def klOf (mu : Fin 100 → EReal) (ls : EReal) (mean : Fin 100 → EReal) (lv : EReal) : EReal :=
  cHalf * (Ideal.div (Ideal.exp ls) (Ideal.exp lv)
    + Ideal.div (∑ l : Fin 100, (mu l - mean l) * (mu l - mean l)) (Ideal.exp lv) + (lv - ls) - cHundred)

/-- The hinge of a context divergence against a negative one, margin 1. -/
def hingeOf (a b : EReal) : EReal := max (a - b + cOne) 0

/-- One example's hinge at context position `c`, from its gathered rows. -/
def exHinge (W : Weights) (ectx : Fin 10 → Fin 50 → EReal) (ecen : Fin 50 → EReal)
    (mctx : Fin 10 → Fin 100 → EReal) (lctx : Fin 10 → EReal) (mneg : Fin 10 → Fin 100 → EReal) (lneg : Fin 10 → EReal)
    (c : Fin 10) : EReal :=
  hingeOf (klOf (muOf W (hid W ectx ecen)) (lsOf W (hid W ectx ecen)) (mctx c) (lctx c))
    (klOf (muOf W (hid W ectx ecen)) (lsOf W (hid W ectx ecen)) (mneg c) (lneg c))

/-- One example's divergence against its centre word's prior row. -/
def exKlc (W : Weights) (ectx : Fin 10 → Fin 50 → EReal) (ecen : Fin 50 → EReal)
    (mcen : Fin 100 → EReal) (lcen : EReal) : EReal :=
  klOf (muOf W (hid W ectx ecen)) (lsOf W (hid W ectx ecen)) mcen lcen

/-! ## The two groupings of the total -/

/-- Example `r` of block `t` (blocks of 128). -/
abbrev blkRow (t : Fin 512) (r : Fin 128) : Fin 65536 := ⟨t.val * 128 + r.val, by omega⟩
/-- The example a flat (example, context position) index belongs to, and its context position. -/
abbrev flatRow (n : Fin 655360) : Fin 65536 := ⟨n.val / 10, by omega⟩
abbrev flatCol (n : Fin 655360) : Fin 10 := ⟨n.val % 10, by omega⟩

/-- A sum over the examples, block by block. -/
theorem sum_blocks {M : Type*} [AddCommMonoid M] (g : Fin 65536 → M) :
    ∑ t : Fin 512, ∑ r : Fin 128, g (blkRow t r) = ∑ b : Fin 65536, g b := by
  rw [← Equiv.sum_comp (finProdFinEquiv (m := 512) (n := 128)) g, Fintype.sum_prod_type]
  refine Finset.sum_congr rfl fun t _ => Finset.sum_congr rfl fun r _ => congrArg g (Fin.ext ?_)
  show t.val * 128 + r.val = r.val + 128 * t.val
  omega

/-- A sum over the flat (example, position) pairs, example by example. -/
theorem sum_flat {M : Type*} [AddCommMonoid M] (f : Fin 65536 → Fin 10 → M) :
    ∑ n : Fin 655360, f (flatRow n) (flatCol n) = ∑ b : Fin 65536, ∑ c : Fin 10, f b c := by
  rw [← Equiv.sum_comp (finProdFinEquiv (m := 65536) (n := 10)) (fun n => f (flatRow n) (flatCol n)), Fintype.sum_prod_type]
  refine Finset.sum_congr rfl fun b _ => Finset.sum_congr rfl fun c _ => ?_
  have hb : flatRow (finProdFinEquiv (b, c)) = b := Fin.ext (by
    show (c.val + 10 * b.val) / 10 = b.val
    have := c.isLt; omega)
  have hc : flatCol (finProdFinEquiv (b, c)) = c := Fin.ext (by
    show (c.val + 10 * b.val) % 10 = c.val
    have := c.isLt; omega)
  rw [hb, hc]

/-- THE LAW: the blockwise total (each block's hinges and centre terms added, block after block) is the
    total of all hinges plus the total of all centre terms. Only commutativity and associativity of the
    sum: no finiteness. -/
theorem total_eq (H : Fin 65536 → Fin 10 → EReal) (K : Fin 65536 → EReal) :
    ∑ t : Fin 512, ((∑ r : Fin 128, ∑ c : Fin 10, H (blkRow t r) c) + ∑ r : Fin 128, K (blkRow t r))
      = (∑ n : Fin 655360, H (flatRow n) (flatCol n)) + ∑ b : Fin 65536, K b := by
  rw [Finset.sum_add_distrib, sum_blocks (fun b => ∑ c : Fin 10, H b c), sum_blocks K, sum_flat H]

end Cert.Bsg

end
-- ==== Proof.KernelPayDefs.lean ====
/-
  One grid point of the kernel as one term, and a block's rows by coordinates.

  A grid point sees 128 examples: their context embedding rows (`x0`), centre embedding rows (`x1`), the prior rows of
  their context, negative and centre words (`x2`, `x3`, `x4`: 100 means then one log-variance) and the six weight
  arrays (`x5` … `x10`). What it leaves in the output block is `blockTerm`: the block's previous contents plus,
  at entry (0, 0), the block's loss, and plus zero elsewhere. `blockLoss` is that loss written with Spec.lean's
  per-example terms over the block's rows.
-/
import proofs.«121254_j78829829751266_1_alg».proof.Proof.Gen.KernelIdeal.Skeleton
import proofs.«121254_j78829829751266_1_alg».proof.Proof.Spec
import Idealize.ShloMosaic.Lib.ValueIdx

noncomputable section

open scoped BigOperators

namespace Cert.KernelIdeal.Pay

open Cert.KernelIdeal Cert.KernelIdeal.Gen Idealize.ShloMosaic Idealize.ShloMosaic.ValueIdx Cert.Bsg

variable {F : FTy → Type} [FloatOps F]

/-- What the body's last store writes, from the eleven input blocks and the output block's previous contents. -/
def blockTerm (x0 : Vec F S128x10x50 .f32) (x1 : Vec F S128x50 .f32) (x2 x3 : Vec F S128x10x101 .f32)
    (x4 : Vec F S128x101 .f32) (x5 : Vec F S100x50 .f32) (x6 : Vec F S1x50 .f32) (x7 : Vec F S50x100 .f32)
    (x8 : Vec F S1x100 .f32) (x9 : Vec F S50x1 .f32) (x10 : Vec F S1x1 .f32) (acc : Vec F S8x128 .f32) :
    FVec F S8x128 .f32 :=
  k0_pay1 (k0_pay4 x0 x1 x5 x6 x7 x8) (k0_pay7 (k0_pay5 x0 x1 x5 x6 x9) (k0_pay6 x10)) (k0_pay11 x4) (k0_pay12 x4)
    (k0_pay13 (k0_pay4 x0 x1 x5 x6 x7 x8) (k0_pay5 x0 x1 x5 x6 x9) (k0_pay6 x10) x2)
    (k0_pay15 (k0_pay5 x0 x1 x5 x6 x9) (k0_pay6 x10) x3)
    (k0_pay16 (k0_pay4 x0 x1 x5 x6 x7 x8) (k0_pay5 x0 x1 x5 x6 x9) (k0_pay6 x10) x3) acc

/-! ## A block's rows and weights, at the extended reals -/

/-- The weights as the body loads them. -/
def W (x5 : Vec Ideal S100x50 .f32) (x6 : Vec Ideal S1x50 .f32) (x7 : Vec Ideal S50x100 .f32)
    (x8 : Vec Ideal S1x100 .f32) (x9 : Vec Ideal S50x1 .f32) (x10 : Vec Ideal S1x1 .f32) : Weights where
  W1 f j := x5 (ix2 f j)
  b1 j := x6 (ix2 (0 : Fin 1) j)
  Wmu j l := x7 (ix2 j l)
  bmu l := x8 (ix2 (0 : Fin 1) l)
  Wls j := x9 (ix2 j (0 : Fin 1))
  bls := x10 (ix2 (0 : Fin 1) (0 : Fin 1))

/-- Row `r` of the block: its context embedding rows and its centre embedding row. -/
def ectx (x0 : Vec Ideal S128x10x50 .f32) (r : Fin 128) (c : Fin 10) (f : Fin 50) : EReal := x0 (ix3 r c f)
def ecen (x1 : Vec Ideal S128x50 .f32) (r : Fin 128) (f : Fin 50) : EReal := x1 (ix2 r f)
/-- A prior row of a [128, 10, 101] block: its 100 means, then its log-variance (column 100). -/
def mean3 (x : Vec Ideal S128x10x101 .f32) (r : Fin 128) (c : Fin 10) (l : Fin 100) : EReal := x (ix3 r c (Fin.castSucc l))
def lvar3 (x : Vec Ideal S128x10x101 .f32) (r : Fin 128) (c : Fin 10) : EReal := x (ix3 r c (Fin.last 100))
/-- The same of a [128, 101] block. -/
def mean2 (x : Vec Ideal S128x101 .f32) (r : Fin 128) (l : Fin 100) : EReal := x (ix2 r (Fin.castSucc l))
def lvar2 (x : Vec Ideal S128x101 .f32) (r : Fin 128) : EReal := x (ix2 r (Fin.last 100))

/-- The block's loss: its 1280 hinges plus its 128 centre terms. -/
def blockLoss (x0 : Vec Ideal S128x10x50 .f32) (x1 : Vec Ideal S128x50 .f32) (x2 x3 : Vec Ideal S128x10x101 .f32)
    (x4 : Vec Ideal S128x101 .f32) (x5 : Vec Ideal S100x50 .f32) (x6 : Vec Ideal S1x50 .f32) (x7 : Vec Ideal S50x100 .f32)
    (x8 : Vec Ideal S1x100 .f32) (x9 : Vec Ideal S50x1 .f32) (x10 : Vec Ideal S1x1 .f32) : EReal :=
  (∑ r : Fin 128, ∑ c : Fin 10, exHinge (W x5 x6 x7 x8 x9 x10) (ectx x0 r) (ecen x1 r) (mean3 x2 r) (lvar3 x2 r)
      (mean3 x3 r) (lvar3 x3 r) c)
    + ∑ r : Fin 128, exKlc (W x5 x6 x7 x8 x9 x10) (ectx x0 r) (ecen x1 r) (mean2 x4 r) (lvar2 x4 r)

end Cert.KernelIdeal.Pay

end
-- ==== Proof.KernelPieces.lean ====
/-
  What each of the body's two control cases leaves in the output block, as a value. At the first grid point the
  body first stores zeros and then adds the block's term to what it reads back; at every later point it adds the
  block's term to what the point before left. Both are `blockTerm` of the point's input blocks: over the zero block
  in the first case, over the previous contents in the second.
-/
import proofs.«121254_j78829829751266_1_alg».proof.Proof.Gen.KernelIdeal.Frame
import proofs.«121254_j78829829751266_1_alg».proof.Proof.KernelPayDefs
import Idealize.ShloMosaic.Lib.Pipeline.Value
import Idealize.ShloMosaic.Lib.Tactic

noncomputable section

namespace Cert.KernelIdeal.Pieces

open Cert.KernelIdeal Cert.KernelIdeal.Gen Cert.KernelIdeal.Pay Idealize.ShloMosaic Idealize.ShloMosaic.TcCoe Idealize.SL.Sem

variable {F : FTy → Type} [FloatOps F]

/-- The zero offsets of a rank-2 and of a rank-3 load or store, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A later grid point: the block's term over what the point before left (`xo11`). -/
theorem out_B (c : Dev nD) (i : grid0.Coords) (arg1 : Memref sig .tc .vmem S128x10x50 .f32) (harg1 : arg1.IsWhole) (arg2 : Memref sig .tc .vmem S128x50 .f32) (harg2 : arg2.IsWhole) (arg3 : Memref sig .tc .vmem S128x10x101 .f32) (harg3 : arg3.IsWhole) (arg4 : Memref sig .tc .vmem S128x10x101 .f32) (harg4 : arg4.IsWhole) (arg5 : Memref sig .tc .vmem S128x101 .f32) (harg5 : arg5.IsWhole) (arg6 : Memref sig .tc .vmem S100x50 .f32) (harg6 : arg6.IsWhole) (arg7 : Memref sig .tc .vmem S1x50 .f32) (harg7 : arg7.IsWhole) (arg8 : Memref sig .tc .vmem S50x100 .f32) (harg8 : arg8.IsWhole) (arg9 : Memref sig .tc .vmem S1x100 .f32) (harg9 : arg9.IsWhole) (arg10 : Memref sig .tc .vmem S50x1 .f32) (harg10 : arg10.IsWhole) (arg11 : Memref sig .tc .vmem S1x1 .f32) (harg11 : arg11.IsWhole) (arg12 : Memref sig .tc .vmem S8x128 .f32) (harg12 : arg12.IsWhole) (hc0 : ¬cond0_0 i)
    (x0 : Vec F S128x10x50 .f32) (x1 : Vec F S128x50 .f32) (x2 : Vec F S128x10x101 .f32) (x3 : Vec F S128x10x101 .f32) (x4 : Vec F S128x101 .f32) (x5 : Vec F S100x50 .f32) (x6 : Vec F S1x50 .f32) (x7 : Vec F S50x100 .f32) (x8 : Vec F S1x100 .f32) (x9 : Vec F S50x1 .f32) (x10 : Vec F S1x1 .f32) (xo11 : Vec F S8x128 .f32) :
    out0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 x10 xo11 = blockTerm x0 x1 x2 x3 x4 x5 x6 x7 x8 x9 x10 xo11 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 x10 xo11)]
  unfold kernelRun0_B
  dsimp only
  sl_unfold_words
  rw [View.canon_unit_zero hz2]
  unfold blockTerm
  simp only [View.readAt_eq_ld, harg1.read_unread, harg2.read_unread, harg3.read_unread, harg4.read_unread,
    harg5.read_unread, harg6.read_unread, harg7.read_unread, harg8.read_unread, harg9.read_unread, harg10.read_unread,
    harg11.read_unread, harg12.read_unread, View.ld_unit_zero (S := S128x10x50) hz3, View.ld_unit_zero (S := S128x50) hz2,
    View.ld_unit_zero (S := S128x10x101) hz3, View.ld_unit_zero (S := S128x101) hz2, View.ld_unit_zero (S := S100x50) hz2,
    View.ld_unit_zero (S := S1x50) hz2, View.ld_unit_zero (S := S50x100) hz2, View.ld_unit_zero (S := S1x100) hz2,
    View.ld_unit_zero (S := S50x1) hz2, View.ld_unit_zero (S := S1x1) hz2, View.ld_unit_zero (S := S8x128) hz2,
    shapeCast_self]

/-- The first grid point: the block's term over the zero block the body has just stored. -/
theorem out_A (c : Dev nD) (i : grid0.Coords) (arg1 : Memref sig .tc .vmem S128x10x50 .f32) (harg1 : arg1.IsWhole) (arg2 : Memref sig .tc .vmem S128x50 .f32) (harg2 : arg2.IsWhole) (arg3 : Memref sig .tc .vmem S128x10x101 .f32) (harg3 : arg3.IsWhole) (arg4 : Memref sig .tc .vmem S128x10x101 .f32) (harg4 : arg4.IsWhole) (arg5 : Memref sig .tc .vmem S128x101 .f32) (harg5 : arg5.IsWhole) (arg6 : Memref sig .tc .vmem S100x50 .f32) (harg6 : arg6.IsWhole) (arg7 : Memref sig .tc .vmem S1x50 .f32) (harg7 : arg7.IsWhole) (arg8 : Memref sig .tc .vmem S50x100 .f32) (harg8 : arg8.IsWhole) (arg9 : Memref sig .tc .vmem S1x100 .f32) (harg9 : arg9.IsWhole) (arg10 : Memref sig .tc .vmem S50x1 .f32) (harg10 : arg10.IsWhole) (arg11 : Memref sig .tc .vmem S1x1 .f32) (harg11 : arg11.IsWhole) (arg12 : Memref sig .tc .vmem S8x128 .f32) (harg12 : arg12.IsWhole) (hc0 : cond0_0 i)
    (x0 : Vec F S128x10x50 .f32) (x1 : Vec F S128x50 .f32) (x2 : Vec F S128x10x101 .f32) (x3 : Vec F S128x10x101 .f32) (x4 : Vec F S128x101 .f32) (x5 : Vec F S100x50 .f32) (x6 : Vec F S1x50 .f32) (x7 : Vec F S50x100 .f32) (x8 : Vec F S1x100 .f32) (x9 : Vec F S50x1 .f32) (x10 : Vec F S1x1 .f32) :
    out0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 x10 = blockTerm x0 x1 x2 x3 x4 x5 x6 x7 x8 x9 x10 (k0_pay2 (F := F)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 x10)]
  unfold kernelRun0_A
  dsimp only
  sl_unfold_words
  rw [View.canon_cons_unit_zero (S := S8x128) hz2, View.readCov_unit_zero (S := S8x128) _ hz2]
  unfold blockTerm
  simp only [View.readAt_eq_ld, harg1.read_unread, harg2.read_unread, harg3.read_unread, harg4.read_unread,
    harg5.read_unread, harg6.read_unread, harg7.read_unread, harg8.read_unread, harg9.read_unread, harg10.read_unread,
    harg11.read_unread, harg12.read_unread, View.ld_unit_zero (S := S128x10x50) hz3, View.ld_unit_zero (S := S128x50) hz2,
    View.ld_unit_zero (S := S128x10x101) hz3, View.ld_unit_zero (S := S128x101) hz2, View.ld_unit_zero (S := S100x50) hz2,
    View.ld_unit_zero (S := S1x50) hz2, View.ld_unit_zero (S := S50x100) hz2, View.ld_unit_zero (S := S1x100) hz2,
    View.ld_unit_zero (S := S50x1) hz2, View.ld_unit_zero (S := S1x1) hz2, View.ld_unit_zero (S := S8x128) hz2,
    shapeCast_self]

end Cert.KernelIdeal.Pieces

end
-- ==== Proof.KernelPayA.lean ====
/-
  The first half of a grid point's arithmetic, read at an index over the extended reals: the hidden vector
  (the joined rows through the first layer, rectified, summed over the ten context words), the posterior mean and
  the posterior log-deviation, each as Spec.lean writes it over the block's rows.

  Each operation of the body is first read at coordinates over an arbitrary operand: the two readings of a
  [128, 10, 50] array as [1280, 50] and back (row 10 r + c is the row at (r, c)), the centre row repeated over the
  ten context positions, the join of two [1280, 50] pieces along the columns, the sum over the middle axis, and the
  three matrix products into a zero accumulator as sums over the one contracted coordinate. The three values of a
  row are then chains of these readings.
-/
import proofs.«121254_j78829829751266_1_alg».proof.Proof.KernelPayDefs
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Bsg

namespace PayA

/-! ## Layout operations at coordinates -/

section Layout
variable {α : Type}

/-- Row `10 r + c` of a `[1280, ·]` array: context position `c` of example `r`. -/
abbrev flat (r : Fin 128) (c : Fin 10) : Fin 1280 := ⟨10 * r.val + c.val, by omega⟩

/-- `[128, 10, 50]` read as `[1280, 50]`: row `10 r + c` is the row at `(r, c)`. -/
theorem merge_apply (v : S128x10x50.Idx → α) (h : S128x10x50.ShapeCasts S1280x50) (r : Fin 128) (c : Fin 10) (g : Fin 50) :
    shapeCast S1280x50 v h (ix2 (flat r c) g) = v (ix3 r c g) :=
  shapeCast_apply v h _ _ (by
    rw [Shape.rowMajor_val_three, Shape.rowMajor_val_two]
    show (r.val * 10 + c.val) * 50 + g.val = (10 * r.val + c.val) * 50 + g.val
    omega)

/-- `[1280, 50]` read as `[128, 10, 50]`: the row at `(r, c)` is row `10 r + c`. -/
theorem split_apply (v : S1280x50.Idx → α) (h : S1280x50.ShapeCasts S128x10x50) (r : Fin 128) (c : Fin 10) (g : Fin 50) :
    shapeCast S128x10x50 v h (ix3 r c g) = v (ix2 (flat r c) g) :=
  shapeCast_apply v h _ _ (by
    rw [Shape.rowMajor_val_three, Shape.rowMajor_val_two]
    show (10 * r.val + c.val) * 50 + g.val = (r.val * 10 + c.val) * 50 + g.val
    omega)

/-- `[128, 50]` read as `[128, 1, 50]`. -/
theorem unit_apply (v : S128x50.Idx → α) (h : S128x50.ShapeCasts S128x1x50) (r : Fin 128) (u : Fin 1) (g : Fin 50) :
    shapeCast S128x1x50 v h (ix3 r u g) = v (ix2 r g) :=
  shapeCast_apply v h _ _ (by
    have hu : u.val = 0 := by omega
    rw [Shape.rowMajor_val_three, Shape.rowMajor_val_two]
    show r.val * 50 + g.val = (r.val * 1 + u.val) * 50 + g.val
    omega)

/-- One row per example repeated over the ten context positions. -/
theorem rep_apply (v : S128x1x50.Idx → α) (h : S128x1x50.Broadcasts S128x10x50) (r : Fin 128) (c : Fin 10) (g : Fin 50) :
    broadcastTo S128x10x50 v h (ix3 r c g) = v (ix3 r (0 : Fin 1) g) := by
  refine broadcastTo_apply v h (ix3 r c g) (ix3 r (0 : Fin 1) g) fun ax => ?_
  match ax with
  | ⟨0, _⟩ => show r.val = if (128 : Nat) = 1 then 0 else r.val; rw [if_neg (by decide)]
  | ⟨1, _⟩ => show 0 = if (1 : Nat) = 1 then 0 else c.val; rw [if_pos rfl]
  | ⟨2, _⟩ => show g.val = if (50 : Nat) = 1 then 0 else g.val; rw [if_neg (by decide)]

/-- Two `[1280, 50]` pieces joined along the columns: below column 50 the first piece. -/
theorem join_left (v₁ v₂ : S1280x50.Idx → α) (h : Shape.Concatenates [S1280x50, S1280x50] S1280x100 1)
    (n : Fin 1280) (f : Fin 100) (hf : f.val < 50) :
    concatenate S1280x100 1 [⟨S1280x50, v₁⟩, ⟨S1280x50, v₂⟩] h (ix2 n f) = v₁ (ix2 n (⟨f.val, hf⟩ : Fin 50)) :=
  concatenate_pair_apply_left 1 v₁ v₂ h (ix2 n f) rfl (ix2 n (⟨f.val, hf⟩ : Fin 50)) fun b => match b with
    | ⟨0, _⟩ => rfl
    | ⟨1, _⟩ => rfl

/-- From column 50 on, the second piece, fifty columns back. -/
theorem join_right (v₁ v₂ : S1280x50.Idx → α) (h : Shape.Concatenates [S1280x50, S1280x50] S1280x100 1)
    (n : Fin 1280) (f : Fin 100) (hf : ¬ f.val < 50) :
    concatenate S1280x100 1 [⟨S1280x50, v₁⟩, ⟨S1280x50, v₂⟩] h (ix2 n f)
      = v₂ (ix2 n (⟨f.val - 50, by omega⟩ : Fin 50)) :=
  concatenate_pair_apply_right 1 v₁ v₂ h (ix2 n f) rfl rfl (ix2 n (⟨f.val - 50, by omega⟩ : Fin 50))
    (fun b hb => match b, hb with
      | ⟨0, _⟩, _ => rfl
      | ⟨1, _⟩, hb => (hb rfl).elim)
    (by show (f.val - 50) + 50 = f.val; omega)

end Layout

/-! ## The sum over the ten context positions -/

/-- The reduction over the middle axis at `(r, j)` is the sum over `c` of the entries `(r, c, j)`. -/
theorem red_apply (v : FVec Ideal S128x10x50 .f32) (h : S128x10x50.Reduces [1] S128x50) (hφ : FKind.Formats .f32)
    (hacc : (0x00000000#32 : BitVec 32) = FKind.add.neutral .f32 hφ) (r : Fin 128) (j : Fin 50) :
    multiReduction (F := Ideal) .add [1] S128x50 v 0x00000000#32 h hφ hacc (ix2 r j) = ∑ c : Fin 10, v (ix3 r c j) := by
  refine (Ideal.multiReduction_add_single v _ h hφ hacc (ix2 r j)).trans ?_
  show ∑ c : Fin 10, v (h.lift (ix2 r j) c) = _
  refine Finset.sum_congr rfl fun c _ => congrArg v (funext fun a => Fin.ext ?_)
  match a with
  | ⟨0, _⟩ => rfl
  | ⟨1, _⟩ => rfl
  | ⟨2, _⟩ => rfl

/-! ### The product `[1280, 100] × [100, 50]` -/

theorem lhsA_0 (i : S1280x50.Idx) (q : dot_S1280x100_S100x50_S1280x50_1_0_0_1_n_n.contr.Idx) :
    (dot_S1280x100_S100x50_S1280x50_1_0_0_1_n_n.lhsIdx i q 0).val = (i 0).val := by
  unfold DotDims.lhsIdx
  rw [dif_neg (show ¬(0 : Fin S1280x100.rank) ∈ dot_S1280x100_S100x50_S1280x50_1_0_0_1_n_n.lhsBatch by decide), dif_pos (show (0 : Fin S1280x100.rank) ∈ dot_S1280x100_S100x50_S1280x50_1_0_0_1_n_n.lhsNonContracting by decide)]
  rfl
theorem lhsA_1 (i : S1280x50.Idx) (q : dot_S1280x100_S100x50_S1280x50_1_0_0_1_n_n.contr.Idx) :
    (dot_S1280x100_S100x50_S1280x50_1_0_0_1_n_n.lhsIdx i q 1).val = (q ⟨0, by decide⟩).val :=
  dot_S1280x100_S100x50_S1280x50_1_0_0_1_n_n.lhsIdx_val_of_single rfl i q
theorem rhsA_0 (i : S1280x50.Idx) (q : dot_S1280x100_S100x50_S1280x50_1_0_0_1_n_n.contr.Idx) :
    (dot_S1280x100_S100x50_S1280x50_1_0_0_1_n_n.rhsIdx i q 0).val = (q ⟨0, by decide⟩).val :=
  dot_S1280x100_S100x50_S1280x50_1_0_0_1_n_n.rhsIdx_val_of_single rfl i q
theorem rhsA_1 (i : S1280x50.Idx) (q : dot_S1280x100_S100x50_S1280x50_1_0_0_1_n_n.contr.Idx) :
    (dot_S1280x100_S100x50_S1280x50_1_0_0_1_n_n.rhsIdx i q 1).val = (i 1).val := by
  unfold DotDims.rhsIdx
  rw [dif_neg (show ¬(1 : Fin S100x50.rank) ∈ dot_S1280x100_S100x50_S1280x50_1_0_0_1_n_n.rhsBatch by decide), dif_pos (show (1 : Fin S100x50.rank) ∈ dot_S1280x100_S100x50_S1280x50_1_0_0_1_n_n.rhsNonContracting by decide)]
  rfl

/-- Into the zero accumulator the product at `(n, j)` is the sum over the 100 contracted positions. -/
theorem mmA_apply (A : FVec Ideal S1280x100 .f32) (B : FVec Ideal S100x50 .f32) (n : Fin 1280) (j : Fin 50) :
    matmul (F := Ideal) dot_S1280x100_S100x50_S1280x50_1_0_0_1_n_n none A B (constant (F := Ideal) S1280x50 .f32 0x00000000#32) (ix2 n j)
      = ∑ f : Fin 100, A (ix2 n f) * B (ix2 f j) := by
  refine (Ideal.matmul_constant_zero_apply dot_S1280x100_S100x50_S1280x50_1_0_0_1_n_n none A B (ix2 n j)).trans ?_
  rw [← Equiv.sum_comp (contrEquiv1 dot_S1280x100_S100x50_S1280x50_1_0_0_1_n_n 100 rfl rfl).symm]
  refine Finset.sum_congr rfl fun k _ => ?_
  have hk := contrEquiv1_symm_val dot_S1280x100_S100x50_S1280x50_1_0_0_1_n_n 100 rfl rfl k
  have el : dot_S1280x100_S100x50_S1280x50_1_0_0_1_n_n.lhsIdx (ix2 n j) ((contrEquiv1 dot_S1280x100_S100x50_S1280x50_1_0_0_1_n_n 100 rfl rfl).symm k) = ix2 n k := funext fun a => Fin.ext (by
    match a with
    | ⟨0, _⟩ => exact lhsA_0 _ _
    | ⟨1, _⟩ => exact (lhsA_1 _ _).trans hk)
  have er : dot_S1280x100_S100x50_S1280x50_1_0_0_1_n_n.rhsIdx (ix2 n j) ((contrEquiv1 dot_S1280x100_S100x50_S1280x50_1_0_0_1_n_n 100 rfl rfl).symm k) = ix2 k j := funext fun a => Fin.ext (by
    match a with
    | ⟨0, _⟩ => exact (rhsA_0 _ _).trans hk
    | ⟨1, _⟩ => exact rhsA_1 _ _)
  rw [el, er]

/-! ### The product `[128, 50] × [50, 100]` -/

theorem lhsB_0 (i : S128x100.Idx) (q : dot_S128x50_S50x100_S128x100_1_0_0_1_n_n.contr.Idx) :
    (dot_S128x50_S50x100_S128x100_1_0_0_1_n_n.lhsIdx i q 0).val = (i 0).val := by
  unfold DotDims.lhsIdx
  rw [dif_neg (show ¬(0 : Fin S128x50.rank) ∈ dot_S128x50_S50x100_S128x100_1_0_0_1_n_n.lhsBatch by decide), dif_pos (show (0 : Fin S128x50.rank) ∈ dot_S128x50_S50x100_S128x100_1_0_0_1_n_n.lhsNonContracting by decide)]
  rfl
theorem lhsB_1 (i : S128x100.Idx) (q : dot_S128x50_S50x100_S128x100_1_0_0_1_n_n.contr.Idx) :
    (dot_S128x50_S50x100_S128x100_1_0_0_1_n_n.lhsIdx i q 1).val = (q ⟨0, by decide⟩).val :=
  dot_S128x50_S50x100_S128x100_1_0_0_1_n_n.lhsIdx_val_of_single rfl i q
theorem rhsB_0 (i : S128x100.Idx) (q : dot_S128x50_S50x100_S128x100_1_0_0_1_n_n.contr.Idx) :
    (dot_S128x50_S50x100_S128x100_1_0_0_1_n_n.rhsIdx i q 0).val = (q ⟨0, by decide⟩).val :=
  dot_S128x50_S50x100_S128x100_1_0_0_1_n_n.rhsIdx_val_of_single rfl i q
theorem rhsB_1 (i : S128x100.Idx) (q : dot_S128x50_S50x100_S128x100_1_0_0_1_n_n.contr.Idx) :
    (dot_S128x50_S50x100_S128x100_1_0_0_1_n_n.rhsIdx i q 1).val = (i 1).val := by
  unfold DotDims.rhsIdx
  rw [dif_neg (show ¬(1 : Fin S50x100.rank) ∈ dot_S128x50_S50x100_S128x100_1_0_0_1_n_n.rhsBatch by decide), dif_pos (show (1 : Fin S50x100.rank) ∈ dot_S128x50_S50x100_S128x100_1_0_0_1_n_n.rhsNonContracting by decide)]
  rfl

/-- Into the zero accumulator the product at `(n, j)` is the sum over the 50 contracted positions. -/
theorem mmB_apply (A : FVec Ideal S128x50 .f32) (B : FVec Ideal S50x100 .f32) (n : Fin 128) (j : Fin 100) :
    matmul (F := Ideal) dot_S128x50_S50x100_S128x100_1_0_0_1_n_n none A B (constant (F := Ideal) S128x100 .f32 0x00000000#32) (ix2 n j)
      = ∑ f : Fin 50, A (ix2 n f) * B (ix2 f j) := by
  refine (Ideal.matmul_constant_zero_apply dot_S128x50_S50x100_S128x100_1_0_0_1_n_n none A B (ix2 n j)).trans ?_
  rw [← Equiv.sum_comp (contrEquiv1 dot_S128x50_S50x100_S128x100_1_0_0_1_n_n 50 rfl rfl).symm]
  refine Finset.sum_congr rfl fun k _ => ?_
  have hk := contrEquiv1_symm_val dot_S128x50_S50x100_S128x100_1_0_0_1_n_n 50 rfl rfl k
  have el : dot_S128x50_S50x100_S128x100_1_0_0_1_n_n.lhsIdx (ix2 n j) ((contrEquiv1 dot_S128x50_S50x100_S128x100_1_0_0_1_n_n 50 rfl rfl).symm k) = ix2 n k := funext fun a => Fin.ext (by
    match a with
    | ⟨0, _⟩ => exact lhsB_0 _ _
    | ⟨1, _⟩ => exact (lhsB_1 _ _).trans hk)
  have er : dot_S128x50_S50x100_S128x100_1_0_0_1_n_n.rhsIdx (ix2 n j) ((contrEquiv1 dot_S128x50_S50x100_S128x100_1_0_0_1_n_n 50 rfl rfl).symm k) = ix2 k j := funext fun a => Fin.ext (by
    match a with
    | ⟨0, _⟩ => exact (rhsB_0 _ _).trans hk
    | ⟨1, _⟩ => exact rhsB_1 _ _)
  rw [el, er]

/-! ### The product `[128, 50] × [50, 1]` -/

theorem lhsC_0 (i : S128x1.Idx) (q : dot_S128x50_S50x1_S128x1_1_0_0_1_n_n.contr.Idx) :
    (dot_S128x50_S50x1_S128x1_1_0_0_1_n_n.lhsIdx i q 0).val = (i 0).val := by
  unfold DotDims.lhsIdx
  rw [dif_neg (show ¬(0 : Fin S128x50.rank) ∈ dot_S128x50_S50x1_S128x1_1_0_0_1_n_n.lhsBatch by decide), dif_pos (show (0 : Fin S128x50.rank) ∈ dot_S128x50_S50x1_S128x1_1_0_0_1_n_n.lhsNonContracting by decide)]
  rfl
theorem lhsC_1 (i : S128x1.Idx) (q : dot_S128x50_S50x1_S128x1_1_0_0_1_n_n.contr.Idx) :
    (dot_S128x50_S50x1_S128x1_1_0_0_1_n_n.lhsIdx i q 1).val = (q ⟨0, by decide⟩).val :=
  dot_S128x50_S50x1_S128x1_1_0_0_1_n_n.lhsIdx_val_of_single rfl i q
theorem rhsC_0 (i : S128x1.Idx) (q : dot_S128x50_S50x1_S128x1_1_0_0_1_n_n.contr.Idx) :
    (dot_S128x50_S50x1_S128x1_1_0_0_1_n_n.rhsIdx i q 0).val = (q ⟨0, by decide⟩).val :=
  dot_S128x50_S50x1_S128x1_1_0_0_1_n_n.rhsIdx_val_of_single rfl i q
theorem rhsC_1 (i : S128x1.Idx) (q : dot_S128x50_S50x1_S128x1_1_0_0_1_n_n.contr.Idx) :
    (dot_S128x50_S50x1_S128x1_1_0_0_1_n_n.rhsIdx i q 1).val = (i 1).val := by
  unfold DotDims.rhsIdx
  rw [dif_neg (show ¬(1 : Fin S50x1.rank) ∈ dot_S128x50_S50x1_S128x1_1_0_0_1_n_n.rhsBatch by decide), dif_pos (show (1 : Fin S50x1.rank) ∈ dot_S128x50_S50x1_S128x1_1_0_0_1_n_n.rhsNonContracting by decide)]
  rfl

/-- Into the zero accumulator the product at `(n, j)` is the sum over the 50 contracted positions. -/
theorem mmC_apply (A : FVec Ideal S128x50 .f32) (B : FVec Ideal S50x1 .f32) (n : Fin 128) (j : Fin 1) :
    matmul (F := Ideal) dot_S128x50_S50x1_S128x1_1_0_0_1_n_n none A B (constant (F := Ideal) S128x1 .f32 0x00000000#32) (ix2 n j)
      = ∑ f : Fin 50, A (ix2 n f) * B (ix2 f j) := by
  refine (Ideal.matmul_constant_zero_apply dot_S128x50_S50x1_S128x1_1_0_0_1_n_n none A B (ix2 n j)).trans ?_
  rw [← Equiv.sum_comp (contrEquiv1 dot_S128x50_S50x1_S128x1_1_0_0_1_n_n 50 rfl rfl).symm]
  refine Finset.sum_congr rfl fun k _ => ?_
  have hk := contrEquiv1_symm_val dot_S128x50_S50x1_S128x1_1_0_0_1_n_n 50 rfl rfl k
  have el : dot_S128x50_S50x1_S128x1_1_0_0_1_n_n.lhsIdx (ix2 n j) ((contrEquiv1 dot_S128x50_S50x1_S128x1_1_0_0_1_n_n 50 rfl rfl).symm k) = ix2 n k := funext fun a => Fin.ext (by
    match a with
    | ⟨0, _⟩ => exact lhsC_0 _ _
    | ⟨1, _⟩ => exact (lhsC_1 _ _).trans hk)
  have er : dot_S128x50_S50x1_S128x1_1_0_0_1_n_n.rhsIdx (ix2 n j) ((contrEquiv1 dot_S128x50_S50x1_S128x1_1_0_0_1_n_n 50 rfl rfl).symm k) = ix2 k j := funext fun a => Fin.ext (by
    match a with
    | ⟨0, _⟩ => exact (rhsC_0 _ _).trans hk
    | ⟨1, _⟩ => exact rhsC_1 _ _)
  rw [el, er]

end PayA

open PayA

/-! ## The three values of a row -/

variable (x0 : Vec Ideal S128x10x50 .f32) (x1 : Vec Ideal S128x50 .f32) (x5 : Vec Ideal S100x50 .f32)
  (x6 : Vec Ideal S1x50 .f32) (x7 : Vec Ideal S50x100 .f32) (x8 : Vec Ideal S1x100 .f32) (x9 : Vec Ideal S50x1 .f32)
  (x10 : Vec Ideal S1x1 .f32)

/-- The hidden vector of row `r`. -/
theorem hid_apply (r : Fin 128) (j : Fin 50) :
    k0_pay3 (F := Ideal) x0 x1 x5 x6 (ix2 r j) = hid (W x5 x6 x7 x8 x9 x10) (ectx x0 r) (ecen x1 r) j := by
  unfold k0_pay3 hid
  -- the sum over the ten context positions
  refine (red_apply _ _ _ _ r j).trans ?_
  refine Finset.sum_congr rfl fun c _ => ?_
  -- the rectifier
  rw [maximumf_apply, broadcast_apply]
  refine congrArg₂ max ?_ Ideal.ofBits_zero_f32
  -- row (r, c) of the first layer's output is row 10 r + c of the product plus the bias
  refine (split_apply _ _ r c j).trans ?_
  rw [addf_apply]
  refine congrArg₂ (· + ·) ?_ ?_
  · -- the product: the joined row against the first layer's matrix
    refine (mmA_apply _ _ (flat r c) j).trans ?_
    refine Finset.sum_congr rfl fun f _ => ?_
    refine congrArg₂ (· * ·) ?_ rfl
    unfold cat
    by_cases hf : f.val < 50
    · -- a context column
      rw [dif_pos hf]
      refine (join_left _ _ _ (flat r c) f hf).trans ?_
      refine (merge_apply _ _ r c _).trans ?_
      exact congrFun (shapeCast_self x0 _) _
    · -- a centre column
      rw [dif_neg hf]
      refine (join_right _ _ _ (flat r c) f hf).trans ?_
      refine (merge_apply _ _ r c _).trans ?_
      refine (rep_apply _ _ r c _).trans ?_
      refine (congrFun (shapeCast_self _ _) _).trans ?_
      refine (unit_apply _ _ r 0 _).trans ?_
      exact congrFun (shapeCast_self x1 _) _
  · -- the bias row
    refine (broadcastTo_1b_ab_apply _ _ _ _).trans ?_
    exact congrFun (shapeCast_self x6 _) _

/-- The posterior mean of row `r`. -/
theorem mu_apply (r : Fin 128) (l : Fin 100) :
    k0_pay4 (F := Ideal) x0 x1 x5 x6 x7 x8 (ix2 r l)
      = muOf (W x5 x6 x7 x8 x9 x10) (hid (W x5 x6 x7 x8 x9 x10) (ectx x0 r) (ecen x1 r)) l := by
  unfold k0_pay4 muOf
  rw [addf_apply]
  refine congrArg₂ (· + ·) ?_ ?_
  · refine (mmB_apply _ _ r l).trans ?_
    refine Finset.sum_congr rfl fun j _ => ?_
    exact congrArg₂ (· * ·) (hid_apply x0 x1 x5 x6 x7 x8 x9 x10 r j) rfl
  · refine (broadcastTo_1b_ab_apply _ _ _ _).trans ?_
    exact congrFun (shapeCast_self x8 _) _

/-- The posterior log-deviation of row `r`. -/
theorem ls_apply (r : Fin 128) :
    k0_pay7 (F := Ideal) (k0_pay5 x0 x1 x5 x6 x9) (k0_pay6 x10) (ix2 r (0 : Fin 1))
      = lsOf (W x5 x6 x7 x8 x9 x10) (hid (W x5 x6 x7 x8 x9 x10) (ectx x0 r) (ecen x1 r)) := by
  unfold k0_pay7 k0_pay5 k0_pay6 lsOf
  rw [addf_apply]
  refine congrArg₂ (· + ·) ?_ ?_
  · refine (mmC_apply _ _ r 0).trans ?_
    refine Finset.sum_congr rfl fun j _ => ?_
    exact congrArg₂ (· * ·) (hid_apply x0 x1 x5 x6 x7 x8 x9 x10 r j) rfl
  · refine (broadcastTo_1b_ab_apply _ _ _ _).trans ?_
    exact congrFun (shapeCast_self x10 _) _

end Cert.KernelIdeal.Pay

end
-- ==== Proof.KernelPayB.lean ====
/-
  The second half of a grid point's arithmetic, read at an index over the extended reals, for ANY posterior mean
  `v31` and log-deviation parts `v32`, `v33`: the divergence against a context word's prior row, the same against a
  negative word's, and the last store's entry (0, 0) — the previous contents plus the block's hinges and centre terms.
-/
import proofs.«121254_j78829829751266_1_alg».proof.Proof.KernelPayDefs
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Bsg

/-! ## Single operations read at an index -/

section Ops
variable {α : Type}

/-- The exponential of a vector, entry by entry. -/
theorem exp_apply {s : Shape} {φ : FTy} (a : FVec Ideal s φ) (i : s.Idx) : exp a i = Ideal.exp (a i) := rfl

/-- The first 100 columns of a [128, 10, 101] block. -/
theorem slice3_mean (x : S128x10x101.Idx → α) (h : S128x10x101.Slices ![0, 0, 0] S128x10x100)
    (r : Fin 128) (c : Fin 10) (l : Fin 100) :
    extractStridedSlice S128x10x100 ![0, 0, 0] x h (ix3 r c l) = x (ix3 r c (Fin.castSucc l)) :=
  extractStridedSlice_apply _ x h _ _ fun a => match a with
    | ⟨0, _⟩ => (Nat.zero_add _).symm
    | ⟨1, _⟩ => (Nat.zero_add _).symm
    | ⟨2, _⟩ => (Nat.zero_add _).symm

/-- Column 100 of a [128, 10, 101] block. -/
theorem slice3_lvar (x : S128x10x101.Idx → α) (h : S128x10x101.Slices ![0, 0, 100] S128x10x1)
    (r : Fin 128) (c : Fin 10) (u : Fin 1) :
    extractStridedSlice S128x10x1 ![0, 0, 100] x h (ix3 r c u) = x (ix3 r c (Fin.last 100)) :=
  extractStridedSlice_apply _ x h _ _ fun a => match a with
    | ⟨0, _⟩ => (Nat.zero_add _).symm
    | ⟨1, _⟩ => (Nat.zero_add _).symm
    | ⟨2, _⟩ => by
      have hu : u.val = 0 := by omega
      show 100 = 100 + u.val
      rw [hu]

/-- The first 100 columns of a [128, 101] block. -/
theorem slice2_mean (x : S128x101.Idx → α) (h : S128x101.Slices ![0, 0] S128x100) (r : Fin 128) (l : Fin 100) :
    extractStridedSlice S128x100 ![0, 0] x h (ix2 r l) = x (ix2 r (Fin.castSucc l)) :=
  extractStridedSlice_apply _ x h _ _ fun a => match a with
    | ⟨0, _⟩ => (Nat.zero_add _).symm
    | ⟨1, _⟩ => (Nat.zero_add _).symm

/-- Column 100 of a [128, 101] block. -/
theorem slice2_lvar (x : S128x101.Idx → α) (h : S128x101.Slices ![0, 100] S128x1) (r : Fin 128) (u : Fin 1) :
    extractStridedSlice S128x1 ![0, 100] x h (ix2 r u) = x (ix2 r (Fin.last 100)) :=
  extractStridedSlice_apply _ x h _ _ fun a => match a with
    | ⟨0, _⟩ => (Nat.zero_add _).symm
    | ⟨1, _⟩ => by
      have hu : u.val = 0 := by omega
      show 100 = 100 + u.val
      rw [hu]

/-- [128, 10, 1] viewed [128, 10]. -/
theorem cast_drop_last (v : S128x10x1.Idx → α) (h : S128x10x1.ShapeCasts S128x10) (r : Fin 128) (c : Fin 10) :
    shapeCast S128x10 v h (ix2 r c) = v (ix3 r c (0 : Fin 1)) :=
  shapeCast_apply v h _ _ (by
    rw [Shape.rowMajor_val_three, Shape.rowMajor_val_two]
    show (r.val * 10 + c.val) * 1 + 0 = r.val * 10 + c.val
    omega)

/-- [128, 100] viewed [128, 1, 100]. -/
theorem cast_mid_unit (v : S128x100.Idx → α) (h : S128x100.ShapeCasts S128x1x100) (r : Fin 128) (u : Fin 1) (l : Fin 100) :
    shapeCast S128x1x100 v h (ix3 r u l) = v (ix2 r l) :=
  shapeCast_apply v h _ _ (by
    have hu : u.val = 0 := by omega
    rw [Shape.rowMajor_val_three, Shape.rowMajor_val_two]
    show r.val * 100 + l.val = (r.val * 1 + u.val) * 100 + l.val
    rw [hu]; omega)

/-- [128] viewed [128, 1]. -/
theorem cast_col (v : S128.Idx → α) (h : S128.ShapeCasts S128x1) (r : Fin 128) (u : Fin 1) :
    shapeCast S128x1 v h (ix2 r u) = v (ix1 r) :=
  shapeCast_apply v h _ _ (by
    have hu : u.val = 0 := by omega
    rw [Shape.rowMajor_val_two, Shape.rowMajor_val_one]
    show r.val = r.val * 1 + u.val
    rw [hu]; omega)

/-- [1] viewed [1, 1]. -/
theorem cast_one (v : S1.Idx → α) (h : S1.ShapeCasts S1x1) (u w : Fin 1) :
    shapeCast S1x1 v h (ix2 u w) = v (ix1 (0 : Fin 1)) :=
  shapeCast_apply v h _ _ (by
    have hu : u.val = 0 := by omega
    have hw : w.val = 0 := by omega
    rw [Shape.rowMajor_val_two, Shape.rowMajor_val_one]
    show 0 = u.val * 1 + w.val
    rw [hu, hw])

/-- A [128, 1, 100] array repeated over ten rows. -/
theorem bcast_rows (v : S128x1x100.Idx → α) (h : S128x1x100.Broadcasts S128x10x100) (r : Fin 128) (c : Fin 10) (l : Fin 100) :
    broadcastTo S128x10x100 v h (ix3 r c l) = v (ix3 r (0 : Fin 1) l) :=
  broadcastTo_apply v h _ _ fun a => match a with
    | ⟨0, _⟩ => rfl
    | ⟨1, _⟩ => rfl
    | ⟨2, _⟩ => rfl

/-- A [128, 1] column repeated over ten columns. -/
theorem bcast_cols (v : S128x1.Idx → α) (h : S128x1.Broadcasts S128x10) (r : Fin 128) (c : Fin 10) :
    broadcastTo S128x10 v h (ix2 r c) = v (ix2 r (0 : Fin 1)) :=
  broadcastTo_apply v h _ _ fun a => match a with
    | ⟨0, _⟩ => rfl
    | ⟨1, _⟩ => rfl

/-- The sum over the last axis of a [128, 10, 100] array. -/
theorem red_last3 (src : FVec Ideal S128x10x100 .f32) (h : S128x10x100.Reduces [2] S128x10) (hφ : FKind.Formats .f32)
    (hacc : @Eq (BitVec FTy.f32.bits) 0x00000000#32 0x00000000#32) (r : Fin 128) (c : Fin 10) :
    multiReduction (F := Ideal) .add [2] S128x10 src 0x00000000#32 h hφ hacc (ix2 r c) = ∑ l : Fin 100, src (ix3 r c l) := by
  refine (Ideal.multiReduction_add_single src 0x00000000#32 h hφ hacc (ix2 r c)).trans ?_
  refine Finset.sum_congr rfl fun l _ => congrArg src (funext fun a => Fin.ext ?_)
  match a with
  | ⟨0, _⟩ => rfl
  | ⟨1, _⟩ => rfl
  | ⟨2, _⟩ => rfl

/-- The sum over the columns of a [128, 100] array. -/
theorem red_cols100 (src : FVec Ideal S128x100 .f32) (h : S128x100.Reduces [1] S128) (hφ : FKind.Formats .f32)
    (hacc : @Eq (BitVec FTy.f32.bits) 0x00000000#32 0x00000000#32) (r : Fin 128) :
    multiReduction (F := Ideal) .add [1] S128 src 0x00000000#32 h hφ hacc (ix1 r) = ∑ l : Fin 100, src (ix2 r l) := by
  refine (Ideal.multiReduction_add_single src 0x00000000#32 h hφ hacc (ix1 r)).trans ?_
  refine Finset.sum_congr rfl fun l _ => congrArg src (funext fun a => Fin.ext ?_)
  match a with
  | ⟨0, _⟩ => rfl
  | ⟨1, _⟩ => rfl

/-- The sum over the columns of a [128, 10] array. -/
theorem red_cols10 (src : FVec Ideal S128x10 .f32) (h : S128x10.Reduces [1] S128) (hφ : FKind.Formats .f32)
    (hacc : @Eq (BitVec FTy.f32.bits) 0x00000000#32 0x00000000#32) (r : Fin 128) :
    multiReduction (F := Ideal) .add [1] S128 src 0x00000000#32 h hφ hacc (ix1 r) = ∑ c : Fin 10, src (ix2 r c) := by
  refine (Ideal.multiReduction_add_single src 0x00000000#32 h hφ hacc (ix1 r)).trans ?_
  refine Finset.sum_congr rfl fun l _ => congrArg src (funext fun a => Fin.ext ?_)
  match a with
  | ⟨0, _⟩ => rfl
  | ⟨1, _⟩ => rfl

/-- The sum over the rows of a [128, 1] column. -/
theorem red_rows (src : FVec Ideal S128x1 .f32) (h : S128x1.Reduces [0] S1) (hφ : FKind.Formats .f32)
    (hacc : @Eq (BitVec FTy.f32.bits) 0x00000000#32 0x00000000#32) (u : Fin 1) :
    multiReduction (F := Ideal) .add [0] S1 src 0x00000000#32 h hφ hacc (ix1 u) = ∑ r : Fin 128, src (ix2 r (0 : Fin 1)) := by
  have hu : u = 0 := Fin.ext (by omega)
  subst hu
  refine (Ideal.multiReduction_add_single src 0x00000000#32 h hφ hacc (ix1 (0 : Fin 1))).trans ?_
  refine Finset.sum_congr rfl fun l _ => congrArg src (funext fun a => Fin.ext ?_)
  match a with
  | ⟨0, _⟩ => rfl
  | ⟨1, _⟩ => rfl

end Ops

section Ops2
variable {α : Type}

/-- One row on top of seven: row 0 reads the one row. -/
theorem concat_rows_top (a : S1x128.Idx → α) (b : S7x128.Idx → α) (h : Shape.Concatenates [S1x128, S7x128] S8x128 0) (j : Fin 128) :
    concatenate S8x128 0 [⟨S1x128, a⟩, ⟨S7x128, b⟩] h (ix2 (0 : Fin 8) j) = a (ix2 (0 : Fin 1) j) :=
  concatenate_pair_apply_left _ a b h _ rfl _ fun c => match c with
    | ⟨0, _⟩ => rfl
    | ⟨1, _⟩ => rfl

/-- One column left of 127: column 0 reads the one column. -/
theorem concat_cols_left (a : S1x1.Idx → α) (b : S1x127.Idx → α) (h : Shape.Concatenates [S1x1, S1x127] S1x128 1) (u : Fin 1) :
    concatenate S1x128 1 [⟨S1x1, a⟩, ⟨S1x127, b⟩] h (ix2 u (0 : Fin 128)) = a (ix2 u (0 : Fin 1)) :=
  concatenate_pair_apply_left _ a b h _ rfl _ fun c => match c with
    | ⟨0, _⟩ => rfl
    | ⟨1, _⟩ => rfl

end Ops2

/-- A float literal at the extended reals is the number its word denotes. -/
theorem scalar_ofBits_eq (φ : FTy) (b : BitVec φ.bits) : Scalar.ofBits (F := Ideal) φ b = Ideal.ofBits φ b := rfl

variable (v31 : FVec Ideal S128x100 .f32) (v32 v33 : FVec Ideal S128x1 .f32)

/-- The divergence of row `r`'s posterior from the prior row of its context word `c`. -/
theorem klctx_apply (x2 : Vec Ideal S128x10x101 .f32) (r : Fin 128) (c : Fin 10) :
    k0_pay13 (F := Ideal) v31 v32 v33 x2 (ix2 r c)
      = klOf (fun l => v31 (ix2 r l)) (k0_pay7 (F := Ideal) v32 v33 (ix2 r (0 : Fin 1))) (mean3 x2 r c) (lvar3 x2 r c) := by
  unfold k0_pay13 klOf mean3 lvar3
  simp (config := {index := false}) only [mulf_apply, subf_apply, addf_apply, divf_apply, exp_apply, broadcast_apply,
    shapeCast_self, cast_drop_last, slice3_lvar, slice3_mean, bcast_cols, bcast_rows, cast_mid_unit, red_last3,
    scalar_ofBits_eq]

/-- The two parts the body keeps of the negative word's divergence: `(e^ls / e^lv + |mu - mean|² / e^lv) + (lv - ls)`. -/
theorem klneg_parts_apply (x3 : Vec Ideal S128x10x101 .f32) (r : Fin 128) (c : Fin 10) :
    cHalf * ((k0_pay16 (F := Ideal) v31 v32 v33 x3 (ix2 r c) + k0_pay15 (F := Ideal) v32 v33 x3 (ix2 r c)) - cHundred)
      = klOf (fun l => v31 (ix2 r l)) (k0_pay7 (F := Ideal) v32 v33 (ix2 r (0 : Fin 1))) (mean3 x3 r c) (lvar3 x3 r c) := by
  unfold k0_pay16 k0_pay15 k0_pay14 k0_pay10 k0_pay8 klOf mean3 lvar3
  simp (config := {index := false}) only [mulf_apply, subf_apply, addf_apply, divf_apply, exp_apply, broadcast_apply,
    shapeCast_self, cast_drop_last, slice3_lvar, slice3_mean, bcast_cols, bcast_rows, cast_mid_unit, red_last3]

/-- The last store at entry (0, 0): the previous contents plus the sum over the block's rows of the ten hinges
    and plus the sum over the rows of the centre terms. -/
theorem pay1_apply00 (v34 : FVec Ideal S128x1 .f32) (v47 : FVec Ideal S128x100 .f32) (v48 : FVec Ideal S128x1 .f32)
    (v67 v80 v81 : FVec Ideal S128x10 .f32) (acc : Vec Ideal S8x128 .f32) :
    k0_pay1 (F := Ideal) v31 v34 v47 v48 v67 v80 v81 acc (ix2 (0 : Fin 8) (0 : Fin 128))
      = acc (ix2 (0 : Fin 8) (0 : Fin 128))
        + ((∑ r : Fin 128, ∑ c : Fin 10,
              hingeOf (v67 (ix2 r c)) (cHalf * ((v81 (ix2 r c) + v80 (ix2 r c)) - cHundred)))
          + ∑ r : Fin 128, klOf (fun l => v31 (ix2 r l)) (v34 (ix2 r (0 : Fin 1))) (fun l => v47 (ix2 r l))
              (v48 (ix2 r (0 : Fin 1)))) := by
  unfold k0_pay1 klOf hingeOf
  simp (config := {index := false}) only [mulf_apply, subf_apply, addf_apply, divf_apply, maximumf_apply, exp_apply,
    broadcast_apply, shapeCast_self, concat_rows_top, concat_cols_left, cast_one, cast_col, red_rows, red_cols10,
    red_cols100, scalar_ofBits_eq, Ideal.ofBits_zero_f32]

/-- The centre word's prior row as the body slices it off its [128, 101] block. -/
theorem cen_rows_apply (x4 : Vec Ideal S128x101 .f32) (r : Fin 128) :
    (fun l => k0_pay11 (F := Ideal) x4 (ix2 r l)) = mean2 x4 r ∧ k0_pay12 (F := Ideal) x4 (ix2 r (0 : Fin 1)) = lvar2 x4 r := by
  unfold k0_pay11 k0_pay12 k0_pay9 mean2 lvar2
  constructor <;> simp only [shapeCast_self, slice2_mean, slice2_lvar]

end Cert.KernelIdeal.Pay

end
-- ==== Proof.KernelPay.lean ====
/-
  A grid point's result at entry (0, 0): the previous contents plus the block's loss (the two halves joined).
-/
import proofs.«121254_j78829829751266_1_alg».proof.Proof.KernelPayA
import proofs.«121254_j78829829751266_1_alg».proof.Proof.KernelPayB

noncomputable section

open scoped BigOperators

namespace Cert.KernelIdeal.Pay

open Cert.KernelIdeal Cert.KernelIdeal.Gen Idealize.ShloMosaic Idealize.ShloMosaic.ValueIdx Cert.Bsg

theorem blockTerm_apply00 (x0 : Vec Ideal S128x10x50 .f32) (x1 : Vec Ideal S128x50 .f32) (x2 x3 : Vec Ideal S128x10x101 .f32)
    (x4 : Vec Ideal S128x101 .f32) (x5 : Vec Ideal S100x50 .f32) (x6 : Vec Ideal S1x50 .f32) (x7 : Vec Ideal S50x100 .f32)
    (x8 : Vec Ideal S1x100 .f32) (x9 : Vec Ideal S50x1 .f32) (x10 : Vec Ideal S1x1 .f32) (acc : Vec Ideal S8x128 .f32) :
    blockTerm (F := Ideal) x0 x1 x2 x3 x4 x5 x6 x7 x8 x9 x10 acc (ix2 (0 : Fin 8) (0 : Fin 128))
      = acc (ix2 (0 : Fin 8) (0 : Fin 128)) + blockLoss x0 x1 x2 x3 x4 x5 x6 x7 x8 x9 x10 := by
  -- the posterior mean and log-deviation of each row, as the first half gives them
  have hmu : ∀ r : Fin 128, (fun l => k0_pay4 (F := Ideal) x0 x1 x5 x6 x7 x8 (ix2 r l))
      = muOf (W x5 x6 x7 x8 x9 x10) (hid (W x5 x6 x7 x8 x9 x10) (ectx x0 r) (ecen x1 r)) :=
    fun r => funext fun l => mu_apply x0 x1 x5 x6 x7 x8 x9 x10 r l
  have hls : ∀ r : Fin 128, k0_pay7 (F := Ideal) (k0_pay5 x0 x1 x5 x6 x9) (k0_pay6 x10) (ix2 r (0 : Fin 1))
      = lsOf (W x5 x6 x7 x8 x9 x10) (hid (W x5 x6 x7 x8 x9 x10) (ectx x0 r) (ecen x1 r)) :=
    fun r => ls_apply x0 x1 x5 x6 x7 x8 x9 x10 r
  unfold blockTerm blockLoss
  refine (pay1_apply00 _ _ _ _ _ _ _ _).trans ?_
  congr 2
  · refine Finset.sum_congr rfl fun r _ => Finset.sum_congr rfl fun c _ => ?_
    unfold exHinge
    rw [klctx_apply, klneg_parts_apply, hmu r, hls r]
  · refine Finset.sum_congr rfl fun r _ => ?_
    unfold exKlc
    rw [hmu r, hls r, (cen_rows_apply x4 r).1, (cen_rows_apply x4 r).2]

end Cert.KernelIdeal.Pay

end
-- ==== Proof.LibRowGather.lean ====
/-
  A row gather read at an index. `table[idx]` of a rank-2 table `[N, w]` at an integer array of row numbers lowers to a
  `stablehlo.gather` that collapses axis 0, takes whole rows (slice sizes `[1, w]`) and reads the row number off a
  trailing unit axis of the start indices. Its element at (batch position, column `j`) is the table at
  (the row number read signed and clamped into `[0, N - 1]`, `j`): StableHlo's gather clamps every start index, so
  the reading is total. Stated for start indices of shape `[R, C, 1]` (result `[R, C, w]`) and `[R, 1]`
  (result `[R, w]`).
-/
import Idealize.ShloMosaic.Lib.ValueIdx

noncomputable section

namespace Cert.RowGather

open Idealize.ShloMosaic Idealize.ShloMosaic.ValueIdx

variable {α : Type}

/-- An axis of a rank-2 operand is axis 0 or axis 1. -/
theorem axis2_cases {s : Shape} (hs : s.rank = 2) (a : Fin s.rank) :
    a = ⟨0, by omega⟩ ∨ a = ⟨1, by omega⟩ := by
  rcases a with ⟨v, hv⟩
  have h2 : v < 2 := by omega
  interval_cases v
  · exact Or.inl rfl
  · exact Or.inr rfl

/-- The row number a start-index word denotes in a table of `N` rows: read signed, clamped into `[0, N - 1]`. -/
def rowOf (N : Nat) (hN : 0 < N) {bw : Nat} (x : BitVec bw) : Fin N := ⟨min x.toInt.toNat (N - 1), by omega⟩

/-- The dimension numbers of a row gather at start indices `[R, C, 1]`. -/
abbrev rowDims3 (N w R C : Nat)
    (wf : GatherDims.WF ⟨2, ![N, w]⟩ ⟨3, ![R, C, 1]⟩ ⟨3, ![R, C, w]⟩ [2] [0] [] [0] [] 2 ![1, w]) :
    GatherDims ⟨2, ![N, w]⟩ ⟨3, ![R, C, 1]⟩ ⟨3, ![R, C, w]⟩ where
  offsetDims := [2]
  collapsedSliceDims := [0]
  operandBatchingDims := []
  startIndicesBatchingDims := []
  startIndexMap := [0]
  indexVectorDim := 2
  sliceSizes := ![1, w]
  wf := wf

/-- The dimension numbers of a row gather at start indices `[R, 1]`. -/
abbrev rowDims2 (N w R : Nat)
    (wf : GatherDims.WF ⟨2, ![N, w]⟩ ⟨2, ![R, 1]⟩ ⟨2, ![R, w]⟩ [1] [0] [] [0] [] 1 ![1, w]) :
    GatherDims ⟨2, ![N, w]⟩ ⟨2, ![R, 1]⟩ ⟨2, ![R, w]⟩ where
  offsetDims := [1]
  collapsedSliceDims := [0]
  operandBatchingDims := []
  startIndicesBatchingDims := []
  startIndexMap := [0]
  indexVectorDim := 1
  sliceSizes := ![1, w]
  wf := wf

/-- THE ROW GATHER AT `(r, c, j)`: row `rowOf (idx[r, c, 0])` of the table, column `j`. -/
theorem gather_rows3_apply {N w R C bw : Nat} (hN : 0 < N)
    (wf : GatherDims.WF ⟨2, ![N, w]⟩ ⟨3, ![R, C, 1]⟩ ⟨3, ![R, C, w]⟩ [2] [0] [] [0] [] 2 ![1, w])
    (x : (⟨2, ![N, w]⟩ : Shape).Idx → α) (idx : IVec ⟨3, ![R, C, 1]⟩ bw) (r : Fin R) (c : Fin C) (j : Fin w) :
    Host.gather (rowDims3 N w R C wf) x idx (ix3 r c j) = x (ix2 (rowOf N hN (idx (ix3 r c (0 : Fin 1)))) j) := by
  unfold Host.gather
  congr 1
  funext a
  refine Fin.ext ?_
  show (rowDims3 N w R C wf).start (ix3 r c j) idx a + (rowDims3 N w R C wf).batchCoord (ix3 r c j) a
    + (rowDims3 N w R C wf).offCoord (ix3 r c j) a = _
  rw [GatherDims.batchCoord_eq_zero _ _ _ List.not_mem_nil]
  have hsi : ∀ k : Fin (rowDims3 N w R C wf).startIndexMap.length,
      (rowDims3 N w R C wf).siIdx (ix3 r c j) k = ix3 r c (0 : Fin 1) := by
    intro k
    have hk : k.val = 0 := by have := k.isLt; simp only [List.length_cons, List.length_nil] at this; omega
    funext b; refine Fin.ext ?_
    match b with
    | ⟨0, _⟩ => rfl
    | ⟨1, _⟩ => rfl
    | ⟨2, _⟩ => exact hk
  rcases axis2_cases (s := ⟨2, ![N, w]⟩) rfl a with rfl | rfl
  · rw [GatherDims.offCoord_eq_zero _ _ _ (fun h => ((GatherDims.mem_sKept _ _).mp h).1 (List.mem_singleton.mpr rfl))]
    simp only [Nat.add_zero]
    unfold GatherDims.start
    split
    · rw [hsi]; rfl
    · rename_i hn; exact absurd (List.mem_singleton.mpr rfl) hn
  · unfold GatherDims.start
    split
    · rename_i ha; exact absurd (congrArg Fin.val (List.mem_singleton.mp ha)) Nat.one_ne_zero
    · simp only [Nat.zero_add]; rfl

/-- THE ROW GATHER AT `(r, j)`: row `rowOf (idx[r, 0])` of the table, column `j`. -/
theorem gather_rows2_apply {N w R bw : Nat} (hN : 0 < N)
    (wf : GatherDims.WF ⟨2, ![N, w]⟩ ⟨2, ![R, 1]⟩ ⟨2, ![R, w]⟩ [1] [0] [] [0] [] 1 ![1, w])
    (x : (⟨2, ![N, w]⟩ : Shape).Idx → α) (idx : IVec ⟨2, ![R, 1]⟩ bw) (r : Fin R) (j : Fin w) :
    Host.gather (rowDims2 N w R wf) x idx (ix2 r j) = x (ix2 (rowOf N hN (idx (ix2 r (0 : Fin 1)))) j) := by
  unfold Host.gather
  congr 1
  funext a
  refine Fin.ext ?_
  show (rowDims2 N w R wf).start (ix2 r j) idx a + (rowDims2 N w R wf).batchCoord (ix2 r j) a
    + (rowDims2 N w R wf).offCoord (ix2 r j) a = _
  rw [GatherDims.batchCoord_eq_zero _ _ _ List.not_mem_nil]
  have hsi : ∀ k : Fin (rowDims2 N w R wf).startIndexMap.length,
      (rowDims2 N w R wf).siIdx (ix2 r j) k = ix2 r (0 : Fin 1) := by
    intro k
    have hk : k.val = 0 := by have := k.isLt; simp only [List.length_cons, List.length_nil] at this; omega
    funext b; refine Fin.ext ?_
    match b with
    | ⟨0, _⟩ => rfl
    | ⟨1, _⟩ => exact hk
  rcases axis2_cases (s := ⟨2, ![N, w]⟩) rfl a with rfl | rfl
  · rw [GatherDims.offCoord_eq_zero _ _ _ (fun h => ((GatherDims.mem_sKept _ _).mp h).1 (List.mem_singleton.mpr rfl))]
    simp only [Nat.add_zero]
    unfold GatherDims.start
    split
    · rw [hsi]; rfl
    · rename_i hn; exact absurd (List.mem_singleton.mpr rfl) hn
  · unfold GatherDims.start
    split
    · rename_i ha; exact absurd (congrArg Fin.val (List.mem_singleton.mp ha)) Nat.one_ne_zero
    · simp only [Nat.zero_add]; rfl

end Cert.RowGather

end
-- ==== Proof.Rows.lean ====
/-
  Each example's gathered rows, read off the argument arrays, and the loss both programs compute.

  An index word selects a table row the way jnp indexing lowers it: a negative word is wrapped by the table's
  length (50000), and the gather then clamps the result into `[0, 49999]` (`rowIx`). Example `b`'s context rows are
  read at the words `contexts[b, c]`, its negative rows at `neg_contexts[b, c]`, its centre row at `centers[b]`:
  from the embedding table (50 numbers a row), from the table of prior means (100 numbers a row) and from the table
  of prior log-variances (one number a row). `Args.loss` is the mean over the 65536 examples of the hinge and centre
  terms of Spec.lean at these rows.
-/
import proofs.«121254_j78829829751266_1_alg».proof.Proof.Spec
import proofs.«121254_j78829829751266_1_alg».proof.Proof.LibRowGather

noncomputable section

open scoped BigOperators

namespace Cert.Bsg

open Idealize.ShloMosaic Idealize.ShloMosaic.ValueIdx

/-- jnp's wrap of a negative index word by the table's length. -/
def wrap (w : BitVec 32) : BitVec 32 := Scalar.select (IntOp.cmpi .slt w 0#32) (IntOp.addi w 50000#32) w

/-- The table row an index word selects: wrapped, then clamped into `[0, 49999]`. -/
def rowIx (w : BitVec 32) : Fin 50000 := Cert.RowGather.rowOf 50000 (by decide) (wrap w)

/-- The twelve argument arrays, as extended reals and index words. -/
structure Args where
  emb : (⟨2, ![50000, 50]⟩ : Shape).Idx → EReal
  W1 : (⟨2, ![100, 50]⟩ : Shape).Idx → EReal
  b1 : (⟨1, ![50]⟩ : Shape).Idx → EReal
  Wmu : (⟨2, ![50, 100]⟩ : Shape).Idx → EReal
  bmu : (⟨1, ![100]⟩ : Shape).Idx → EReal
  Wls : (⟨2, ![50, 1]⟩ : Shape).Idx → EReal
  bls : (⟨1, ![1]⟩ : Shape).Idx → EReal
  tm : (⟨2, ![50000, 100]⟩ : Shape).Idx → EReal
  tl : (⟨2, ![50000, 1]⟩ : Shape).Idx → EReal
  cen : (⟨1, ![65536]⟩ : Shape).Idx → BitVec 32
  ctx : (⟨2, ![65536, 10]⟩ : Shape).Idx → BitVec 32
  neg : (⟨2, ![65536, 10]⟩ : Shape).Idx → BitVec 32

namespace Args

variable (A : Args)

/-- The three layers' weights by coordinates. -/
def weights : Weights where
  W1 f j := A.W1 (ix2 f j)
  b1 j := A.b1 (ix1 j)
  Wmu j l := A.Wmu (ix2 j l)
  bmu l := A.bmu (ix1 l)
  Wls j := A.Wls (ix2 j (0 : Fin 1))
  bls := A.bls (ix1 (0 : Fin 1))

/-- Example `b`'s context embedding rows, centre embedding row, and the prior rows of its context, negative and centre words. -/
def ectx (b : Fin 65536) (c : Fin 10) (f : Fin 50) : EReal := A.emb (ix2 (rowIx (A.ctx (ix2 b c))) f)
def ecen (b : Fin 65536) (f : Fin 50) : EReal := A.emb (ix2 (rowIx (A.cen (ix1 b))) f)
def mctx (b : Fin 65536) (c : Fin 10) (l : Fin 100) : EReal := A.tm (ix2 (rowIx (A.ctx (ix2 b c))) l)
def lctx (b : Fin 65536) (c : Fin 10) : EReal := A.tl (ix2 (rowIx (A.ctx (ix2 b c))) (0 : Fin 1))
def mneg (b : Fin 65536) (c : Fin 10) (l : Fin 100) : EReal := A.tm (ix2 (rowIx (A.neg (ix2 b c))) l)
def lneg (b : Fin 65536) (c : Fin 10) : EReal := A.tl (ix2 (rowIx (A.neg (ix2 b c))) (0 : Fin 1))
def mcen (b : Fin 65536) (l : Fin 100) : EReal := A.tm (ix2 (rowIx (A.cen (ix1 b))) l)
def lcen (b : Fin 65536) : EReal := A.tl (ix2 (rowIx (A.cen (ix1 b))) (0 : Fin 1))

/-- Example `b`'s hidden vector, posterior mean and posterior log-deviation. -/
def h (b : Fin 65536) : Fin 50 → EReal := hid A.weights (A.ectx b) (A.ecen b)
def mu (b : Fin 65536) : Fin 100 → EReal := muOf A.weights (A.h b)
def ls (b : Fin 65536) : EReal := lsOf A.weights (A.h b)

/-- Example `b`'s hinge at context position `c`, and its centre term. -/
def H (b : Fin 65536) (c : Fin 10) : EReal :=
  exHinge A.weights (A.ectx b) (A.ecen b) (A.mctx b) (A.lctx b) (A.mneg b) (A.lneg b) c
def K (b : Fin 65536) : EReal := exKlc A.weights (A.ectx b) (A.ecen b) (A.mcen b) (A.lcen b)

theorem H_eq (b : Fin 65536) (c : Fin 10) :
    A.H b c = hingeOf (klOf (A.mu b) (A.ls b) (A.mctx b c) (A.lctx b c)) (klOf (A.mu b) (A.ls b) (A.mneg b c) (A.lneg b c)) := rfl
theorem K_eq (b : Fin 65536) : A.K b = klOf (A.mu b) (A.ls b) (A.mcen b) (A.lcen b) := rfl

/-- The sum of all hinges plus the sum of all centre terms. -/
def total : EReal := (∑ n : Fin 655360, A.H (flatRow n) (flatCol n)) + ∑ b : Fin 65536, A.K b

/-- The loss: the total over the batch size 65536 (the float literal both programs divide by). -/
def loss : EReal := Ideal.div A.total (Ideal.ofBits .f32 0x47800000#32)

/-- The total, block by block. -/
theorem total_blocks :
    ∑ t : Fin 512, ((∑ r : Fin 128, ∑ c : Fin 10, A.H (blkRow t r) c) + ∑ r : Fin 128, A.K (blkRow t r)) = A.total :=
  total_eq A.H A.K

end Args

end Cert.Bsg

end
-- ==== Proof.KernelRows.lean ====
/-
  The blocks a grid point sees are the examples' gathered rows. Grid point `t` stages rows `128 t … 128 t + 127` of
  the five gathered arrays the host lines before the region compute (the embedding rows of the context words and
  of the centre word; the rows of the joined prior table — 100 means then the log-variance — of the context,
  negative and centre words) and the six weight arrays whole. Read at an index, each staged row is the row of
  Rows.lean for example `128 t + r`; so the point's loss is the sum of those examples' hinges and centre terms.

  Two steps for every window. A block is a window of its array: its entry `(r, …)` is the array's entry at
  (block index × block extent + r, …), and the block indices are decided once over the 512 grid points: the first
  is the point itself for the five gathered arrays, every other one is zero. An array is the host lines' term of
  the arguments: a row gather reads row `rowIx word` of its table, where the word has gone through the wrap of a
  negative index; the joined prior table reads the table of means in its first 100 columns and the table of
  log-variances in its last; a bias reshaped to one row reads the bias.
-/
import proofs.«121254_j78829829751266_1_alg».proof.Proof.Gen.KernelIdeal.Frame
import proofs.«121254_j78829829751266_1_alg».proof.Proof.KernelPayDefs
import proofs.«121254_j78829829751266_1_alg».proof.Proof.Rows
import Idealize.ShloMosaic.Lib.Pipeline.Value
import Idealize.ShloMosaic.Lib.ValueLayout
import Idealize.ShloMosaic.Lib.StableHlo.Run

noncomputable section

open scoped BigOperators

namespace Cert.KernelIdeal.Rows

open Cert.KernelIdeal Cert.KernelIdeal.Gen Cert.KernelIdeal.Pay Cert.Bsg Idealize.ShloMosaic Idealize.ShloMosaic.TcCoe
  Idealize.ShloMosaic.ValueIdx Idealize.SL.Sem

variable (m : (ℓ : Loc nD τ sig) → Buf (Elt Ideal) ℓ)

/-- The argument arrays of core `c` as launched. -/
def argsOf (c : Dev nD) : Args where
  emb := m ((c.tc : Thread nD τ).loc main_arg0)
  W1 := m ((c.tc : Thread nD τ).loc main_arg1)
  b1 := m ((c.tc : Thread nD τ).loc main_arg2)
  Wmu := m ((c.tc : Thread nD τ).loc main_arg3)
  bmu := m ((c.tc : Thread nD τ).loc main_arg4)
  Wls := m ((c.tc : Thread nD τ).loc main_arg5)
  bls := m ((c.tc : Thread nD τ).loc main_arg6)
  tm := m ((c.tc : Thread nD τ).loc main_arg7)
  tl := m ((c.tc : Thread nD τ).loc main_arg8)
  cen := m ((c.tc : Thread nD τ).loc main_arg9)
  ctx := m ((c.tc : Thread nD τ).loc main_arg10)
  neg := m ((c.tc : Thread nD τ).loc main_arg11)

theorem N512 : cfg0.N = 512 := N_0

/-- Grid point `t`'s loss: `blockLoss` of the blocks it stages. -/
def Lblk (c : Dev nD) (t : Fin cfg0.N) : EReal :=
  blockLoss (iblk m c 0 t) (iblk m c 1 t) (iblk m c 2 t) (iblk m c 3 t) (iblk m c 4 t) (iblk m c 5 t) (iblk m c 6 t)
    (iblk m c 7 t) (iblk m c 8 t) (iblk m c 9 t) (iblk m c 10 t)

/-! ## Where each window's block sits

The block indices, decided over the grid: the five gathered arrays are cut into 512 blocks of 128 rows along their
first axis and point `t` sees block `t`; the six weight arrays are one block each. -/

theorem idx0 : ∀ t : Fin cfg0.N, win0_0.index t (0 : Fin 3) = t.val ∧ win0_0.index t 1 = 0 ∧ win0_0.index t 2 = 0 :=
  (by decide +kernel : ∀ t : Fin grid0.N, win0_0.index t (0 : Fin 3) = t.val ∧ win0_0.index t 1 = 0 ∧ win0_0.index t 2 = 0)
theorem idx1 : ∀ t : Fin cfg0.N, win0_1.index t (0 : Fin 2) = t.val ∧ win0_1.index t 1 = 0 :=
  (by decide +kernel : ∀ t : Fin grid0.N, win0_1.index t (0 : Fin 2) = t.val ∧ win0_1.index t 1 = 0)
theorem idx2 : ∀ t : Fin cfg0.N, win0_2.index t (0 : Fin 3) = t.val ∧ win0_2.index t 1 = 0 ∧ win0_2.index t 2 = 0 :=
  (by decide +kernel : ∀ t : Fin grid0.N, win0_2.index t (0 : Fin 3) = t.val ∧ win0_2.index t 1 = 0 ∧ win0_2.index t 2 = 0)
theorem idx3 : ∀ t : Fin cfg0.N, win0_3.index t (0 : Fin 3) = t.val ∧ win0_3.index t 1 = 0 ∧ win0_3.index t 2 = 0 :=
  (by decide +kernel : ∀ t : Fin grid0.N, win0_3.index t (0 : Fin 3) = t.val ∧ win0_3.index t 1 = 0 ∧ win0_3.index t 2 = 0)
theorem idx4 : ∀ t : Fin cfg0.N, win0_4.index t (0 : Fin 2) = t.val ∧ win0_4.index t 1 = 0 :=
  (by decide +kernel : ∀ t : Fin grid0.N, win0_4.index t (0 : Fin 2) = t.val ∧ win0_4.index t 1 = 0)
theorem idx5 : ∀ t : Fin cfg0.N, win0_5.index t (0 : Fin 2) = 0 ∧ win0_5.index t 1 = 0 :=
  (by decide +kernel : ∀ t : Fin grid0.N, win0_5.index t (0 : Fin 2) = 0 ∧ win0_5.index t 1 = 0)
theorem idx6 : ∀ t : Fin cfg0.N, win0_6.index t (0 : Fin 2) = 0 ∧ win0_6.index t 1 = 0 :=
  (by decide +kernel : ∀ t : Fin grid0.N, win0_6.index t (0 : Fin 2) = 0 ∧ win0_6.index t 1 = 0)
theorem idx7 : ∀ t : Fin cfg0.N, win0_7.index t (0 : Fin 2) = 0 ∧ win0_7.index t 1 = 0 :=
  (by decide +kernel : ∀ t : Fin grid0.N, win0_7.index t (0 : Fin 2) = 0 ∧ win0_7.index t 1 = 0)
theorem idx8 : ∀ t : Fin cfg0.N, win0_8.index t (0 : Fin 2) = 0 ∧ win0_8.index t 1 = 0 :=
  (by decide +kernel : ∀ t : Fin grid0.N, win0_8.index t (0 : Fin 2) = 0 ∧ win0_8.index t 1 = 0)
theorem idx9 : ∀ t : Fin cfg0.N, win0_9.index t (0 : Fin 2) = 0 ∧ win0_9.index t 1 = 0 :=
  (by decide +kernel : ∀ t : Fin grid0.N, win0_9.index t (0 : Fin 2) = 0 ∧ win0_9.index t 1 = 0)
theorem idx10 : ∀ t : Fin cfg0.N, win0_10.index t (0 : Fin 2) = 0 ∧ win0_10.index t 1 = 0 :=
  (by decide +kernel : ∀ t : Fin grid0.N, win0_10.index t (0 : Fin 2) = 0 ∧ win0_10.index t 1 = 0)

/-! ## A block's entry is the array's

Entry `(r, …)` of point `t`'s block is the array's entry at (block index × block extent + `r`, …): at row
`128 t + r` for the gathered arrays, at the same place for the weights. -/

theorem blk0_apply (c : Dev nD) (t : Fin cfg0.N) (r : Fin 128) (cc : Fin 10) (f : Fin 50) :
    (iblk m c 0 t : Vec Ideal S128x10x50 .f32) (ix3 r cc f)
      = (V m c main_v7 : S65536x10x50.Idx → EReal) (ix3 (blkRow (t.cast N512) r) cc f) := by
  unfold iblk
  rw [View.read_apply]
  show V m c main_v7 _ = _
  congr 1
  funext a
  apply Fin.ext
  match a with
  | ⟨0, _⟩ => show win0_0.index t 0 * 128 + 1 * r.val = t.val * 128 + r.val; rw [(idx0 t).1]; omega
  | ⟨1, _⟩ => show win0_0.index t 1 * 10 + 1 * cc.val = cc.val; rw [(idx0 t).2.1]; omega
  | ⟨2, _⟩ => show win0_0.index t 2 * 50 + 1 * f.val = f.val; rw [(idx0 t).2.2]; omega

theorem blk1_apply (c : Dev nD) (t : Fin cfg0.N) (r : Fin 128) (f : Fin 50) :
    (iblk m c 1 t : Vec Ideal S128x50 .f32) (ix2 r f)
      = (V m c main_v14 : S65536x50.Idx → EReal) (ix2 (blkRow (t.cast N512) r) f) := by
  unfold iblk
  rw [View.read_apply]
  show V m c main_v14 _ = _
  congr 1
  funext a
  apply Fin.ext
  match a with
  | ⟨0, _⟩ => show win0_1.index t 0 * 128 + 1 * r.val = t.val * 128 + r.val; rw [(idx1 t).1]; omega
  | ⟨1, _⟩ => show win0_1.index t 1 * 50 + 1 * f.val = f.val; rw [(idx1 t).2]; omega

theorem blk2_apply (c : Dev nD) (t : Fin cfg0.N) (r : Fin 128) (cc : Fin 10) (j : Fin 101) :
    (iblk m c 2 t : Vec Ideal S128x10x101 .f32) (ix3 r cc j)
      = (V m c main_v21 : S65536x10x101.Idx → EReal) (ix3 (blkRow (t.cast N512) r) cc j) := by
  unfold iblk
  rw [View.read_apply]
  show V m c main_v21 _ = _
  congr 1
  funext a
  apply Fin.ext
  match a with
  | ⟨0, _⟩ => show win0_2.index t 0 * 128 + 1 * r.val = t.val * 128 + r.val; rw [(idx2 t).1]; omega
  | ⟨1, _⟩ => show win0_2.index t 1 * 10 + 1 * cc.val = cc.val; rw [(idx2 t).2.1]; omega
  | ⟨2, _⟩ => show win0_2.index t 2 * 101 + 1 * j.val = j.val; rw [(idx2 t).2.2]; omega

theorem blk3_apply (c : Dev nD) (t : Fin cfg0.N) (r : Fin 128) (cc : Fin 10) (j : Fin 101) :
    (iblk m c 3 t : Vec Ideal S128x10x101 .f32) (ix3 r cc j)
      = (V m c main_v28 : S65536x10x101.Idx → EReal) (ix3 (blkRow (t.cast N512) r) cc j) := by
  unfold iblk
  rw [View.read_apply]
  show V m c main_v28 _ = _
  congr 1
  funext a
  apply Fin.ext
  match a with
  | ⟨0, _⟩ => show win0_3.index t 0 * 128 + 1 * r.val = t.val * 128 + r.val; rw [(idx3 t).1]; omega
  | ⟨1, _⟩ => show win0_3.index t 1 * 10 + 1 * cc.val = cc.val; rw [(idx3 t).2.1]; omega
  | ⟨2, _⟩ => show win0_3.index t 2 * 101 + 1 * j.val = j.val; rw [(idx3 t).2.2]; omega

theorem blk4_apply (c : Dev nD) (t : Fin cfg0.N) (r : Fin 128) (j : Fin 101) :
    (iblk m c 4 t : Vec Ideal S128x101 .f32) (ix2 r j)
      = (V m c main_v35 : S65536x101.Idx → EReal) (ix2 (blkRow (t.cast N512) r) j) := by
  unfold iblk
  rw [View.read_apply]
  show V m c main_v35 _ = _
  congr 1
  funext a
  apply Fin.ext
  match a with
  | ⟨0, _⟩ => show win0_4.index t 0 * 128 + 1 * r.val = t.val * 128 + r.val; rw [(idx4 t).1]; omega
  | ⟨1, _⟩ => show win0_4.index t 1 * 101 + 1 * j.val = j.val; rw [(idx4 t).2]; omega

theorem blk5_apply (c : Dev nD) (t : Fin cfg0.N) (p : Fin 100) (q : Fin 50) :
    (iblk m c 5 t : Vec Ideal S100x50 .f32) (ix2 p q)
      = (V m c main_arg1 : S100x50.Idx → EReal) (ix2 p q) := by
  unfold iblk
  rw [View.read_apply]
  show V m c main_arg1 _ = _
  congr 1
  funext a
  apply Fin.ext
  match a with
  | ⟨0, _⟩ => show win0_5.index t 0 * 100 + 1 * p.val = p.val; rw [(idx5 t).1]; omega
  | ⟨1, _⟩ => show win0_5.index t 1 * 50 + 1 * q.val = q.val; rw [(idx5 t).2]; omega

theorem blk6_apply (c : Dev nD) (t : Fin cfg0.N) (p : Fin 1) (q : Fin 50) :
    (iblk m c 6 t : Vec Ideal S1x50 .f32) (ix2 p q)
      = (V m c main_v36 : S1x50.Idx → EReal) (ix2 p q) := by
  unfold iblk
  rw [View.read_apply]
  show V m c main_v36 _ = _
  congr 1
  funext a
  apply Fin.ext
  match a with
  | ⟨0, _⟩ => show win0_6.index t 0 * 1 + 1 * p.val = p.val; rw [(idx6 t).1]; omega
  | ⟨1, _⟩ => show win0_6.index t 1 * 50 + 1 * q.val = q.val; rw [(idx6 t).2]; omega

theorem blk7_apply (c : Dev nD) (t : Fin cfg0.N) (p : Fin 50) (q : Fin 100) :
    (iblk m c 7 t : Vec Ideal S50x100 .f32) (ix2 p q)
      = (V m c main_arg3 : S50x100.Idx → EReal) (ix2 p q) := by
  unfold iblk
  rw [View.read_apply]
  show V m c main_arg3 _ = _
  congr 1
  funext a
  apply Fin.ext
  match a with
  | ⟨0, _⟩ => show win0_7.index t 0 * 50 + 1 * p.val = p.val; rw [(idx7 t).1]; omega
  | ⟨1, _⟩ => show win0_7.index t 1 * 100 + 1 * q.val = q.val; rw [(idx7 t).2]; omega

theorem blk8_apply (c : Dev nD) (t : Fin cfg0.N) (p : Fin 1) (q : Fin 100) :
    (iblk m c 8 t : Vec Ideal S1x100 .f32) (ix2 p q)
      = (V m c main_v37 : S1x100.Idx → EReal) (ix2 p q) := by
  unfold iblk
  rw [View.read_apply]
  show V m c main_v37 _ = _
  congr 1
  funext a
  apply Fin.ext
  match a with
  | ⟨0, _⟩ => show win0_8.index t 0 * 1 + 1 * p.val = p.val; rw [(idx8 t).1]; omega
  | ⟨1, _⟩ => show win0_8.index t 1 * 100 + 1 * q.val = q.val; rw [(idx8 t).2]; omega

theorem blk9_apply (c : Dev nD) (t : Fin cfg0.N) (p : Fin 50) (q : Fin 1) :
    (iblk m c 9 t : Vec Ideal S50x1 .f32) (ix2 p q)
      = (V m c main_arg5 : S50x1.Idx → EReal) (ix2 p q) := by
  unfold iblk
  rw [View.read_apply]
  show V m c main_arg5 _ = _
  congr 1
  funext a
  apply Fin.ext
  match a with
  | ⟨0, _⟩ => show win0_9.index t 0 * 50 + 1 * p.val = p.val; rw [(idx9 t).1]; omega
  | ⟨1, _⟩ => show win0_9.index t 1 * 1 + 1 * q.val = q.val; rw [(idx9 t).2]; omega

theorem blk10_apply (c : Dev nD) (t : Fin cfg0.N) (p : Fin 1) (q : Fin 1) :
    (iblk m c 10 t : Vec Ideal S1x1 .f32) (ix2 p q)
      = (V m c main_v38 : S1x1.Idx → EReal) (ix2 p q) := by
  unfold iblk
  rw [View.read_apply]
  show V m c main_v38 _ = _
  congr 1
  funext a
  apply Fin.ext
  match a with
  | ⟨0, _⟩ => show win0_10.index t 0 * 1 + 1 * p.val = p.val; rw [(idx10 t).1]; omega
  | ⟨1, _⟩ => show win0_10.index t 1 * 1 + 1 * q.val = q.val; rw [(idx10 t).2]; omega

/-! ## The arrays the host lines build

An index word goes through the wrap of a negative index and gains a trailing unit axis; the gather reads it there. -/

/-- The wrapped context-shaped index words `[65536, 10]`, with the trailing unit axis. -/
abbrev wrapped3 (w : IVec S65536x10 32) : IVec S65536x10x1 32 :=
  broadcastInDim S65536x10x1 ![0, 1] bcast_S65536x10_S65536x10x1_0_1
    (select (cmpi .slt w (broadcastInDim S65536x10 ![] bcast_S_S65536x10 (constantI S_ 32 0#32)))
      (addi w (broadcastInDim S65536x10 ![] bcast_S_S65536x10 (constantI S_ 32 50000#32))) w)

/-- The wrapped centre-shaped index words `[65536]`, with the trailing unit axis. -/
abbrev wrapped2 (w : IVec S65536 32) : IVec S65536x1 32 :=
  broadcastInDim S65536x1 ![0] bcast_S65536_S65536x1_0
    (select (cmpi .slt w (broadcastInDim S65536 ![] bcast_S_S65536 (constantI S_ 32 0#32)))
      (addi w (broadcastInDim S65536 ![] bcast_S_S65536 (constantI S_ 32 50000#32))) w)

/-- At `(b, c, 0)` the wrapped words are the wrap of the word at `(b, c)`. -/
theorem wrapped3_apply (w : IVec S65536x10 32) (b : Fin 65536) (cc : Fin 10) :
    wrapped3 w (ix3 b cc (0 : Fin 1)) = wrap (w (ix2 b cc)) := by
  refine (broadcastInDim_apply _ _ _ _ (ix2 b cc) (fun a => by match a with | ⟨0, _⟩ => rfl | ⟨1, _⟩ => rfl)).trans ?_
  rfl

/-- At `(b, 0)` the wrapped words are the wrap of the word at `b`. -/
theorem wrapped2_apply (w : IVec S65536 32) (b : Fin 65536) :
    wrapped2 w (ix2 b (0 : Fin 1)) = wrap (w (ix1 b)) := by
  refine (broadcastInDim_apply _ _ _ _ (ix1 b) (fun a => by match a with | ⟨0, _⟩ => rfl)).trans ?_
  rfl

/-- The joined prior table: a word's 100 means, then its log-variance. -/
abbrev prior (c : Dev nD) : S50000x101.Idx → EReal :=
  concatenate S50000x101 1 [⟨S50000x100, (m ((c.tc : Thread nD τ).loc main_arg7))⟩, ⟨S50000x1, (m ((c.tc : Thread nD τ).loc main_arg8))⟩] concatenates_S50000x100_S50000x1_S50000x101_d1

/-- Its first 100 columns are the table of means. -/
theorem prior_mean (c : Dev nD) (r : Fin 50000) (l : Fin 100) :
    prior m c (ix2 r (Fin.castSucc l)) = (argsOf m c).tm (ix2 r l) :=
  concatenate_pair_apply_left (t := S50000x101) (s₁ := S50000x100) (s₂ := S50000x1) 1 _ _ _ (ix2 r (Fin.castSucc l)) rfl
    (ix2 r l) (fun b => by match b with | ⟨0, _⟩ => rfl | ⟨1, _⟩ => rfl)

/-- Its last column is the table of log-variances. -/
theorem prior_lvar (c : Dev nD) (r : Fin 50000) :
    prior m c (ix2 r (Fin.last 100)) = (argsOf m c).tl (ix2 r (0 : Fin 1)) :=
  concatenate_pair_apply_right (t := S50000x101) (s₁ := S50000x100) (s₂ := S50000x1) 1 _ _ _ (ix2 r (Fin.last 100)) rfl rfl
    (ix2 r (0 : Fin 1)) (fun b hb => by match b, hb with | ⟨0, _⟩, _ => rfl | ⟨1, _⟩, hb => exact absurd rfl hb) rfl

/-! Each array the windows stage, as the host lines' term of the arguments. -/

set_option maxHeartbeats 1600000 in
theorem v7_term (c : Dev nD) : (V m c main_v7 : S65536x10x50.Idx → EReal)
    = Host.gather (Cert.RowGather.rowDims3 50000 50 65536 10 gather_S50000x50_S65536x10x1_S65536x10x50_2_0_n_n_0_2_150.wf)
        (m ((c.tc : Thread nD τ).loc main_arg0)) (wrapped3 (m ((c.tc : Thread nD τ).loc main_arg10))) := by
  show StableHlo.after hostOps0 (fun b => m (c, b)) (Proc.devRef .tc main_v7) = _
  after_results_simp <;> rfl
set_option maxHeartbeats 1600000 in
theorem v14_term (c : Dev nD) : (V m c main_v14 : S65536x50.Idx → EReal)
    = Host.gather (Cert.RowGather.rowDims2 50000 50 65536 gather_S50000x50_S65536x1_S65536x50_1_0_n_n_0_1_150.wf)
        (m ((c.tc : Thread nD τ).loc main_arg0)) (wrapped2 (m ((c.tc : Thread nD τ).loc main_arg9))) := by
  show StableHlo.after hostOps0 (fun b => m (c, b)) (Proc.devRef .tc main_v14) = _
  after_results_simp <;> rfl
set_option maxHeartbeats 1600000 in
theorem v21_term (c : Dev nD) : (V m c main_v21 : S65536x10x101.Idx → EReal)
    = Host.gather (Cert.RowGather.rowDims3 50000 101 65536 10 gather_S50000x101_S65536x10x1_S65536x10x101_2_0_n_n_0_2_1101.wf)
        (prior m c) (wrapped3 (m ((c.tc : Thread nD τ).loc main_arg10))) := by
  show StableHlo.after hostOps0 (fun b => m (c, b)) (Proc.devRef .tc main_v21) = _
  after_results_simp <;> rfl
set_option maxHeartbeats 1600000 in
theorem v28_term (c : Dev nD) : (V m c main_v28 : S65536x10x101.Idx → EReal)
    = Host.gather (Cert.RowGather.rowDims3 50000 101 65536 10 gather_S50000x101_S65536x10x1_S65536x10x101_2_0_n_n_0_2_1101.wf)
        (prior m c) (wrapped3 (m ((c.tc : Thread nD τ).loc main_arg11))) := by
  show StableHlo.after hostOps0 (fun b => m (c, b)) (Proc.devRef .tc main_v28) = _
  after_results_simp <;> rfl
set_option maxHeartbeats 1600000 in
theorem v35_term (c : Dev nD) : (V m c main_v35 : S65536x101.Idx → EReal)
    = Host.gather (Cert.RowGather.rowDims2 50000 101 65536 gather_S50000x101_S65536x1_S65536x101_1_0_n_n_0_1_1101.wf)
        (prior m c) (wrapped2 (m ((c.tc : Thread nD τ).loc main_arg9))) := by
  show StableHlo.after hostOps0 (fun b => m (c, b)) (Proc.devRef .tc main_v35) = _
  after_results_simp <;> rfl
set_option maxHeartbeats 1600000 in
theorem v36_term (c : Dev nD) : (V m c main_v36 : S1x50.Idx → EReal)
    = shapeCast S1x50 (m ((c.tc : Thread nD τ).loc main_arg2)) shapeCasts_S50_S1x50 := by
  show StableHlo.after hostOps0 (fun b => m (c, b)) (Proc.devRef .tc main_v36) = _
  after_results_simp <;> rfl
set_option maxHeartbeats 1600000 in
theorem v37_term (c : Dev nD) : (V m c main_v37 : S1x100.Idx → EReal)
    = shapeCast S1x100 (m ((c.tc : Thread nD τ).loc main_arg4)) shapeCasts_S100_S1x100 := by
  show StableHlo.after hostOps0 (fun b => m (c, b)) (Proc.devRef .tc main_v37) = _
  after_results_simp <;> rfl
set_option maxHeartbeats 1600000 in
theorem v38_term (c : Dev nD) : (V m c main_v38 : S1x1.Idx → EReal)
    = shapeCast S1x1 (m ((c.tc : Thread nD τ).loc main_arg6)) shapeCasts_S1_S1x1 := by
  show StableHlo.after hostOps0 (fun b => m (c, b)) (Proc.devRef .tc main_v38) = _
  after_results_simp <;> rfl

/-! The same arrays read at an index. -/

/-- The context words' embedding rows. -/
theorem v7_apply (c : Dev nD) (b : Fin 65536) (cc : Fin 10) (f : Fin 50) :
    (V m c main_v7 : S65536x10x50.Idx → EReal) (ix3 b cc f) = (argsOf m c).ectx b cc f := by
  refine (congrFun (v7_term m c) _).trans ?_
  refine (Cert.RowGather.gather_rows3_apply (by decide) _ _ _ b cc f).trans ?_
  rw [wrapped3_apply]
  rfl

/-- The centre word's embedding row. -/
theorem v14_apply (c : Dev nD) (b : Fin 65536) (f : Fin 50) :
    (V m c main_v14 : S65536x50.Idx → EReal) (ix2 b f) = (argsOf m c).ecen b f := by
  refine (congrFun (v14_term m c) _).trans ?_
  refine (Cert.RowGather.gather_rows2_apply (by decide) _ _ _ b f).trans ?_
  rw [wrapped2_apply]
  rfl

/-- The context words' prior rows. -/
theorem v21_apply (c : Dev nD) (b : Fin 65536) (cc : Fin 10) (j : Fin 101) :
    (V m c main_v21 : S65536x10x101.Idx → EReal) (ix3 b cc j)
      = prior m c (ix2 (rowIx ((argsOf m c).ctx (ix2 b cc))) j) := by
  refine (congrFun (v21_term m c) _).trans ?_
  refine (Cert.RowGather.gather_rows3_apply (by decide) _ _ _ b cc j).trans ?_
  rw [wrapped3_apply]
  rfl

/-- The negative words' prior rows. -/
theorem v28_apply (c : Dev nD) (b : Fin 65536) (cc : Fin 10) (j : Fin 101) :
    (V m c main_v28 : S65536x10x101.Idx → EReal) (ix3 b cc j)
      = prior m c (ix2 (rowIx ((argsOf m c).neg (ix2 b cc))) j) := by
  refine (congrFun (v28_term m c) _).trans ?_
  refine (Cert.RowGather.gather_rows3_apply (by decide) _ _ _ b cc j).trans ?_
  rw [wrapped3_apply]
  rfl

/-- The centre word's prior row. -/
theorem v35_apply (c : Dev nD) (b : Fin 65536) (j : Fin 101) :
    (V m c main_v35 : S65536x101.Idx → EReal) (ix2 b j)
      = prior m c (ix2 (rowIx ((argsOf m c).cen (ix1 b))) j) := by
  refine (congrFun (v35_term m c) _).trans ?_
  refine (Cert.RowGather.gather_rows2_apply (by decide) _ _ _ b j).trans ?_
  rw [wrapped2_apply]
  rfl

/-- The three biases, each reshaped to one row. -/
theorem v36_apply (c : Dev nD) (p : Fin 1) (q : Fin 50) :
    (V m c main_v36 : S1x50.Idx → EReal) (ix2 p q) = (argsOf m c).b1 (ix1 q) :=
  (congrFun (v36_term m c) _).trans (shapeCast_a_1a_apply _ _ p q)
theorem v37_apply (c : Dev nD) (p : Fin 1) (q : Fin 100) :
    (V m c main_v37 : S1x100.Idx → EReal) (ix2 p q) = (argsOf m c).bmu (ix1 q) :=
  (congrFun (v37_term m c) _).trans (shapeCast_a_1a_apply _ _ p q)
theorem v38_apply (c : Dev nD) (p : Fin 1) (q : Fin 1) :
    (V m c main_v38 : S1x1.Idx → EReal) (ix2 p q) = (argsOf m c).bls (ix1 q) :=
  (congrFun (v38_term m c) _).trans (shapeCast_a_1a_apply _ _ p q)

/-! ## The staged rows are the examples' rows -/

/-- Two records of weights with the same fields are one. -/
theorem weights_mk_congr {a1 b1 : Fin 100 → Fin 50 → EReal} {a2 b2 : Fin 50 → EReal} {a3 b3 : Fin 50 → Fin 100 → EReal}
    {a4 b4 : Fin 100 → EReal} {a5 b5 : Fin 50 → EReal} {a6 b6 : EReal} (h1 : a1 = b1) (h2 : a2 = b2) (h3 : a3 = b3)
    (h4 : a4 = b4) (h5 : a5 = b5) (h6 : a6 = b6) :
    Weights.mk a1 a2 a3 a4 a5 a6 = Weights.mk b1 b2 b3 b4 b5 b6 := by
  subst h1 h2 h3 h4 h5 h6
  rfl

/-- Each staged weight array, read at an index, is the weight argument there. -/
theorem W1_blk (c : Dev nD) (t : Fin cfg0.N) (p : Fin 100) (q : Fin 50) :
    (iblk m c 5 t : Vec Ideal S100x50 .f32) (ix2 p q) = (argsOf m c).W1 (ix2 p q) :=
  (blk5_apply m c t p q).trans (congrFun (V_main_arg1 m c) (ix2 p q))
theorem b1_blk (c : Dev nD) (t : Fin cfg0.N) (q : Fin 50) :
    (iblk m c 6 t : Vec Ideal S1x50 .f32) (ix2 (0 : Fin 1) q) = (argsOf m c).b1 (ix1 q) :=
  (blk6_apply m c t 0 q).trans (v36_apply m c 0 q)
theorem Wmu_blk (c : Dev nD) (t : Fin cfg0.N) (p : Fin 50) (q : Fin 100) :
    (iblk m c 7 t : Vec Ideal S50x100 .f32) (ix2 p q) = (argsOf m c).Wmu (ix2 p q) :=
  (blk7_apply m c t p q).trans (congrFun (V_main_arg3 m c) (ix2 p q))
theorem bmu_blk (c : Dev nD) (t : Fin cfg0.N) (q : Fin 100) :
    (iblk m c 8 t : Vec Ideal S1x100 .f32) (ix2 (0 : Fin 1) q) = (argsOf m c).bmu (ix1 q) :=
  (blk8_apply m c t 0 q).trans (v37_apply m c 0 q)
theorem Wls_blk (c : Dev nD) (t : Fin cfg0.N) (p : Fin 50) :
    (iblk m c 9 t : Vec Ideal S50x1 .f32) (ix2 p (0 : Fin 1)) = (argsOf m c).Wls (ix2 p (0 : Fin 1)) :=
  (blk9_apply m c t p 0).trans (congrFun (V_main_arg5 m c) (ix2 p (0 : Fin 1)))
theorem bls_blk (c : Dev nD) (t : Fin cfg0.N) :
    (iblk m c 10 t : Vec Ideal S1x1 .f32) (ix2 (0 : Fin 1) (0 : Fin 1)) = (argsOf m c).bls (ix1 (0 : Fin 1)) :=
  (blk10_apply m c t 0 0).trans (v38_apply m c 0 0)

/-- The staged rows are the examples' rows. -/
theorem ectx_blk (c : Dev nD) (t : Fin cfg0.N) (r : Fin 128) :
    ectx (iblk m c 0 t) r = (argsOf m c).ectx (blkRow (t.cast N512) r) := by
  funext cc f
  exact (blk0_apply m c t r cc f).trans (v7_apply m c _ cc f)
theorem ecen_blk (c : Dev nD) (t : Fin cfg0.N) (r : Fin 128) :
    ecen (iblk m c 1 t) r = (argsOf m c).ecen (blkRow (t.cast N512) r) := by
  funext f
  exact (blk1_apply m c t r f).trans (v14_apply m c _ f)
theorem ctx_blk (c : Dev nD) (t : Fin cfg0.N) (r : Fin 128) :
    mean3 (iblk m c 2 t) r = (argsOf m c).mctx (blkRow (t.cast N512) r)
      ∧ lvar3 (iblk m c 2 t) r = (argsOf m c).lctx (blkRow (t.cast N512) r) := by
  refine ⟨funext fun cc => funext fun l => ?_, funext fun cc => ?_⟩
  · exact (blk2_apply m c t r cc _).trans ((v21_apply m c _ cc _).trans (prior_mean m c _ l))
  · exact (blk2_apply m c t r cc _).trans ((v21_apply m c _ cc _).trans (prior_lvar m c _))
theorem neg_blk (c : Dev nD) (t : Fin cfg0.N) (r : Fin 128) :
    mean3 (iblk m c 3 t) r = (argsOf m c).mneg (blkRow (t.cast N512) r)
      ∧ lvar3 (iblk m c 3 t) r = (argsOf m c).lneg (blkRow (t.cast N512) r) := by
  refine ⟨funext fun cc => funext fun l => ?_, funext fun cc => ?_⟩
  · exact (blk3_apply m c t r cc _).trans ((v28_apply m c _ cc _).trans (prior_mean m c _ l))
  · exact (blk3_apply m c t r cc _).trans ((v28_apply m c _ cc _).trans (prior_lvar m c _))
theorem cen_blk (c : Dev nD) (t : Fin cfg0.N) (r : Fin 128) :
    mean2 (iblk m c 4 t) r = (argsOf m c).mcen (blkRow (t.cast N512) r)
      ∧ lvar2 (iblk m c 4 t) r = (argsOf m c).lcen (blkRow (t.cast N512) r) := by
  refine ⟨funext fun l => ?_, ?_⟩
  · exact (blk4_apply m c t r _).trans ((v35_apply m c _ _).trans (prior_mean m c _ l))
  · exact (blk4_apply m c t r _).trans ((v35_apply m c _ _).trans (prior_lvar m c _))
/-- The staged weights are the weight arguments (the three biases through their host reshapes). -/
theorem W_blk (c : Dev nD) (t : Fin cfg0.N) :
    W (iblk m c 5 t) (iblk m c 6 t) (iblk m c 7 t) (iblk m c 8 t) (iblk m c 9 t) (iblk m c 10 t) = (argsOf m c).weights := by
  unfold W Args.weights
  exact weights_mk_congr (funext fun p => funext fun q => W1_blk m c t p q) (funext fun q => b1_blk m c t q)
    (funext fun p => funext fun q => Wmu_blk m c t p q) (funext fun q => bmu_blk m c t q)
    (funext fun p => Wls_blk m c t p) (bls_blk m c t)

/-- So a grid point's loss is its examples' hinges and centre terms. -/
theorem Lblk_eq (c : Dev nD) (t : Fin cfg0.N) :
    Lblk m c t = (∑ r : Fin 128, ∑ cc : Fin 10, (argsOf m c).H (blkRow (t.cast N512) r) cc)
      + ∑ r : Fin 128, (argsOf m c).K (blkRow (t.cast N512) r) := by
  unfold Lblk blockLoss Args.H Args.K
  rw [W_blk m c t]
  refine congrArg₂ (· + ·) (Finset.sum_congr rfl fun r _ => Finset.sum_congr rfl fun cc _ => ?_)
    (Finset.sum_congr rfl fun r _ => ?_)
  · rw [ectx_blk m c t r, ecen_blk m c t r, (ctx_blk m c t r).1, (ctx_blk m c t r).2, (neg_blk m c t r).1, (neg_blk m c t r).2]
  · rw [ectx_blk m c t r, ecen_blk m c t r, (cen_blk m c t r).1, (cen_blk m c t r).2]

end Cert.KernelIdeal.Rows

end
-- ==== Proof.KernelValue.lean ====
/-
  The kernel's result. The output block's index never moves, so its staging buffer carries a running sum across
  the 512 grid points: after point `n` its entry (0, 0) holds the losses of points `0 … n` added in order
  (`outsAt_00`, by induction on the point over the two control cases). The block is written back once, after the last
  point, and is the whole [8, 128] result array (`final_00`). The host lines after the region take entry (0, 0) and
  divide it by the batch size: the program's result is the examples' total over 65536, `Args.loss`.
-/
import proofs.«121254_j78829829751266_1_alg».proof.Proof.KernelPieces
import proofs.«121254_j78829829751266_1_alg».proof.Proof.KernelPay
import proofs.«121254_j78829829751266_1_alg».proof.Proof.KernelRows
import Idealize.ShloMosaic.Lib.Pipeline.Value
import Idealize.ShloMosaic.Lib.StableHlo.Run
import Idealize.ShloMosaic.Lib.Tactic

noncomputable section

open scoped BigOperators

namespace Cert.KernelIdeal.Acc

open Cert.KernelIdeal Cert.KernelIdeal.Gen Cert.KernelIdeal.Pay Cert.KernelIdeal.Pieces Cert.KernelIdeal.Rows Cert.Bsg
  Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Point `n`'s loss, zero past the grid. -/
def LblkN (c : Dev nD) (n : ℕ) : EReal := if h : n < cfg0.N then Lblk m c ⟨n, h⟩ else 0

/-- Inside the grid, point `n`'s loss is the loss of the blocks it stages. -/
theorem LblkN_of_lt (c : Dev nD) (n : ℕ) (h : n < cfg0.N) :
    LblkN m c n = blockLoss (iblk m c 0 ⟨n, h⟩) (iblk m c 1 ⟨n, h⟩) (iblk m c 2 ⟨n, h⟩) (iblk m c 3 ⟨n, h⟩)
      (iblk m c 4 ⟨n, h⟩) (iblk m c 5 ⟨n, h⟩) (iblk m c 6 ⟨n, h⟩) (iblk m c 7 ⟨n, h⟩) (iblk m c 8 ⟨n, h⟩)
      (iblk m c 9 ⟨n, h⟩) (iblk m c 10 ⟨n, h⟩) := by
  unfold LblkN
  rw [dif_pos h]
  rfl

/-- The zero block's entries are zero. -/
theorem zero_block_apply (i : S8x128.Idx) : k0_pay2 (F := Ideal) i = 0 := by
  unfold k0_pay2
  show broadcast S8x128 (Scalar.ofBits (F := Ideal) .f32 0x00000000#32) i = 0
  rw [broadcast_apply]
  exact Ideal.ofBits_zero_f32

/-- THE RUNNING SUM: after point `n` the output block's entry (0, 0) holds the losses of points `0 … n`. -/
theorem outsAt_00 (c : Dev nD) : ∀ (n : ℕ) (h : n < cfg0.N),
    outsAt0 (F := Ideal) m c n h (ix2 (0 : Fin 8) (0 : Fin 128)) = ∑ s ∈ Finset.range (n + 1), LblkN m c s
  | 0, h => by
    rw [outsAt0_A m c ⟨0, h⟩ rfl, out_A, blockTerm_apply00, zero_block_apply, zero_add, Finset.sum_range_one,
      LblkN_of_lt m c 0 h]
  | n + 1, h => by
    have hN : cfg0.N = 512 := N_0
    have hB : ¬(⟨n + 1, h⟩ : Fin cfg0.N).val % 512 = 0 := by dsimp only; omega
    rw [outsAt0_B m c ⟨n + 1, h⟩ hB, out_B, blockTerm_apply00, Finset.sum_range_succ _ (n + 1), LblkN_of_lt m c (n + 1) h]
    show outsAt0 m c n _ (ix2 (0 : Fin 8) (0 : Fin 128)) + _ = _
    rw [outsAt_00 c n]

/-- The last grid point, the one after which the output block is written back. -/
abbrev tlast : Fin cfg0.N := ⟨511, lt_of_lt_of_eq (by decide : 511 < 512) N512.symm⟩

/-- Block (0, 0) of the [8, 128] result array sits at zero offsets and is the whole array: what the write-back after
    the last point moves out of a staged block `X` is what the block's view reads off `X` as the array's contents. -/
theorem cut_eq_read (c : Dev nD) (X : Buf (Elt Ideal) ((c : Thread nD τ).loc main_v39)) :
    (cfg0.win 11).cut (grid0.coords tlast) X = ((cfg0.win 11).blk tlast).view.read (Elt Ideal) X := by
  have hz' : (fun a => win0_11.index tlast a * main_v39.ty.shape.size a) = fun _ => 0 := funext fun a => by fin_cases a <;> decide
  exact (Memref.read_access_unit_zero (Elt Ideal) main_v39 hz' (fun a => by rw [congrFun hz' a]; simp) X).symm

/-- What the output block holds after the last point, as contents of the result array (its one block is the array). -/
abbrev result (c : Dev nD) : Buf (Elt Ideal) ((c : Thread nD τ).loc main_v39) := outsAt0 m c tlast.val tlast.isLt

/-- The one write-back, after the last point, writes it. -/
theorem flushed_eq (c : Dev nD) (t : Fin cfg0.N) (hf : (cfg0.win 11).flush t = true) :
    (dats m 0 c).flushed 11 t = ((cfg0.win 11).blk t).view.read (Elt Ideal) (result m c) := by
  have hN : cfg0.N = 512 := N_0
  have h3 : t.val = 511 := by have := (flush0_11 t).mp hf; have := t.isLt; omega
  obtain rfl : t = tlast := Fin.ext h3
  show (cfg0.win 11).cut (grid0.coords tlast) ((dats m 0 c).after 11 tlast) = _
  rw [after0_11]
  exact cut_eq_read c (result m c)

/-- So the result array ends holding the output block's contents after the last point: that point's block covers it. -/
theorem final_arr (c : Dev nD) : (dats m 0 c).arrAt 11 cfg0.N = result m c :=
  (dats m 0 c).arrAt_eq_of_cover 11 (result m c) (flushed_eq m c) fun i =>
    ⟨tlast, (flush0_11 tlast).mpr rfl, by
      show i ∈ ((View.whole main_v39).slice (win0_11.rect tlast)).set
      rw [View.set_slice_whole, Rect.mem_set_unit]
      intro a
      have h0 : (i 0 : Nat) < 8 := (i 0).isLt
      have h1 : (i 1 : Nat) < 128 := (i 1).isLt
      match a with
      | ⟨0, _⟩ => show win0_11.index tlast 0 * win0_11.size 0 ≤ (i 0 : Nat) ∧ (i 0 : Nat) < win0_11.index tlast 0 * win0_11.size 0 + win0_11.xsize (grid0.coords tlast) 0
                  rw [show win0_11.index tlast 0 * win0_11.size 0 = 0 from by decide, show win0_11.xsize (grid0.coords tlast) 0 = 8 from by decide]; omega
      | ⟨1, _⟩ => show win0_11.index tlast 1 * win0_11.size 1 ≤ (i 1 : Nat) ∧ (i 1 : Nat) < win0_11.index tlast 1 * win0_11.size 1 + win0_11.xsize (grid0.coords tlast) 1
                  rw [show win0_11.index tlast 1 * win0_11.size 1 = 0 from by decide, show win0_11.xsize (grid0.coords tlast) 1 = 128 from by decide]; omega⟩

/-- The result array's entry (0, 0) after the region: all 512 points' losses. -/
theorem final_00 (c : Dev nD) :
    (dats m 0 c).arrAt 11 cfg0.N (ix2 (0 : Fin 8) (0 : Fin 128)) = ∑ t : Fin cfg0.N, Lblk m c t := by
  have hsum : ∑ s ∈ Finset.range cfg0.N, LblkN m c s = ∑ t : Fin cfg0.N, Lblk m c t := by
    rw [Finset.sum_range]
    exact Finset.sum_congr rfl fun t _ => dif_pos t.isLt
  rw [final_arr m c]
  exact (outsAt_00 m c tlast.val tlast.isLt).trans ((congrArg (fun n => ∑ s ∈ Finset.range n, LblkN m c s) N512.symm).trans hsum)

/-- The host lines after the region, read: they take entry (0, 0) of the result array and divide it by the batch size. -/
theorem tail_v42 (c : Dev nD) : Pipeline.afterTail₀ cfgs (dats m) 0 (V0 m) [hostOps1] c main_v42
    = (fun _ => Ideal.div (∑ t : Fin cfg0.N, Lblk m c t) (Ideal.ofBits .f32 0x47800000#32)) := by
  have hA : Pipeline.withArrays (cfgs 0).spec c (V0 m c) (fun w => (dats m 0 c).arrAt w (cfgs 0).N) (Proc.devRef .tc main_v39)
      = (dats m 0 c).arrAt 11 cfg0.N := Pipeline.withArrays_arr spec0 launch0.win.arr_inj c _ _ 11
  unfold Pipeline.afterTail₀
  show StableHlo.after hostOps1 _ (Proc.devRef .tc main_v42) = _
  after_results
  rw [hA]
  funext j
  have hk1 : (S1x1.rowMajor (ix2 (0 : Fin 1) (0 : Fin 1))).val = (S_.rowMajor j).val := by
    have h1 := (S1x1.rowMajor (ix2 (0 : Fin 1) (0 : Fin 1))).isLt
    have h2 := (S_.rowMajor j).isLt
    have e1 : S1x1.numel = 1 := Shape.numel_eq_one fun a => by fin_cases a <;> rfl
    have e2 : S_.numel = 1 := Shape.numel_eq_one fun a => a.elim0
    omega
  show Ideal.div (shapeCast S_ (extractStridedSlice S1x1 ![0, 0] ((dats m 0 c).arrAt 11 cfg0.N) slices_S8x128_S1x1_0_0)
    shapeCasts_S1x1_S_ j) (Ideal.ofBits .f32 0x47800000#32) = _
  rw [shapeCast_apply _ shapeCasts_S1x1_S_ j (ix2 (0 : Fin 1) (0 : Fin 1)) hk1,
    extractStridedSlice_apply ![0, 0] _ slices_S8x128_S1x1_0_0 (ix2 (0 : Fin 1) (0 : Fin 1)) (ix2 (0 : Fin 8) (0 : Fin 128))
      (fun a => by fin_cases a <;> rfl),
    final_00]

/-- The run, read: the program's result is the sum of the points' losses over the batch size; the arguments are unchanged. -/
theorem run_blocks : θ_run defs (onTc (τ := τ) (main (F := Ideal))) ⟨m, fun _ => 0, ρ⟩ (fun r => ∀ c : Dev nD,
      r.2.mem ((c.tc : Thread nD τ).loc main_v42)
        = (fun _ => Ideal.div (∑ t : Fin cfg0.N, Lblk m c t) (Ideal.ofBits .f32 0x47800000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨((h c).2 main_v42 (Pipeline.mem_restRefs_of main_v42 (by decide) (by decide))).trans (tail_v42 m c),
      (((h c).2 main_arg0 (Pipeline.mem_restRefs_of main_arg0 (by decide) (by decide))).trans (W_main_arg0 m (dats m) c)),
      ((h c).1 5).trans (((dats m 0 c).arrAt_in 5 rfl _).trans ((A_eq m c 5).trans (V_main_arg1 m c))),
      (((h c).2 main_arg2 (Pipeline.mem_restRefs_of main_arg2 (by decide) (by decide))).trans (W_main_arg2 m (dats m) c)),
      ((h c).1 7).trans (((dats m 0 c).arrAt_in 7 rfl _).trans ((A_eq m c 7).trans (V_main_arg3 m c))),
      (((h c).2 main_arg4 (Pipeline.mem_restRefs_of main_arg4 (by decide) (by decide))).trans (W_main_arg4 m (dats m) c)),
      ((h c).1 9).trans (((dats m 0 c).arrAt_in 9 rfl _).trans ((A_eq m c 9).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩)
    (run_main m ρ)

/-- The sum of the points' losses is the examples' total. -/
theorem sum_Lblk (c : Dev nD) : ∑ t : Fin cfg0.N, Lblk m c t = (argsOf m c).total := by
  rw [← (argsOf m c).total_blocks, ← Equiv.sum_comp (finCongr N512) (fun t : Fin 512 =>
    (∑ r : Fin 128, ∑ cc : Fin 10, (argsOf m c).H (blkRow t r) cc) + ∑ r : Fin 128, (argsOf m c).K (blkRow t r))]
  exact Finset.sum_congr rfl fun t _ => Lblk_eq m c t

/-- THE KERNEL'S VALUE: its result is the loss of Rows.lean at the argument arrays. -/
theorem run : θ_run defs (onTc (τ := τ) (main (F := Ideal))) ⟨m, fun _ => 0, ρ⟩ (fun r => ∀ c : Dev nD,
      r.2.mem ((c.tc : Thread nD τ).loc main_v42) = (fun _ => (argsOf m c).loss)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1.trans (by rw [sum_Lblk]; rfl), (h c).2⟩) (run_blocks m ρ)

end Cert.KernelIdeal.Acc

end
-- ==== Proof.RefHidden.lean ====
/-
  The reference's first stages read at an index over the extended reals: example `b`'s hidden vector, posterior mean
  and posterior log-deviation are those of Rows.lean at the argument arrays — the two embedding gathers read as row
  reads, the joined rows as `cat`, the three `dot_general`s and the sum over the context axis as plain sums.
-/
import proofs.«121254_j78829829751266_1_alg».proof.Proof.Gen.ReferenceIdeal.Read
import proofs.«121254_j78829829751266_1_alg».proof.Proof.Rows
import Idealize.ShloMosaic.Lib.Pipeline.Value
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Cert.ReferenceIdeal.Read Cert.Bsg Idealize.ShloMosaic Idealize.ShloMosaic.TcCoe
  Idealize.ShloMosaic.ValueIdx Idealize.SL.Sem

variable (x0 : (⟨S50000x50, .f32⟩ : BufTy).Contents (Elt Ideal)) (x1 : (⟨S100x50, .f32⟩ : BufTy).Contents (Elt Ideal))
  (x2 : (⟨S50, .f32⟩ : BufTy).Contents (Elt Ideal)) (x3 : (⟨S50x100, .f32⟩ : BufTy).Contents (Elt Ideal))
  (x4 : (⟨S100, .f32⟩ : BufTy).Contents (Elt Ideal)) (x5 : (⟨S50x1, .f32⟩ : BufTy).Contents (Elt Ideal))
  (x6 : (⟨S1, .f32⟩ : BufTy).Contents (Elt Ideal)) (x7 : (⟨S50000x100, .f32⟩ : BufTy).Contents (Elt Ideal))
  (x8 : (⟨S50000x1, .f32⟩ : BufTy).Contents (Elt Ideal)) (x9 : (⟨S65536, .i32⟩ : BufTy).Contents (Elt Ideal))
  (x10 x11 : (⟨S65536x10, .i32⟩ : BufTy).Contents (Elt Ideal))

/-- The argument arrays as Rows.lean takes them. -/
abbrev argsOf : Args := ⟨x0, x1, x2, x3, x4, x5, x6, x7, x8, x9, x10, x11⟩

/-- The start index of the context gather at `(b, c, 0)` is the wrapped context word. -/
theorem v5_start (b : Fin 65536) (c : Fin 10) :
    val_main_v5 (F := Ideal) x10 (ix3 b c (0 : Fin 1)) = wrap (x10 (ix2 b c)) := by
  have e : idx_main_v5 (ix3 b c (0 : Fin 1)) = ix2 b c :=
    funext fun a => Fin.ext (by match a with | ⟨0, _⟩ => rfl | ⟨1, _⟩ => rfl)
  rw [val_main_v5_apply, e, val_main_v4_apply, val_main_v1_apply, val_main_v3_apply, val_main_v0_apply, val_main_v2_apply,
    val_main_c_apply, val_main_c_0_apply]
  rfl

/-- The start index of the centre gather at `(b, 0)` is the wrapped centre word. -/
theorem v12_start (b : Fin 65536) :
    val_main_v12 (F := Ideal) x9 (ix2 b (0 : Fin 1)) = wrap (x9 (ix1 b)) := by
  have e : idx_main_v12 (ix2 b (0 : Fin 1)) = ix1 b :=
    funext fun a => Fin.ext (by match a with | ⟨0, _⟩ => rfl)
  rw [val_main_v12_apply, e, val_main_v11_apply, val_main_v8_apply, val_main_v10_apply, val_main_v7_apply, val_main_v9_apply,
    val_main_c_1_apply, val_main_c_2_apply]
  rfl

/-- The embedding rows of example `b`'s context words and of its centre word. -/
theorem v6_apply (b : Fin 65536) (c : Fin 10) (f : Fin 50) :
    val_main_v6 (F := Ideal) x0 x10 (ix3 b c f) = (argsOf x0 x1 x2 x3 x4 x5 x6 x7 x8 x9 x10 x11).ectx b c f := by
  unfold val_main_v6
  show Host.gather (Cert.RowGather.rowDims3 50000 50 65536 10 _) _ _ _ = _
  rw [Cert.RowGather.gather_rows3_apply (by decide), v5_start]
  rfl
theorem v13_apply (b : Fin 65536) (f : Fin 50) :
    val_main_v13 (F := Ideal) x0 x9 (ix2 b f) = (argsOf x0 x1 x2 x3 x4 x5 x6 x7 x8 x9 x10 x11).ecen b f := by
  unfold val_main_v13
  show Host.gather (Cert.RowGather.rowDims2 50000 50 65536 _) _ _ _ = _
  rw [Cert.RowGather.gather_rows2_apply (by decide), v12_start]
  rfl
/-- The joined rows. -/
theorem v16_apply (b : Fin 65536) (c : Fin 10) (f : Fin 100) :
    val_main_v16 (F := Ideal) x0 x9 x10 (ix3 b c f) = cat ((argsOf x0 x1 x2 x3 x4 x5 x6 x7 x8 x9 x10 x11).ectx b) ((argsOf x0 x1 x2 x3 x4 x5 x6 x7 x8 x9 x10 x11).ecen b) c f := by
  unfold val_main_v16 Cert.Bsg.cat
  by_cases hf : f.val < 50
  · rw [dif_pos hf, ← v6_apply x0 x1 x2 x3 x4 x5 x6 x7 x8 x9 x10 x11 b c ⟨f.val, hf⟩]
    exact concatenate_pair_apply_left (t := S65536x10x100) (s₁ := S65536x10x50) (s₂ := S65536x10x50) _ _ _ _ (ix3 b c f) rfl (ix3 b c (⟨f.val, hf⟩ : Fin 50))
      (fun a => by match a with | ⟨0, _⟩ => rfl | ⟨1, _⟩ => rfl | ⟨2, _⟩ => rfl)
  · have e : idx_main_v14 (idx_main_v15 (ix3 b c (⟨f.val - 50, by omega⟩ : Fin 50))) = ix2 b (⟨f.val - 50, by omega⟩ : Fin 50) :=
      funext fun a => Fin.ext (by match a with | ⟨0, _⟩ => rfl | ⟨1, _⟩ => rfl)
    rw [dif_neg hf, ← v13_apply x0 x1 x2 x3 x4 x5 x6 x7 x8 x9 x10 x11 b ⟨f.val - 50, by omega⟩, ← e, ← val_main_v14_apply, ← val_main_v15_apply]
    refine concatenate_pair_apply_right (t := S65536x10x100) (s₁ := S65536x10x50) (s₂ := S65536x10x50) _ _ _ _ (ix3 b c f) rfl rfl (ix3 b c (⟨f.val - 50, by omega⟩ : Fin 50)) ?_ ?_
    · intro a ha
      match a with
      | ⟨0, _⟩ => rfl
      | ⟨1, _⟩ => rfl
      | ⟨2, _⟩ => exact absurd rfl ha
    · show f.val - 50 + 50 = f.val
      omega

/-- Example `b`'s hidden vector, -/
theorem v22_apply (b : Fin 65536) (j : Fin 50) :
    val_main_v22 (F := Ideal) x0 x1 x2 x9 x10 (ix2 b j) = (argsOf x0 x1 x2 x3 x4 x5 x6 x7 x8 x9 x10 x11).h b j := by
  have e22 : ∀ k : Fin 10, idx_main_v22 (ix2 b j) k = ix3 b k j := fun k =>
    funext fun a => Fin.ext (by match a with | ⟨0, _⟩ => rfl | ⟨1, _⟩ => rfl | ⟨2, _⟩ => rfl)
  have el : ∀ (c : Fin 10) (k : Fin 100), lidx_main_v17 (ix3 b c j) k = ix3 b c k := fun c k =>
    funext fun a => Fin.ext (by match a with | ⟨0, _⟩ => rfl | ⟨1, _⟩ => rfl | ⟨2, _⟩ => rfl)
  have er : ∀ (c : Fin 10) (k : Fin 100), ridx_main_v17 (ix3 b c j) k = ix2 k j := fun c k =>
    funext fun a => Fin.ext (by match a with | ⟨0, _⟩ => rfl | ⟨1, _⟩ => rfl)
  have eb : ∀ c : Fin 10, idx_main_v18 (idx_main_v19 (ix3 b c j)) = ix1 j := fun c =>
    funext fun a => Fin.ext (by match a with | ⟨0, _⟩ => rfl)
  rw [val_main_v22_apply]
  simp only [e22, val_main_v21_apply, val_main_v20_apply, val_main_v17_apply, val_main_v19_apply, val_main_v18_apply,
    val_main_call0_v0_apply, val_main_call0_cst_apply, val_main_cst_apply, el, er, eb,
    v16_apply x0 x1 x2 x3 x4 x5 x6 x7 x8 x9 x10 x11, Ideal.addf_def, Ideal.maximumf_def, Ideal.ofBits_def,
    Ideal.ofBits_zero_f32, zero_add]
  rfl
/-- its posterior mean, -/
theorem v26_apply (b : Fin 65536) (l : Fin 100) :
    val_main_v26 (F := Ideal) x0 x1 x2 x3 x4 x9 x10 (ix2 b l) = (argsOf x0 x1 x2 x3 x4 x5 x6 x7 x8 x9 x10 x11).mu b l := by
  have el : ∀ k : Fin 50, lidx_main_v23 (ix2 b l) k = ix2 b k := fun k =>
    funext fun a => Fin.ext (by match a with | ⟨0, _⟩ => rfl | ⟨1, _⟩ => rfl)
  have er : ∀ k : Fin 50, ridx_main_v23 (ix2 b l) k = ix2 k l := fun k =>
    funext fun a => Fin.ext (by match a with | ⟨0, _⟩ => rfl | ⟨1, _⟩ => rfl)
  have eb : idx_main_v24 (idx_main_v25 (ix2 b l)) = ix1 l :=
    funext fun a => Fin.ext (by match a with | ⟨0, _⟩ => rfl)
  rw [val_main_v26_apply, val_main_v23_apply, val_main_v25_apply, val_main_v24_apply, eb]
  simp only [el, er, v22_apply x0 x1 x2 x3 x4 x5 x6 x7 x8 x9 x10 x11, Ideal.addf_def]
  rfl
/-- and its posterior log-deviation. -/
theorem v30_apply (b : Fin 65536) :
    val_main_v30 (F := Ideal) x0 x1 x2 x5 x6 x9 x10 (ix2 b (0 : Fin 1)) = (argsOf x0 x1 x2 x3 x4 x5 x6 x7 x8 x9 x10 x11).ls b := by
  have el : ∀ k : Fin 50, lidx_main_v27 (ix2 b (0 : Fin 1)) k = ix2 b k := fun k =>
    funext fun a => Fin.ext (by match a with | ⟨0, _⟩ => rfl | ⟨1, _⟩ => rfl)
  have er : ∀ k : Fin 50, ridx_main_v27 (ix2 b (0 : Fin 1)) k = ix2 k (0 : Fin 1) := fun k =>
    funext fun a => Fin.ext (by match a with | ⟨0, _⟩ => rfl | ⟨1, _⟩ => rfl)
  have eb : idx_main_v28 (idx_main_v29 (ix2 b (0 : Fin 1))) = ix1 (0 : Fin 1) :=
    funext fun a => Fin.ext (by match a with | ⟨0, _⟩ => rfl)
  rw [val_main_v30_apply, val_main_v27_apply, val_main_v29_apply, val_main_v28_apply, eb]
  simp only [el, er, v22_apply x0 x1 x2 x3 x4 x5 x6 x7 x8 x9 x10 x11, Ideal.addf_def]
  rfl

end Cert.ReferenceIdeal.RefValue

end
-- ==== Proof.RefRows.lean ====
/-
  The reference's six prior-row gathers read at an index: the mean row and the log-variance of the context word and
  of the negative word of each flat (example, context position) pair, and of each example's centre word, are the
  rows Rows.lean reads off the two prior tables — the pair's index word is `contexts[n / 10, n % 10]` (the flat
  reshape of the index array), wrapped and clamped as every row gather does.
-/
import proofs.«121254_j78829829751266_1_alg».proof.Proof.RefHidden

noncomputable section

open scoped BigOperators

namespace Cert.ReferenceIdeal.RefValue

open Cert.ReferenceIdeal Cert.ReferenceIdeal.Gen Cert.ReferenceIdeal.Read Cert.Bsg Idealize.ShloMosaic Idealize.ShloMosaic.TcCoe
  Idealize.ShloMosaic.ValueIdx Idealize.SL.Sem

variable (x0 : (⟨S50000x50, .f32⟩ : BufTy).Contents (Elt Ideal)) (x1 : (⟨S100x50, .f32⟩ : BufTy).Contents (Elt Ideal))
  (x2 : (⟨S50, .f32⟩ : BufTy).Contents (Elt Ideal)) (x3 : (⟨S50x100, .f32⟩ : BufTy).Contents (Elt Ideal))
  (x4 : (⟨S100, .f32⟩ : BufTy).Contents (Elt Ideal)) (x5 : (⟨S50x1, .f32⟩ : BufTy).Contents (Elt Ideal))
  (x6 : (⟨S1, .f32⟩ : BufTy).Contents (Elt Ideal)) (x7 : (⟨S50000x100, .f32⟩ : BufTy).Contents (Elt Ideal))
  (x8 : (⟨S50000x1, .f32⟩ : BufTy).Contents (Elt Ideal)) (x9 : (⟨S65536, .i32⟩ : BufTy).Contents (Elt Ideal))
  (x10 x11 : (⟨S65536x10, .i32⟩ : BufTy).Contents (Elt Ideal))

/-- The flat reshape of an index array `[65536, 10]`: flat position `n` reads entry `(n / 10, n % 10)`. -/
theorem idx_v35_flat (n : Fin 655360) : idx_main_v35 (ix1 n) = ix2 (flatRow n) (flatCol n) :=
  funext fun a => Fin.ext (by match a with | ⟨0, _⟩ => rfl | ⟨1, _⟩ => rfl)
theorem idx_v66_flat (n : Fin 655360) : idx_main_v66 (ix1 n) = ix2 (flatRow n) (flatCol n) :=
  funext fun a => Fin.ext (by match a with | ⟨0, _⟩ => rfl | ⟨1, _⟩ => rfl)

/-- The start index of the context mean gather at `(n, 0)` is the wrapped context word of the flat pair `n`. -/
theorem start_mctx (n : Fin 655360) :
    val_main_v42 (F := Ideal) x10 (ix2 n (0 : Fin 1)) = wrap (x10 (ix2 (flatRow n) (flatCol n))) := by
  have e : idx_main_v42 (ix2 n (0 : Fin 1)) = ix1 n :=
    funext fun a => Fin.ext (by match a with | ⟨0, _⟩ => rfl)
  rw [val_main_v42_apply, e, val_main_v41_apply, val_main_v38_apply, val_main_v40_apply, val_main_v35_apply,
    val_main_v37_apply, val_main_v39_apply, val_main_c_3_apply, val_main_c_4_apply, idx_v35_flat]
  rfl

/-- The same of the context log-variance gather. -/
theorem start_lctx (n : Fin 655360) :
    val_main_v49 (F := Ideal) x10 (ix2 n (0 : Fin 1)) = wrap (x10 (ix2 (flatRow n) (flatCol n))) := by
  have e : idx_main_v49 (ix2 n (0 : Fin 1)) = ix1 n :=
    funext fun a => Fin.ext (by match a with | ⟨0, _⟩ => rfl)
  rw [val_main_v49_apply, e, val_main_v48_apply, val_main_v45_apply, val_main_v47_apply, val_main_v35_apply,
    val_main_v44_apply, val_main_v46_apply, val_main_c_5_apply, val_main_c_6_apply, idx_v35_flat]
  rfl

/-- The start index of the negative mean gather at `(n, 0)` is the wrapped negative word of the flat pair `n`. -/
theorem start_mneg (n : Fin 655360) :
    val_main_v73 (F := Ideal) x11 (ix2 n (0 : Fin 1)) = wrap (x11 (ix2 (flatRow n) (flatCol n))) := by
  have e : idx_main_v73 (ix2 n (0 : Fin 1)) = ix1 n :=
    funext fun a => Fin.ext (by match a with | ⟨0, _⟩ => rfl)
  rw [val_main_v73_apply, e, val_main_v72_apply, val_main_v69_apply, val_main_v71_apply, val_main_v66_apply,
    val_main_v68_apply, val_main_v70_apply, val_main_c_10_apply, val_main_c_11_apply, idx_v66_flat]
  rfl

/-- The same of the negative log-variance gather. -/
theorem start_lneg (n : Fin 655360) :
    val_main_v80 (F := Ideal) x11 (ix2 n (0 : Fin 1)) = wrap (x11 (ix2 (flatRow n) (flatCol n))) := by
  have e : idx_main_v80 (ix2 n (0 : Fin 1)) = ix1 n :=
    funext fun a => Fin.ext (by match a with | ⟨0, _⟩ => rfl)
  rw [val_main_v80_apply, e, val_main_v79_apply, val_main_v76_apply, val_main_v78_apply, val_main_v66_apply,
    val_main_v75_apply, val_main_v77_apply, val_main_c_12_apply, val_main_c_13_apply, idx_v66_flat]
  rfl

/-- The start index of the centre mean gather at `(b, 0)` is the wrapped centre word. -/
theorem start_mcen (b : Fin 65536) :
    val_main_v103 (F := Ideal) x9 (ix2 b (0 : Fin 1)) = wrap (x9 (ix1 b)) := by
  have e : idx_main_v103 (ix2 b (0 : Fin 1)) = ix1 b :=
    funext fun a => Fin.ext (by match a with | ⟨0, _⟩ => rfl)
  rw [val_main_v103_apply, e, val_main_v102_apply, val_main_v99_apply, val_main_v101_apply,
    val_main_v98_apply, val_main_v100_apply, val_main_c_17_apply, val_main_c_18_apply]
  rfl

/-- The same of the centre log-variance gather. -/
theorem start_lcen (b : Fin 65536) :
    val_main_v110 (F := Ideal) x9 (ix2 b (0 : Fin 1)) = wrap (x9 (ix1 b)) := by
  have e : idx_main_v110 (ix2 b (0 : Fin 1)) = ix1 b :=
    funext fun a => Fin.ext (by match a with | ⟨0, _⟩ => rfl)
  rw [val_main_v110_apply, e, val_main_v109_apply, val_main_v106_apply, val_main_v108_apply,
    val_main_v105_apply, val_main_v107_apply, val_main_c_19_apply, val_main_c_20_apply]
  rfl

/-- The prior rows of a flat pair's context word, of its negative word, and of an example's centre word. -/
theorem v43_apply (n : Fin 655360) (l : Fin 100) :
    val_main_v43 (F := Ideal) x7 x10 (ix2 n l) = (argsOf x0 x1 x2 x3 x4 x5 x6 x7 x8 x9 x10 x11).mctx (flatRow n) (flatCol n) l := by
  unfold val_main_v43
  show Host.gather (Cert.RowGather.rowDims2 50000 100 655360 _) _ _ _ = _
  rw [Cert.RowGather.gather_rows2_apply (by decide), start_mctx]
  rfl
theorem v50_apply (n : Fin 655360) :
    val_main_v50 (F := Ideal) x8 x10 (ix2 n (0 : Fin 1)) = (argsOf x0 x1 x2 x3 x4 x5 x6 x7 x8 x9 x10 x11).lctx (flatRow n) (flatCol n) := by
  unfold val_main_v50
  show Host.gather (Cert.RowGather.rowDims2 50000 1 655360 _) _ _ _ = _
  rw [Cert.RowGather.gather_rows2_apply (by decide), start_lctx]
  rfl
theorem v74_apply (n : Fin 655360) (l : Fin 100) :
    val_main_v74 (F := Ideal) x7 x11 (ix2 n l) = (argsOf x0 x1 x2 x3 x4 x5 x6 x7 x8 x9 x10 x11).mneg (flatRow n) (flatCol n) l := by
  unfold val_main_v74
  show Host.gather (Cert.RowGather.rowDims2 50000 100 655360 _) _ _ _ = _
  rw [Cert.RowGather.gather_rows2_apply (by decide), start_mneg]
  rfl
theorem v81_apply (n : Fin 655360) :
    val_main_v81 (F := Ideal) x8 x11 (ix2 n (0 : Fin 1)) = (argsOf x0 x1 x2 x3 x4 x5 x6 x7 x8 x9 x10 x11).lneg (flatRow n) (flatCol n) := by
  unfold val_main_v81
  show Host.gather (Cert.RowGather.rowDims2 50000 1 655360 _) _ _ _ = _
  rw [Cert.RowGather.gather_rows2_apply (by decide), start_lneg]
  rfl
theorem v104_apply (b : Fin 65536) (l : Fin 100) :
    val_main_v104 (F := Ideal) x7 x9 (ix2 b l) = (argsOf x0 x1 x2 x3 x4 x5 x6 x7 x8 x9 x10 x11).mcen b l := by
  unfold val_main_v104
  show Host.gather (Cert.RowGather.rowDims2 50000 100 65536 _) _ _ _ = _
  rw [Cert.RowGather.gather_rows2_apply (by decide), start_mcen]
  rfl
theorem v111_apply (b : Fin 65536) :
    val_main_v111 (F := Ideal) x8 x9 (ix2 b (0 : Fin 1)) = (argsOf x0 x1 x2 x3 x4 x5 x6 x7 x8 x9 x10 x11).lcen b := by
  unfold val_main_v111
  show Host.gather (Cert.RowGather.rowDims2 50000 1 65536 _) _ _ _ = _
  rw [Cert.RowGather.gather_rows2_apply (by decide), start_lcen]
  rfl

end Cert.ReferenceIdeal.RefValue

end
-- ==== Proof.RefKl.lean ====
/-
  The reference's later stages read at an index over the extended reals: the divergence of each flat
  (example, context position) pair against the context word's prior row and against the negative word's, the
  centre term of each example, the hinge of each pair — all as Rows.lean writes them — and the result: the sum
  of all hinges plus the sum of all centre terms, over the batch size.
-/
import proofs.«121254_j78829829751266_1_alg».proof.Proof.RefHidden
import proofs.«121254_j78829829751266_1_alg».proof.Proof.RefRows

noncomputable section

open scoped BigOperators

namespace Cert.ReferenceIdeal.RefValue

open Cert.ReferenceIdeal Cert.ReferenceIdeal.Gen Cert.ReferenceIdeal.Read Cert.Bsg Idealize.ShloMosaic Idealize.ShloMosaic.TcCoe
  Idealize.ShloMosaic.ValueIdx Idealize.SL.Sem

variable (x0 : (⟨S50000x50, .f32⟩ : BufTy).Contents (Elt Ideal)) (x1 : (⟨S100x50, .f32⟩ : BufTy).Contents (Elt Ideal))
  (x2 : (⟨S50, .f32⟩ : BufTy).Contents (Elt Ideal)) (x3 : (⟨S50x100, .f32⟩ : BufTy).Contents (Elt Ideal))
  (x4 : (⟨S100, .f32⟩ : BufTy).Contents (Elt Ideal)) (x5 : (⟨S50x1, .f32⟩ : BufTy).Contents (Elt Ideal))
  (x6 : (⟨S1, .f32⟩ : BufTy).Contents (Elt Ideal)) (x7 : (⟨S50000x100, .f32⟩ : BufTy).Contents (Elt Ideal))
  (x8 : (⟨S50000x1, .f32⟩ : BufTy).Contents (Elt Ideal)) (x9 : (⟨S65536, .i32⟩ : BufTy).Contents (Elt Ideal))
  (x10 x11 : (⟨S65536x10, .i32⟩ : BufTy).Contents (Elt Ideal))

namespace Kl

/-! ## Index arithmetic -/

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ :
    Fin n ≃ (⟨1, ![n]⟩ : Shape).Idx) f).symm

/-- A column vector `[N, 1]` flattened to `[N]` reads its row. -/
theorem idx61_col (n : Fin 655360) : idx_main_v61 (ix1 n) = ix2 n (0 : Fin 1) :=
  funext fun a => Fin.ext (by match a with | ⟨0, _⟩ => exact Nat.div_one _ | ⟨1, _⟩ => rfl)
theorem idx92_col (n : Fin 655360) : idx_main_v92 (ix1 n) = ix2 n (0 : Fin 1) :=
  funext fun a => Fin.ext (by match a with | ⟨0, _⟩ => exact Nat.div_one _ | ⟨1, _⟩ => rfl)
theorem idx122_col (b : Fin 65536) : idx_main_v122 (ix1 b) = ix2 b (0 : Fin 1) :=
  funext fun a => Fin.ext (by match a with | ⟨0, _⟩ => exact Nat.div_one _ | ⟨1, _⟩ => rfl)

/-! ## The posterior repeated over the ten context positions -/

/-- The posterior mean of a flat pair is its example's. -/
theorem v32_apply (n : Fin 655360) (l : Fin 100) :
    val_main_v32 (F := Ideal) x0 x1 x2 x3 x4 x9 x10 (ix2 n l) = (argsOf x0 x1 x2 x3 x4 x5 x6 x7 x8 x9 x10 x11).mu (flatRow n) l := by
  have h32 : idx_main_v32 (ix2 n l) = ix3 (flatRow n) (flatCol n) l := funext fun a => Fin.ext (by
    have hn := n.isLt; have hl := l.isLt
    match a with
    | ⟨0, _⟩ => show (n.val * 100 + l.val) / 1000 = n.val / 10; omega
    | ⟨1, _⟩ => show (n.val * 100 + l.val) / 100 % 10 = n.val % 10; omega
    | ⟨2, _⟩ => show (n.val * 100 + l.val) % 100 = l.val; omega)
  have h31 : idx_main_v31 (ix3 (flatRow n) (flatCol n) l) = ix2 (flatRow n) l :=
    funext fun a => Fin.ext (by match a with | ⟨0, _⟩ => rfl | ⟨1, _⟩ => rfl)
  rw [val_main_v32_apply, h32, val_main_v31_apply, h31, v26_apply x0 x1 x2 x3 x4 x5 x6 x7 x8 x9 x10 x11]
/-- The posterior log-deviation of a flat pair is its example's. -/
theorem v34_apply (n : Fin 655360) :
    val_main_v34 (F := Ideal) x0 x1 x2 x5 x6 x9 x10 (ix2 n (0 : Fin 1)) = (argsOf x0 x1 x2 x3 x4 x5 x6 x7 x8 x9 x10 x11).ls (flatRow n) := by
  have h34 : idx_main_v34 (ix2 n (0 : Fin 1)) = ix3 (flatRow n) (flatCol n) (0 : Fin 1) := funext fun a => Fin.ext (by
    have hn := n.isLt
    match a with
    | ⟨0, _⟩ => show (n.val * 1 + 0) / 10 = n.val / 10; omega
    | ⟨1, _⟩ => show (n.val * 1 + 0) / 1 % 10 = n.val % 10; omega
    | ⟨2, _⟩ => rfl)
  have h33 : idx_main_v33 (ix3 (flatRow n) (flatCol n) (0 : Fin 1)) = ix2 (flatRow n) (0 : Fin 1) :=
    funext fun a => Fin.ext (by match a with | ⟨0, _⟩ => rfl | ⟨1, _⟩ => rfl)
  rw [val_main_v34_apply, h34, val_main_v33_apply, h33, v30_apply x0 x1 x2 x3 x4 x5 x6 x7 x8 x9 x10 x11]

/-! ## The squared distances of the posterior mean from a prior row -/

theorem v55_apply (n : Fin 655360) :
    val_main_v55 (F := Ideal) x0 x1 x2 x3 x4 x7 x9 x10 (ix1 n)
      = 0 + ∑ l : Fin 100, ((argsOf x0 x1 x2 x3 x4 x5 x6 x7 x8 x9 x10 x11).mu (flatRow n) l - (argsOf x0 x1 x2 x3 x4 x5 x6 x7 x8 x9 x10 x11).mctx (flatRow n) (flatCol n) l)
          * ((argsOf x0 x1 x2 x3 x4 x5 x6 x7 x8 x9 x10 x11).mu (flatRow n) l - (argsOf x0 x1 x2 x3 x4 x5 x6 x7 x8 x9 x10 x11).mctx (flatRow n) (flatCol n) l) := by
  rw [val_main_v55_apply, val_main_cst_7_apply]
  refine congrArg₂ (· + ·) Ideal.ofBits_zero_f32 (Finset.sum_congr rfl fun k _ => ?_)
  have hk : idx_main_v55 (ix1 n) k = ix2 n k := funext fun a => Fin.ext (by match a with | ⟨0, _⟩ => rfl | ⟨1, _⟩ => rfl)
  rw [hk, val_main_v54_apply, val_main_v53_apply, v32_apply x0 x1 x2 x3 x4 x5 x6 x7 x8 x9 x10 x11, v43_apply x0 x1 x2 x3 x4 x5 x6 x7 x8 x9 x10 x11]
  rfl
theorem v86_apply (n : Fin 655360) :
    val_main_v86 (F := Ideal) x0 x1 x2 x3 x4 x7 x9 x10 x11 (ix1 n)
      = 0 + ∑ l : Fin 100, ((argsOf x0 x1 x2 x3 x4 x5 x6 x7 x8 x9 x10 x11).mu (flatRow n) l - (argsOf x0 x1 x2 x3 x4 x5 x6 x7 x8 x9 x10 x11).mneg (flatRow n) (flatCol n) l)
          * ((argsOf x0 x1 x2 x3 x4 x5 x6 x7 x8 x9 x10 x11).mu (flatRow n) l - (argsOf x0 x1 x2 x3 x4 x5 x6 x7 x8 x9 x10 x11).mneg (flatRow n) (flatCol n) l) := by
  rw [val_main_v86_apply, val_main_cst_14_apply]
  refine congrArg₂ (· + ·) Ideal.ofBits_zero_f32 (Finset.sum_congr rfl fun k _ => ?_)
  have hk : idx_main_v86 (ix1 n) k = ix2 n k := funext fun a => Fin.ext (by match a with | ⟨0, _⟩ => rfl | ⟨1, _⟩ => rfl)
  rw [hk, val_main_v85_apply, val_main_v84_apply, v32_apply x0 x1 x2 x3 x4 x5 x6 x7 x8 x9 x10 x11, v74_apply x0 x1 x2 x3 x4 x5 x6 x7 x8 x9 x10 x11]
  rfl
theorem v116_apply (b : Fin 65536) :
    val_main_v116 (F := Ideal) x0 x1 x2 x3 x4 x7 x9 x10 (ix1 b)
      = 0 + ∑ l : Fin 100, ((argsOf x0 x1 x2 x3 x4 x5 x6 x7 x8 x9 x10 x11).mu b l - (argsOf x0 x1 x2 x3 x4 x5 x6 x7 x8 x9 x10 x11).mcen b l) * ((argsOf x0 x1 x2 x3 x4 x5 x6 x7 x8 x9 x10 x11).mu b l - (argsOf x0 x1 x2 x3 x4 x5 x6 x7 x8 x9 x10 x11).mcen b l) := by
  rw [val_main_v116_apply, val_main_cst_21_apply]
  refine congrArg₂ (· + ·) Ideal.ofBits_zero_f32 (Finset.sum_congr rfl fun k _ => ?_)
  have hk : idx_main_v116 (ix1 b) k = ix2 b k := funext fun a => Fin.ext (by match a with | ⟨0, _⟩ => rfl | ⟨1, _⟩ => rfl)
  rw [hk, val_main_v115_apply, val_main_v114_apply, v26_apply x0 x1 x2 x3 x4 x5 x6 x7 x8 x9 x10 x11, v104_apply x0 x1 x2 x3 x4 x5 x6 x7 x8 x9 x10 x11]
  rfl

end Kl

open Kl

/-! ## The divergences, the hinge and the result -/

/-- The divergence of a flat pair's example from its context word's prior row, -/
theorem v65_apply (n : Fin 655360) :
    val_main_v65 (F := Ideal) x0 x1 x2 x3 x4 x5 x6 x7 x8 x9 x10 (ix1 n)
      = klOf ((argsOf x0 x1 x2 x3 x4 x5 x6 x7 x8 x9 x10 x11).mu (flatRow n)) ((argsOf x0 x1 x2 x3 x4 x5 x6 x7 x8 x9 x10 x11).ls (flatRow n))
          ((argsOf x0 x1 x2 x3 x4 x5 x6 x7 x8 x9 x10 x11).mctx (flatRow n) (flatCol n)) ((argsOf x0 x1 x2 x3 x4 x5 x6 x7 x8 x9 x10 x11).lctx (flatRow n) (flatCol n)) := by
  have h56 : idx_main_v56 (ix2 n (0 : Fin 1)) = ix1 n := funext fun a => Fin.ext (by match a with | ⟨0, _⟩ => rfl)
  rw [val_main_v65_apply, val_main_v64_apply, val_main_cst_9_apply, val_main_v63_apply, val_main_v62_apply, val_main_cst_8_apply,
    val_main_v61_apply, idx61_col, val_main_v60_apply, val_main_v59_apply, val_main_v58_apply, val_main_v57_apply,
    val_main_v56_apply, h56, v55_apply x0 x1 x2 x3 x4 x5 x6 x7 x8 x9 x10 x11, val_main_v52_apply, val_main_v51_apply, val_main_v36_apply,
    v34_apply x0 x1 x2 x3 x4 x5 x6 x7 x8 x9 x10 x11, v50_apply x0 x1 x2 x3 x4 x5 x6 x7 x8 x9 x10 x11]
  unfold klOf
  simp only [Ideal.hostUnary_exp_def, Ideal.hostDivf_def, Ideal.subf_def, Ideal.addf_def, Ideal.mulf_def, Ideal.ofBits_def, zero_add]
/-- from its negative word's, -/
theorem v96_apply (n : Fin 655360) :
    val_main_v96 (F := Ideal) x0 x1 x2 x3 x4 x5 x6 x7 x8 x9 x10 x11 (ix1 n)
      = klOf ((argsOf x0 x1 x2 x3 x4 x5 x6 x7 x8 x9 x10 x11).mu (flatRow n)) ((argsOf x0 x1 x2 x3 x4 x5 x6 x7 x8 x9 x10 x11).ls (flatRow n))
          ((argsOf x0 x1 x2 x3 x4 x5 x6 x7 x8 x9 x10 x11).mneg (flatRow n) (flatCol n)) ((argsOf x0 x1 x2 x3 x4 x5 x6 x7 x8 x9 x10 x11).lneg (flatRow n) (flatCol n)) := by
  have h87 : idx_main_v87 (ix2 n (0 : Fin 1)) = ix1 n := funext fun a => Fin.ext (by match a with | ⟨0, _⟩ => rfl)
  rw [val_main_v96_apply, val_main_v95_apply, val_main_cst_16_apply, val_main_v94_apply, val_main_v93_apply, val_main_cst_15_apply,
    val_main_v92_apply, idx92_col, val_main_v91_apply, val_main_v90_apply, val_main_v89_apply, val_main_v88_apply,
    val_main_v87_apply, h87, v86_apply x0 x1 x2 x3 x4 x5 x6 x7 x8 x9 x10 x11, val_main_v83_apply, val_main_v82_apply, val_main_v67_apply,
    v34_apply x0 x1 x2 x3 x4 x5 x6 x7 x8 x9 x10 x11, v81_apply x0 x1 x2 x3 x4 x5 x6 x7 x8 x9 x10 x11]
  unfold klOf
  simp only [Ideal.hostUnary_exp_def, Ideal.hostDivf_def, Ideal.subf_def, Ideal.addf_def, Ideal.mulf_def, Ideal.ofBits_def, zero_add]
/-- and an example's centre term. -/
theorem v126_apply (b : Fin 65536) :
    val_main_v126 (F := Ideal) x0 x1 x2 x3 x4 x5 x6 x7 x8 x9 x10 (ix1 b) = (argsOf x0 x1 x2 x3 x4 x5 x6 x7 x8 x9 x10 x11).K b := by
  have h117 : idx_main_v117 (ix2 b (0 : Fin 1)) = ix1 b := funext fun a => Fin.ext (by match a with | ⟨0, _⟩ => rfl)
  rw [val_main_v126_apply, val_main_v125_apply, val_main_cst_23_apply, val_main_v124_apply, val_main_v123_apply, val_main_cst_22_apply,
    val_main_v122_apply, idx122_col, val_main_v121_apply, val_main_v120_apply, val_main_v119_apply, val_main_v118_apply,
    val_main_v117_apply, h117, v116_apply x0 x1 x2 x3 x4 x5 x6 x7 x8 x9 x10 x11, val_main_v113_apply, val_main_v112_apply, val_main_v97_apply,
    v30_apply x0 x1 x2 x3 x4 x5 x6 x7 x8 x9 x10 x11, v111_apply x0 x1 x2 x3 x4 x5 x6 x7 x8 x9 x10 x11, Args.K_eq]
  unfold klOf
  simp only [Ideal.hostUnary_exp_def, Ideal.hostDivf_def, Ideal.subf_def, Ideal.addf_def, Ideal.mulf_def, Ideal.ofBits_def, zero_add]
/-- The hinge of a flat pair. -/
theorem v131_apply (n : Fin 655360) :
    val_main_v131 (F := Ideal) x0 x1 x2 x3 x4 x5 x6 x7 x8 x9 x10 x11 (ix1 n) = (argsOf x0 x1 x2 x3 x4 x5 x6 x7 x8 x9 x10 x11).H (flatRow n) (flatCol n) := by
  rw [val_main_v131_apply, val_main_v130_apply, val_main_cst_25_apply, val_main_v129_apply, val_main_v128_apply, val_main_cst_24_apply,
    val_main_v127_apply, v65_apply x0 x1 x2 x3 x4 x5 x6 x7 x8 x9 x10 x11, v96_apply x0 x1 x2 x3 x4 x5 x6 x7 x8 x9 x10 x11, Args.H_eq]
  unfold hingeOf
  simp only [Ideal.maximumf_def, Ideal.addf_def, Ideal.subf_def, Ideal.ofBits_def, Ideal.ofBits_zero_f32]

/-- THE REFERENCE'S VALUE: its result is the loss of Rows.lean at the argument arrays. -/
theorem v135_eq_loss : val_main_v135 (F := Ideal) x0 x1 x2 x3 x4 x5 x6 x7 x8 x9 x10 x11 = fun _ => (argsOf x0 x1 x2 x3 x4 x5 x6 x7 x8 x9 x10 x11).loss := by
  funext i
  rw [val_main_v135_apply, val_main_cst_28_apply, val_main_v134_apply, val_main_v132_apply, val_main_v133_apply,
    val_main_cst_26_apply, val_main_cst_27_apply, sum_idx1, sum_idx1]
  unfold Args.loss Args.total
  simp only [v131_apply x0 x1 x2 x3 x4 x5 x6 x7 x8 x9 x10 x11, v126_apply x0 x1 x2 x3 x4 x5 x6 x7 x8 x9 x10 x11, Ideal.hostDivf_def, Ideal.addf_def, Ideal.ofBits_def, Ideal.ofBits_zero_f32, zero_add]

end Cert.ReferenceIdeal.RefValue

end
-- ==== Proof.lean ====
/-
  The certificate of the Bayesian skip-gram loss kernel against its jnp reference.

  Both programs compute, for each of 65536 examples, a hidden vector from the embedding rows of its ten context
  words and its centre word, a posterior mean and log-deviation from it, the divergence of that posterior from the
  prior rows of the context, negative and centre words, the hinge of each context / negative pair, and the mean over
  the batch of all hinges and centre terms (Spec.lean, Rows.lean). The kernel gathers the rows on the host — the two
  prior tables joined into one of 101 columns first —, runs the arithmetic on 512 blocks of 128 examples, adding each
  block's loss into one running entry, and divides that entry by the batch size (KernelPay*.lean: a block's loss;
  KernelPieces.lean, KernelValue.lean: the running sum and the result; KernelRows.lean: the staged blocks are the
  examples' rows). The reference gathers from the two prior tables separately and sums all 655360 hinges and all
  65536 centre terms at once (RefHidden.lean, RefKl.lean). Row by row the two gathers read the same table entries
  (LibRowGather.lean: a row gather clamps its row number, at every index word), operation by operation the two
  arithmetics are the same extended reals, and the two groupings of the total agree because addition of extended
  reals is commutative and associative (Spec.lean, total_eq): no finiteness of the inputs is used.
-/
import proofs.«121254_j78829829751266_1_alg».proof.Defs
import proofs.«121254_j78829829751266_1_alg».proof.Proof.Gen.Kernel
import proofs.«121254_j78829829751266_1_alg».proof.Proof.Gen.Kernel.Skeleton
import proofs.«121254_j78829829751266_1_alg».proof.Proof.Gen.Kernel.Launch
import proofs.«121254_j78829829751266_1_alg».proof.Proof.Gen.Kernel.Points
import proofs.«121254_j78829829751266_1_alg».proof.Proof.Gen.Kernel.Frame
import proofs.«121254_j78829829751266_1_alg».proof.Proof.Gen.KernelIdeal
import proofs.«121254_j78829829751266_1_alg».proof.Proof.Gen.KernelIdeal.Skeleton
import proofs.«121254_j78829829751266_1_alg».proof.Proof.Gen.KernelIdeal.Launch
import proofs.«121254_j78829829751266_1_alg».proof.Proof.Gen.KernelIdeal.Points
import proofs.«121254_j78829829751266_1_alg».proof.Proof.Gen.KernelIdeal.Frame
import proofs.«121254_j78829829751266_1_alg».proof.Proof.Gen.ReferenceIdeal
import proofs.«121254_j78829829751266_1_alg».proof.Proof.Gen.Pre_finite_inputs
import proofs.«121254_j78829829751266_1_alg».proof.Proof.Gen.ReferenceIdeal.Run
import proofs.«121254_j78829829751266_1_alg».proof.Proof.Gen.ReferenceIdeal.Read
import proofs.«121254_j78829829751266_1_alg».proof.Proof.KernelValue
import proofs.«121254_j78829829751266_1_alg».proof.Proof.RefKl
import Idealize.ShloMosaic.Adequacy
import Idealize.ShloMosaic.Init

noncomputable section

namespace Cert.Proof

open Idealize.ShloMosaic Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the reference: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Over the extended reals both programs end at the loss of Rows.lean at the argument arrays, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (fun _ => (Cert.KernelIdeal.Rows.argsOf m c).loss), Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v135_eq, Cert.ReferenceIdeal.RefValue.v135_eq_loss, h0, h1, h2, h3, h4, h5, h6, h7, h8, h9, h10, h11]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
